-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x20000 : Shape := ⟨3, ![8, 3, 20000]⟩
abbrev S1024x3 : Shape := ⟨2, ![1024, 3]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S_ : Shape := ⟨0, ![]⟩

class Facts : Prop where
  bcast_S_S8x3x20000 : S_.BroadcastsInDim S8x3x20000 (![] : Fin 0 → Fin S8x3x20000.rank)
  reducesTo_S8x3x20000_S_d0_1_2 : S8x3x20000.ReducesTo [0, 1, 2] S_
  h_S_ : 0 < S_.numel
  bcast_S_S1024x3 : S_.BroadcastsInDim S1024x3 (![] : Fin 0 → Fin S1024x3.rank)
  reducesTo_S1024x3_S_d0_1 : S1024x3.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg5 : FVec F S1024 .f32) (main_arg11 : FVec F S1024 .f32) (main_v63 : IVec S_ 1) (main_v67 : IVec S_ 1) : IVec S_ 1 :=
  let main_v68 : IVec S_ 1 := andi main_v63 main_v67
  let main_cst_26 : FVec F S_ .f32 := constant S_ .f32 0x00000000#32
  let main_v69 : FVec F S1024 .f32 := broadcastInDim S1024 ![] bcast_S_S1024 main_cst_26
  let main_v70 : IVec S1024 1 := cmpf .oge main_arg5 main_v69
  let main_c_27 : IVec S_ 1 := constantI S_ 1 1#1
  let main_v71 : IVec S_ 1 := (fun x v => Host.reduce IntOp.andi x v reducesTo_S1024_S_d0 h_S_) main_v70 main_c_27
  let main_v72 : IVec S_ 1 := andi main_v68 main_v71
  let main_cst_28 : FVec F S_ .f32 := constant S_ .f32 0x00000000#32
  let main_v73 : FVec F S1024 .f32 := broadcastInDim S1024 ![] bcast_S_S1024 main_cst_28
  let main_v74 : IVec S1024 1 := cmpf .oge main_arg11 main_v73
  let main_c_29 : IVec S_ 1 := constantI S_ 1 1#1
  let main_v75 : IVec S_ 1 := (fun x v => Host.reduce IntOp.andi x v reducesTo_S1024_S_d0 h_S_) main_v74 main_c_29
  let main_v76 : IVec S_ 1 := andi main_v72 main_v75
  main_v76

def fn_part3 {F : FTy → Type} [FloatOps F] (main_arg5 : FVec F S1024 .f32) (main_arg11 : FVec F S1024 .f32) (main_arg12 : FVec F S1x1024 .f32) (main_arg13 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1x1024 .f32 := Host.absf main_arg12
  let main_cst_22 : FVec F S_ .f32 := constant S_ .f32 0x7F800000#32
  let main_v60 : FVec F S1x1024 .f32 := broadcastInDim S1x1024 ![] bcast_S_S1x1024 main_cst_22
  let main_v61 : IVec S1x1024 1 := cmpf .olt main_v59 main_v60
  let main_c_23 : IVec S_ 1 := constantI S_ 1 1#1
  let main_v62 : IVec S_ 1 := (fun x v => Host.reduce IntOp.andi x v reducesTo_S1x1024_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg5 main_arg11 main_v63 main_v67

def fn_part2 {F : FTy → Type} [FloatOps F] (main_arg5 : FVec F S1024 .f32) (main_arg7 : FVec F S1024 .f32) (main_arg8 : FVec F S1024 .f32) (main_arg9 : FVec F S1024 .f32) (main_arg10 : FVec F S1024 .f32) (main_arg11 : FVec F S1024 .f32) (main_arg12 : FVec F S1x1024 .f32) (main_arg13 : FVec F S1 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg5 main_arg11 main_arg12 main_arg13 main_v48 main_v49 main_v50

def fn_part1 {F : FTy → Type} [FloatOps F] (main_arg4 : FVec F S1024 .f32) (main_arg5 : FVec F S1024 .f32) (main_arg6 : FVec F S1024x1024 .f32) (main_arg7 : FVec F S1024 .f32) (main_arg8 : FVec F S1024 .f32) (main_arg9 : FVec F S1024 .f32) (main_arg10 : FVec F S1024 .f32) (main_arg11 : FVec F S1024 .f32) (main_arg12 : FVec F S1x1024 .f32) (main_arg13 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg5 main_arg7 main_arg8 main_arg9 main_arg10 main_arg11 main_arg12 main_arg13 main_v33

def fn {F : FTy → Type} [FloatOps F] (main_arg0 : FVec F S8x3x20000 .f32) (main_arg1 : FVec F S1024x3 .f32) (main_arg2 : FVec F S1024 .f32) (main_arg3 : FVec F S1024 .f32) (main_arg4 : FVec F S1024 .f32) (main_arg5 : FVec F S1024 .f32) (main_arg6 : FVec F S1024x1024 .f32) (main_arg7 : FVec F S1024 .f32) (main_arg8 : FVec F S1024 .f32) (main_arg9 : FVec F S1024 .f32) (main_arg10 : FVec F S1024 .f32) (main_arg11 : FVec F S1024 .f32) (main_arg12 : FVec F S1x1024 .f32) (main_arg13 : FVec F S1 .f32) : IVec S_ 1 :=
  let main_v0 : FVec F S8x3x20000 .f32 := Host.absf main_arg0
  let main_cst : FVec F S_ .f32 := constant S_ .f32 0x7F800000#32
  let main_v1 : FVec F S8x3x20000 .f32 := broadcastInDim S8x3x20000 ![] bcast_S_S8x3x20000 main_cst
  let main_v2 : IVec S8x3x20000 1 := cmpf .olt main_v0 main_v1
  let main_c : IVec S_ 1 := constantI S_ 1 1#1
  let main_v3 : IVec S_ 1 := (fun x v => Host.reduce IntOp.andi x v reducesTo_S8x3x20000_S_d0_1_2 h_S_) main_v2 main_c
  let main_v4 : FVec F S1024x3 .f32 := Host.absf main_arg1
  let main_cst_0 : FVec F S_ .f32 := constant S_ .f32 0x7F800000#32
  let main_v5 : FVec F S1024x3 .f32 := broadcastInDim S1024x3 ![] bcast_S_S1024x3 main_cst_0
  let main_v6 : IVec S1024x3 1 := cmpf .olt main_v4 main_v5
  let main_c_1 : IVec S_ 1 := constantI S_ 1 1#1
  let main_v7 : IVec S_ 1 := (fun x v => Host.reduce IntOp.andi x v reducesTo_S1024x3_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S8x3x20000 : Shape := ⟨3, ![8, 3, 20000]⟩
abbrev S1024x3 : Shape := ⟨2, ![1024, 3]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S8x20000x3 : Shape := ⟨3, ![8, 20000, 3]⟩
abbrev S3x1024 : Shape := ⟨2, ![3, 1024]⟩
abbrev S8x1x1024 : Shape := ⟨3, ![8, 1, 1024]⟩
abbrev S1x2000x3 : Shape := ⟨3, ![1, 2000, 3]⟩
abbrev S1x1x1024 : Shape := ⟨3, ![1, 1, 1024]⟩
abbrev S2000x3 : Shape := ⟨2, ![2000, 3]⟩
abbrev S2000 : Shape := ⟨1, ![2000]⟩
abbrev S2000x1 : Shape := ⟨2, ![2000, 1]⟩
abbrev S2000x1024 : Shape := ⟨2, ![2000, 1024]⟩
abbrev S8x1024 : Shape := ⟨2, ![8, 1024]⟩
abbrev S1x1 : Shape := ⟨2, ![1, 1]⟩
abbrev S8x1 : Shape := ⟨2, ![8, 1]⟩

abbrev nBuf : Space → Nat
  | .hbm => 29
  | .vmem => 20
  | .smem => 0
  | _ => 0

abbrev bufTy : (tb : Table) → Fin (tcTables nBuf tb) → BufTy
  | .hbm, ⟨0, _⟩ => ⟨S8x3x20000, .f32⟩
  | .hbm, ⟨1, _⟩ => ⟨S1024x3, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1, .f32⟩
  | .hbm, ⟨14, _⟩ => ⟨S8x20000x3, .f32⟩
  | .hbm, ⟨15, _⟩ => ⟨S3x1024, .f32⟩
  | .hbm, ⟨16, _⟩ => ⟨S8x1x1024, .f32⟩
  | .hbm, ⟨17, _⟩ => ⟨S8x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1, .f32⟩
  | .hbm, ⟨28, _⟩ => ⟨S8x1, .f32⟩
  | .local _ .vmem, ⟨0, _⟩ => ⟨S1x2000x3, .f32⟩
  | .local _ .vmem, ⟨1, _⟩ => ⟨S1x2000x3, .f32⟩
  | .local _ .vmem, ⟨2, _⟩ => ⟨S3x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1024, .f32⟩
  | .local _ .vmem, ⟨6, _⟩ => ⟨S8x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1, .f32⟩
  | .local _ .vmem, ⟨19, _⟩ => ⟨S8x1, .f32⟩
  | _, _ => ⟨S8x3x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc1_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem13_0 : DmaSem sig := 18

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v45 : BitVec 1 := Scalar.cmpi .eq arg1 c9_i32
  let v46 : BitVec 32 := Scalar.extui v45
  let c0_i32_13 : BitVec 32 := 0#32
  let v47 : BitVec 1 := Scalar.cmpi .ne v46 c0_i32_13
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S8x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

class Facts₀ : Prop where
  transposes_S8x3x20000_S8x20000x3_0_2_1 : S8x3x20000.Transposes [0, 2, 1] S8x20000x3
  transposes_S1024x3_S3x1024_1_0 : S1024x3.Transposes [1, 0] S3x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x2000x3_S1x2000x3_0_0_0 : ∀ a, (![0, 0, 0] : Fin 3 → Nat) a + S1x2000x3.size a ≤ S1x2000x3.size a
  h_S1x2000x3 : 0 < S1x2000x3.numel
  shapeCasts_S1x2000x3_S2000x3 : S1x2000x3.ShapeCasts S2000x3
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  reduces_S2000x3_S2000 : S2000x3.Reduces [1] S2000
  shapeCasts_S2000_S2000x1 : S2000.ShapeCasts S2000x1
  reduces_S3x1024_S1024 : S3x1024.Reduces [0] S1024
  shapeCasts_S1024_S1x1024 : S1024.ShapeCasts S1x1024
  slices_S2000x3_o0_0_S2000x1 : S2000x3.Slices ![0, 0] S2000x1
  slices_S3x1024_o0_0_S1x1024 : S3x1024.Slices ![0, 0] S1x1024
  broadcasts_S2000x1_S2000x1024 : S2000x1.Broadcasts S2000x1024
  broadcasts_S1x1024_S2000x1024 : S1x1024.Broadcasts S2000x1024
  slices_S2000x3_o0_1_S2000x1 : S2000x3.Slices ![0, 1] S2000x1
  slices_S3x1024_o1_0_S1x1024 : S3x1024.Slices ![1, 0] S1x1024
  slices_S2000x3_o0_2_S2000x1 : S2000x3.Slices ![0, 2] S2000x1
  slices_S3x1024_o2_0_S1x1024 : S3x1024.Slices ![2, 0] S1x1024
  reduces_S2000x1024_S1024 : S2000x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S8x1x1024_S8x1024 : S8x1x1024.ShapeCasts S8x1024
  shapeCasts_S1_S1x1 : S1.ShapeCasts S1x1
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  broadcasts_S1x1024_S8x1024 : S1x1024.Broadcasts S8x1024
  inb_S1024x1024_S1024x1024_0_0 : ∀ a, (![0, 0] : Fin 2 → Nat) a + S1024x1024.size a ≤ S1024x1024.size a
  h_S1024x1024 : 0 < S1024x1024.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8x1 : S1x1.Broadcasts S8x1
  inb_S8x1_S8x1_0_0 : ∀ a, (![0, 0] : Fin 2 → Nat) a + S8x1.size a ≤ S8x1.size a
  h_S8x1 : 0 < S8x1.numel
  dot_S8x1024_S1024x1024_S8x1024_1_1_0_0_n_n_wf : DotDims.WF S8x1024 S1024x1024 S8x1024 [1] [1] [0] [0] [] []
  dot_S8x1024_S1x1024_S8x1_1_1_0_0_n_n_wf : DotDims.WF S8x1024 S1x1024 S8x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x3.size a ≤ S8x20000x3.size a
  hwx0_0 : ∀ i : grid0.Coords, EltTy.bits .f32 = 32 ∨ (Rect.block (s := S8x20000x3) S1x2000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x1024.size a
  hwx0_1 : ∀ i : grid0.Coords, EltTy.bits .f32 = 32 ∨ (Rect.block (s := S3x1024) S3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x1024.size a ≤ S8x1024.size a
  hwx1_0 : ∀ i : grid1.Coords, EltTy.bits .f32 = 32 ∨ (Rect.block (s := S8x1024) S8x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .f32 = 32 ∨ (Rect.block (s := S1024x1024) S1024x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x1024.size a
  hwx1_8 : ∀ i : grid1.Coords, EltTy.bits .f32 = 32 ∨ (Rect.block (s := S1x1024) S1x1024.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x1024.size a
  hwx1_9 : ∀ i : grid1.Coords, EltTy.bits .f32 = 32 ∨ (Rect.block (s := S1x1024) S1x1024.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1024.size a ≤ S1x1024.size a
  hwx1_10 : ∀ i : grid1.Coords, EltTy.bits .f32 = 32 ∨ (Rect.block (s := S1x1024) S1x1024.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1024.size a ≤ S1x1024.size a
  hwx1_11 : ∀ i : grid1.Coords, EltTy.bits .f32 = 32 ∨ (Rect.block (s := S1x1024) S1x1024.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S8x1.size a ≤ S8x1.size a
  hwx1_13 : ∀ i : grid1.Coords, EltTy.bits .f32 = 32 ∨ (Rect.block (s := S8x1) S8x1.size (cc1_transform_13 i) (hinb1_13 i)).WholeWords (EltTy.packing .f32)

variable [Facts₀]

def dot_S8x1024_S1024x1024_S8x1024_1_1_0_0_n_n : DotDims S8x1024 S1024x1024 S8x1024 where
  lhsContracting := [1]
  rhsContracting := [1]
  lhsNonContracting := [0]
  rhsNonContracting := [0]
  lhsBatch := []
  rhsBatch := []
  wf := dot_S8x1024_S1024x1024_S8x1024_1_1_0_0_n_n_wf
def dot_S8x1024_S1x1024_S8x1_1_1_0_0_n_n : DotDims S8x1024 S1x1024 S8x1 where
  lhsContracting := [1]
  rhsContracting := [1]
  lhsNonContracting := [0]
  rhsNonContracting := [0]
  lhsBatch := []
  rhsBatch := []
  wf := dot_S8x1024_S1x1024_S8x1_1_1_0_0_n_n_wf

abbrev win0_0 : Pipeline.Window sig grid0 :=
  Pipeline.Window.ofSpec (Memref.whole main_v0) S1x2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S8x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S1x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v11) S1x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v12) S1x1024.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg12) S1x1024.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v13) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v14) S8x1.size cc1_transform_13 reads1_13 true true 1 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S8x3x20000 : Shape := ⟨3, ![8, 3, 20000]⟩
abbrev S1024x3 : Shape := ⟨2, ![1024, 3]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S8x20000x3 : Shape := ⟨3, ![8, 20000, 3]⟩
abbrev S_ : Shape := ⟨0, ![]⟩
abbrev S8x20000 : Shape := ⟨2, ![8, 20000]⟩
abbrev S8x20000x1024 : Shape := ⟨3, ![8, 20000, 1024]⟩
abbrev S8x20000x1 : Shape := ⟨3, ![8, 20000, 1]⟩
abbrev S1x1x1024 : Shape := ⟨3, ![1, 1, 1024]⟩
abbrev S8x1024 : Shape := ⟨2, ![8, 1024]⟩
abbrev S1024x1 : Shape := ⟨2, ![1024, 1]⟩
abbrev S8x1 : Shape := ⟨2, ![8, 1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S8x3x20000, .f32⟩
  | .hbm, ⟨1, _⟩ => ⟨S1024x3, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1, .f32⟩
  | .hbm, ⟨14, _⟩ => ⟨S8x20000x3, .f32⟩
  | .hbm, ⟨15, _⟩ => ⟨S8x20000x3, .f32⟩
  | .hbm, ⟨16, _⟩ => ⟨S_, .f32⟩
  | .hbm, ⟨17, _⟩ => ⟨S8x20000, .f32⟩
  | .hbm, ⟨18, _⟩ => ⟨S1024x3, .f32⟩
  | .hbm, ⟨19, _⟩ => ⟨S_, .f32⟩
  | .hbm, ⟨20, _⟩ => ⟨S1024, .f32⟩
  | .hbm, ⟨21, _⟩ => ⟨S8x20000x1024, .f32⟩
  | .hbm, ⟨22, _⟩ => ⟨S8x20000x1, .f32⟩
  | .hbm, ⟨23, _⟩ => ⟨S1x1x1024, .f32⟩
  | .hbm, ⟨24, _⟩ => ⟨S8x20000x1024, .f32⟩
  | .hbm, ⟨25, _⟩ => ⟨S8x20000x1024, .f32⟩
  | .hbm, ⟨26, _⟩ => ⟨S8x20000x1024, .f32⟩
  | .hbm, ⟨27, _⟩ => ⟨S_, .f32⟩
  | .hbm, ⟨28, _⟩ => ⟨S8x20000x1024, .f32⟩
  | .hbm, ⟨29, _⟩ => ⟨S8x20000x1024, .f32⟩
  | .hbm, ⟨30, _⟩ => ⟨S8x20000x1024, .f32⟩
  | .hbm, ⟨31, _⟩ => ⟨S_, .f32⟩
  | .hbm, ⟨32, _⟩ => ⟨S_, .f32⟩
  | .hbm, ⟨33, _⟩ => ⟨S8x20000x1024, .f32⟩
  | .hbm, ⟨34, _⟩ => ⟨S8x20000x1024, .f32⟩
  | .hbm, ⟨35, _⟩ => ⟨S_, .f32⟩
  | .hbm, ⟨36, _⟩ => ⟨S8x1024, .f32⟩
  | .hbm, ⟨37, _⟩ => ⟨S8x1024, .f32⟩
  | .hbm, ⟨38, _⟩ => ⟨S1x1024, .f32⟩
  | .hbm, ⟨39, _⟩ => ⟨S8x1024, .f32⟩
  | .hbm, ⟨40, _⟩ => ⟨S8x1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1x1024, .f32⟩
  | .hbm, ⟨47, _⟩ => ⟨S8x1024, .f32⟩
  | .hbm, ⟨48, _⟩ => ⟨S8x1024, .f32⟩
  | .hbm, ⟨49, _⟩ => ⟨S1x1024, .f32⟩
  | .hbm, ⟨50, _⟩ => ⟨S8x1024, .f32⟩
  | .hbm, ⟨51, _⟩ => ⟨S8x1024, .f32⟩
  | .hbm, ⟨52, _⟩ => ⟨S1024x1024, .f32⟩
  | .hbm, ⟨53, _⟩ => ⟨S8x1024, .f32⟩
  | .hbm, ⟨54, _⟩ => ⟨S1x1024, .f32⟩
  | .hbm, ⟨55, _⟩ => ⟨S8x1024, .f32⟩
  | .hbm, ⟨56, _⟩ => ⟨S8x1024, .f32⟩
  | .hbm, ⟨57, _⟩ => ⟨S_, .f32⟩
  | .hbm, ⟨58, _⟩ => ⟨S8x1024, .f32⟩
  | .hbm, ⟨59, _⟩ => ⟨S8x1024, .f32⟩
  | .hbm, ⟨60, _⟩ => ⟨S1x1024, .f32⟩
  | .hbm, ⟨61, _⟩ => ⟨S8x1024, .f32⟩
  | .hbm, ⟨62, _⟩ => ⟨S8x1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S1024, .f32⟩
  | .hbm, ⟨68, _⟩ => ⟨S1x1024, .f32⟩
  | .hbm, ⟨69, _⟩ => ⟨S8x1024, .f32⟩
  | .hbm, ⟨70, _⟩ => ⟨S8x1024, .f32⟩
  | .hbm, ⟨71, _⟩ => ⟨S1x1024, .f32⟩
  | .hbm, ⟨72, _⟩ => ⟨S8x1024, .f32⟩
  | .hbm, ⟨73, _⟩ => ⟨S8x1024, .f32⟩
  | .hbm, ⟨74, _⟩ => ⟨S1024x1, .f32⟩
  | .hbm, ⟨75, _⟩ => ⟨S8x1, .f32⟩
  | .hbm, ⟨76, _⟩ => ⟨S1x1, .f32⟩
  | .hbm, ⟨77, _⟩ => ⟨S8x1, .f32⟩
  | .hbm, ⟨78, _⟩ => ⟨S8x1, .f32⟩
  | _, _ => ⟨S8x3x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_cst : Ref sig .tc := ⟨.hbm, 57, rfl⟩
abbrev main_call1_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]

class Facts₀ : Prop where
  transposes_S8x3x20000_S8x20000x3_0_2_1 : S8x3x20000.Transposes [0, 2, 1] S8x20000x3
  reducesTo_S8x20000x3_S8x20000_d2 : S8x20000x3.ReducesTo [2] S8x20000
  h_S_ : 0 < S_.numel
  reducesTo_S1024x3_S1024_d1 : S1024x3.ReducesTo [1] S1024
  bcast_S8x20000_S8x20000x1_0_1 : S8x20000.BroadcastsInDim S8x20000x1 (![0, 1] : Fin 2 → Fin S8x20000x1.rank)
  bcast_S1024_S1x1x1024_2 : S1024.BroadcastsInDim S1x1x1024 (![2] : Fin 1 → Fin S1x1x1024.rank)
  bcast_S8x20000x1_S8x20000x1024_0_1_2 : S8x20000x1.BroadcastsInDim S8x20000x1024 (![0, 1, 2] : Fin 3 → Fin S8x20000x1024.rank)
  bcast_S1x1x1024_S8x20000x1024_0_1_2 : S1x1x1024.BroadcastsInDim S8x20000x1024 (![0, 1, 2] : Fin 3 → Fin S8x20000x1024.rank)
  bcast_S_S8x20000x1024 : S_.BroadcastsInDim S8x20000x1024 (![] : Fin 0 → Fin S8x20000x1024.rank)
  reducesTo_S8x20000x1024_S8x1024_d1 : S8x20000x1024.ReducesTo [1] S8x1024
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  bcast_S_S1024 : S_.BroadcastsInDim S1024 (![] : Fin 0 → Fin S1024.rank)
  transposes_S1024x1024_S1024x1024_1_0 : S1024x1024.Transposes [1, 0] S1024x1024
  bcast_S_S8x1024 : S_.BroadcastsInDim S8x1024 (![] : Fin 0 → Fin S8x1024.rank)
  transposes_S1x1024_S1024x1_1_0 : S1x1024.Transposes [1, 0] S1024x1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  dot_S8x20000x3_S1024x3_S8x20000x1024_2_1_01_0_n_n_wf : DotDims.WF S8x20000x3 S1024x3 S8x20000x1024 [2] [1] [0, 1] [0] [] []
  dot_S8x1024_S1024x1024_S8x1024_1_0_0_1_n_n_wf : DotDims.WF S8x1024 S1024x1024 S8x1024 [1] [0] [0] [1] [] []
  dot_S8x1024_S1024x1_S8x1_1_0_0_1_n_n_wf : DotDims.WF S8x1024 S1024x1 S8x1 [1] [0] [0] [1] [] []

variable [Facts₀]

def dot_S8x20000x3_S1024x3_S8x20000x1024_2_1_01_0_n_n : DotDims S8x20000x3 S1024x3 S8x20000x1024 where
  lhsContracting := [2]
  rhsContracting := [1]
  lhsNonContracting := [0, 1]
  rhsNonContracting := [0]
  lhsBatch := []
  rhsBatch := []
  wf := dot_S8x20000x3_S1024x3_S8x20000x1024_2_1_01_0_n_n_wf
def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf
def dot_S8x1024_S1024x1_S8x1_1_0_0_1_n_n : DotDims S8x1024 S1024x1 S8x1 where
  lhsContracting := [1]
  rhsContracting := [0]
  lhsNonContracting := [0]
  rhsNonContracting := [1]
  lhsBatch := []
  rhsBatch := []
  wf := dot_S8x1024_S1024x1_S8x1_1_0_0_1_n_n_wf

class Facts : Prop extends Facts₀ where

variable [Facts]
-- ==== Proof.KBpsRuns.lean ====
import proofs.«103095_j12017318494451_1_alg».proof.Proof.Gen.Kernel.Launch
import proofs.«103095_j12017318494451_1_alg».proof.Proof.Gen.Kernel.Skeleton
import proofs.«103095_j12017318494451_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-!
# The distance kernel's body, run in its three control cases

The body keeps, in a scratch buffer, the running minimum over point tiles of the squared
distance from each basis point to the tile's points.  At the first tile of a cloud it resets
the scratch to +∞ before folding the tile in; at the last tile it also takes the square root
of the scratch into the output block.  Each theorem runs the body symbolically in one of the
three cases (first tile, a middle tile, last tile) and states what every buffer holds
afterwards, as the body's pure payloads applied to what the buffers held before.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-tile condition, as the body decides it from the tile coordinate. -/
abbrev isFirst (i : grid0.Coords) : Prop :=
  (Scalar.cmpi .ne (Scalar.extui (Scalar.cmpi .eq (BitVec.ofNat 32 (i 1).val) 0#32)) 0#32) = 1#1

/-- The two-axis zero offsets, however spelt, are the zero function. -/
theorem off2_zero : (![0, 0] : Fin 2 → Nat) = fun _ => 0 := funext fun a => by fin_cases a <;> rfl

/-- The three-axis zero offsets are the zero function. -/
theorem off3_zero : (![0, 0, 0] : Fin 3 → Nat) = fun _ => 0 := funext fun a => by fin_cases a <;> rfl

/-- A buffer whose LAST store went through the whole-shape rectangle at zero offsets reads back as
    that store's payload, whatever it held before and whatever the earlier stores were. -/
theorem read_writes_last_whole {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

set_option maxHeartbeats 1000000 in
/-- The FIRST tile of a cloud: the scratch, at anything, is reset to +∞ and ends at this tile's
    distances folded into that; the inputs and the output block are untouched. -/
theorem bps_run_first (c : Dev nD) (E : Set ℕ) (i : grid0.Coords)
    (arg2 : Memref sig .tc .vmem S1x2000x3 .f32) (harg2 : arg2.IsWhole)
    (arg3 : Memref sig .tc .vmem S3x1024 .f32) (harg3 : arg3.IsWhole)
    (arg4 : Memref sig .tc .vmem S1x1x1024 .f32) (harg4 : arg4.IsWhole)
    (arg5 : Memref sig .tc .vmem S1x1024 .f32) (harg5 : arg5.IsWhole)
    (x0 : Vec F S1x2000x3 .f32) (x1 : Vec F S3x1024 .f32) (K : PUnit → sProp 𝕄)
    (hf : isFirst i) (hl : ¬ k0_cond2 i = 1#1) (d4 : Vec F S1x1x1024 .f32) :
    iprop(owns (c : Thread nD τ) arg2 fullShare x0 ∗ owns (c : Thread nD τ) arg3 fullShare x1
        ∗ owns (c : Thread nD τ) arg4 fullShare d4 ∗ (∃ s, owns (c : Thread nD τ) arg5 fullShare s)
        ∗ (iprop(owns (c : Thread nD τ) arg2 fullShare x0 ∗ owns (c : Thread nD τ) arg3 fullShare x1
            ∗ owns (c : Thread nD τ) arg4 fullShare d4
            ∗ owns (c : Thread nD τ) arg5 fullShare (k0_pay1 (k0_pay4 x0 x1 k0_pay3))) -∗ K ⟨⟩))
      ⊢ wp frame (wpE (defs₀ (F := F)) Variants.none c none) E
          (cc0__bps_kernel i arg2 harg2 arg3 harg3 arg4 harg4 arg5 harg5) K := by
  simp only [cc0__bps_kernel_eq_skeleton]; unfold cc0__bps_kernel_skel
  unfold owns
  iintro ⟨⟨%f2, %hf2, H2⟩, ⟨%f3, %hf3, H3⟩, ⟨%f4, %hf4, H4⟩, ⟨%s5, %f5, -, H5⟩, Hk⟩
  obtain rfl := harg2.eq_unread hf2; obtain rfl := harg3.eq_unread hf3
  obtain rfl := harg4.eq_unread hf4
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_run_names
  rw [read_writes_last_whole _ _ off2_zero]
  simp only [View.readAt_eq_ld, harg2.read_unread, harg3.read_unread,
    View.readCov_unit_zero (S := S1x1024) _ off2_zero,
    View.ld_unit_zero (S := S1x2000x3) off3_zero, View.ld_unit_zero (S := S3x1024) off2_zero,
    View.ld_unit_zero (S := S1x1024) off2_zero]

set_option maxHeartbeats 1000000 in
/-- A MIDDLE tile (neither first nor last): the scratch, at running minimum `s`, ends at the
    minimum of `s` with this tile's distances; the inputs and the output block are untouched. -/
theorem bps_run_mid (c : Dev nD) (E : Set ℕ) (i : grid0.Coords)
    (arg2 : Memref sig .tc .vmem S1x2000x3 .f32) (harg2 : arg2.IsWhole)
    (arg3 : Memref sig .tc .vmem S3x1024 .f32) (harg3 : arg3.IsWhole)
    (arg4 : Memref sig .tc .vmem S1x1x1024 .f32) (harg4 : arg4.IsWhole)
    (arg5 : Memref sig .tc .vmem S1x1024 .f32) (harg5 : arg5.IsWhole)
    (x0 : Vec F S1x2000x3 .f32) (x1 : Vec F S3x1024 .f32) (K : PUnit → sProp 𝕄)
    (hf : ¬ isFirst i) (hl : ¬ k0_cond2 i = 1#1) (d4 : Vec F S1x1x1024 .f32) (s : Vec F S1x1024 .f32) :
    iprop(owns (c : Thread nD τ) arg2 fullShare x0 ∗ owns (c : Thread nD τ) arg3 fullShare x1
        ∗ owns (c : Thread nD τ) arg4 fullShare d4 ∗ owns (c : Thread nD τ) arg5 fullShare s
        ∗ (iprop(owns (c : Thread nD τ) arg2 fullShare x0 ∗ owns (c : Thread nD τ) arg3 fullShare x1
            ∗ owns (c : Thread nD τ) arg4 fullShare d4
            ∗ owns (c : Thread nD τ) arg5 fullShare (k0_pay1 (k0_pay4 x0 x1 s))) -∗ K ⟨⟩))
      ⊢ wp frame (wpE (defs₀ (F := F)) Variants.none c none) E
          (cc0__bps_kernel i arg2 harg2 arg3 harg3 arg4 harg4 arg5 harg5) K := by
  simp only [cc0__bps_kernel_eq_skeleton]; unfold cc0__bps_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_run_names
  rw [read_writes_last_whole _ _ off2_zero]
  simp only [View.readAt_eq_ld, harg2.read_unread, harg3.read_unread, harg5.read_unread,
    View.ld_unit_zero (S := S1x2000x3) off3_zero, View.ld_unit_zero (S := S3x1024) off2_zero,
    View.ld_unit_zero (S := S1x1024) off2_zero]

set_option maxHeartbeats 1000000 in
/-- The LAST tile of a cloud: the scratch, at running minimum `s`, ends at the minimum of `s` with
    this tile's distances, and the output block, at anything, ends at the square root of that;
    the inputs are untouched. -/
theorem bps_run_last (c : Dev nD) (E : Set ℕ) (i : grid0.Coords)
    (arg2 : Memref sig .tc .vmem S1x2000x3 .f32) (harg2 : arg2.IsWhole)
    (arg3 : Memref sig .tc .vmem S3x1024 .f32) (harg3 : arg3.IsWhole)
    (arg4 : Memref sig .tc .vmem S1x1x1024 .f32) (harg4 : arg4.IsWhole)
    (arg5 : Memref sig .tc .vmem S1x1024 .f32) (harg5 : arg5.IsWhole)
    (x0 : Vec F S1x2000x3 .f32) (x1 : Vec F S3x1024 .f32) (K : PUnit → sProp 𝕄)
    (hf : ¬ isFirst i) (hl : k0_cond2 i = 1#1) (s : Vec F S1x1024 .f32) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k0_pay2 (k0_pay1 (k0_pay4 x0 x1 s)))
            ∗ owns (c : Thread nD τ) arg5 fullShare (k0_pay1 (k0_pay4 x0 x1 s))) -∗ K ⟨⟩))
      ⊢ wp frame (wpE (defs₀ (F := F)) Variants.none c none) E
          (cc0__bps_kernel i arg2 harg2 arg3 harg3 arg4 harg4 arg5 harg5) K := by
  simp only [cc0__bps_kernel_eq_skeleton]; unfold cc0__bps_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3
  obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [read_writes_last_whole _ _ off3_zero]
    simp only [View.readAt_eq_ld, harg2.read_unread, harg3.read_unread, harg5.read_unread,
      View.readCov_unit_zero (S := S1x1024) _ off2_zero,
      View.ld_unit_zero (S := S1x2000x3) off3_zero, View.ld_unit_zero (S := S3x1024) off2_zero,
      View.ld_unit_zero (S := S1x1024) off2_zero]
  iexists _; isplitr
  swap; · iexact H5
  ipureintro
  sl_unfold_run_names
  rw [read_writes_last_whole _ _ off2_zero]
  simp only [View.readAt_eq_ld, harg2.read_unread, harg3.read_unread, harg5.read_unread,
    View.ld_unit_zero (S := S1x2000x3) off3_zero, View.ld_unit_zero (S := S3x1024) off2_zero,
    View.ld_unit_zero (S := S1x1024) off2_zero]

end Cert.Kernel.Hand

end
-- ==== Proof.KBpsData.lean ====
/-
  The first region's proof data: what each staging buffer holds after the body at each grid point, and the
  invariant the body keeps between points.

  The grid is 8 clouds by 10 tiles. The body folds a tile of 2000 points into a running minimum kept in a scratch
  buffer: the first tile of a cloud resets the scratch to +∞ before folding, every other tile folds into what the
  tile before left, and the last tile also stores the square root of the minimum into the output block, which the
  other nine tiles leave as they found it. So the scratch after point `t` is a recursion over the points
  (`accAt`), the invariant between points says the scratch holds it, and the body's obligation at a point is one
  of three runs of the body according to the tile.
-/
import proofs.«103095_j12017318494451_1_alg».proof.Proof.Gen.Kernel.Launch
import proofs.«103095_j12017318494451_1_alg».proof.Proof.Gen.Kernel.Skeleton
import proofs.«103095_j12017318494451_1_alg».proof.Proof.Gen.Kernel.Points
import proofs.«103095_j12017318494451_1_alg».proof.Proof.KBpsRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid's control cases in closed form -/

/-- The reset runs at the first tile of each cloud. -/
theorem first_iff : ∀ t : Fin cfg0.N, isFirst (grid0.coords t) ↔ t.val % 10 = 0 :=
  (by decide +kernel : ∀ t : Fin grid0.N, isFirst (grid0.coords t) ↔ t.val % 10 = 0)
/-- The output is stored at the last tile of each cloud. -/
theorem last_iff : ∀ t : Fin cfg0.N, k0_cond2 (grid0.coords t) = 1#1 ↔ t.val % 10 = 9 :=
  (by decide +kernel : ∀ t : Fin grid0.N, k0_cond2 (grid0.coords t) = 1#1 ↔ t.val % 10 = 9)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running minimum after the body at point `n`: the tile's minimum against the scratch, which the first
    tile of a cloud resets to `+∞` and every other finds as the point before left it. -/
def accAt (c : Dev nD) : (n : ℕ) → n < cfg0.N → Vec F S1x1024 .f32
  | 0, hn => k0_pay1 (k0_pay4 (iblk0 V c 0 ⟨0, hn⟩) (iblk0 V c 1 ⟨0, hn⟩) k0_pay3)
  | n + 1, hn =>
    if (n + 1) % 10 = 0 then k0_pay1 (k0_pay4 (iblk0 V c 0 ⟨n + 1, hn⟩) (iblk0 V c 1 ⟨n + 1, hn⟩) k0_pay3)
    else k0_pay1 (k0_pay4 (iblk0 V c 0 ⟨n + 1, hn⟩) (iblk0 V c 1 ⟨n + 1, hn⟩) (accAt c n (Nat.lt_of_succ_lt hn)))

theorem accAt_first (c : Dev nD) (t : Fin cfg0.N) (h : t.val % 10 = 0) :
    accAt V c t.val t.isLt = k0_pay1 (k0_pay4 (iblk0 V c 0 t) (iblk0 V c 1 t) k0_pay3) := by
  obtain ⟨n, hn⟩ := t
  cases n with
  | zero => rfl
  | succ n => exact (if_pos h).trans rfl

theorem accAt_next (c : Dev nD) (t : Fin cfg0.N) (h : ¬ t.val % 10 = 0) :
    accAt V c t.val t.isLt = k0_pay1 (k0_pay4 (iblk0 V c 0 t) (iblk0 V c 1 t) (accAt V c (t.val - 1) (Nat.lt_of_le_of_lt (Nat.sub_le _ _) t.isLt))) := by
  obtain ⟨n, hn⟩ := t
  cases n with
  | zero => exact absurd (Nat.zero_mod _) h
  | succ n => exact (if_neg h).trans rfl

/-! ## The invariant between points: the scratch at the running minimum -/

/-- The scratch buffer before point `k`: at anything before the first point, at the running minimum after. -/
def scrAt (c : Dev nD) : (k : ℕ) → k ≤ cfg0.N → sProp 𝕄
  | 0, _ => iprop(∃ f : Buf (Elt F) ((c : Thread nD τ).loc cc0_scratch0), ((c : Thread nD τ).loc cc0_scratch0) ↦{fullShare} f)
  | n + 1, h => (((c : Thread nD τ).loc cc0_scratch0) ↦{fullShare} (accAt V c n h) : sProp 𝕄)

/-- The body's invariant: the scratch, and every other scoped buffer that is no staging buffer of this call, untouched. -/
def Φ0 (c : Dev nD) (k : Fin (cfg0.N + 1)) : sProp 𝕄 :=
  iprop(scrAt V c k.val (Nat.le_of_lt_succ k.isLt)
    ∗ Pipeline.scopedRestBut (Ix := Unit) (Name := ℕ) (U := UR sig nD τ) (Lvl := ℕ) (Val := Elt F) spec0 c [cc0_scratch0])

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (accAt V c t.val t.isLt)
  Φ k := Φ0 V c k
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay2 (accAt V c t.val t.isLt) := by dsimp only [dat0]

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The three runs with the scratch as a whole buffer -/

abbrev scrLoc (c : Dev nD) := ((c : Thread nD τ).loc cc0_scratch0)

theorem run_first (c : Dev nD) (i : grid0.Coords)
    (arg2 : Memref sig .tc .vmem S1x2000x3 .f32) (harg2 : arg2.IsWhole) (arg3 : Memref sig .tc .vmem S3x1024 .f32) (harg3 : arg3.IsWhole)
    (arg4 : Memref sig .tc .vmem S1x1x1024 .f32) (harg4 : arg4.IsWhole)
    (x0 : Vec F S1x2000x3 .f32) (x1 : Vec F S3x1024 .f32) (K : PUnit → sProp 𝕄)
    (hf : isFirst i) (hl : ¬ k0_cond2 i = 1#1) (d4 : Vec F S1x1x1024 .f32) :
    iprop(owns (c : Thread nD τ) arg2 fullShare x0 ∗ owns (c : Thread nD τ) arg3 fullShare x1 ∗ owns (c : Thread nD τ) arg4 fullShare d4
        ∗ (∃ s : Buf (Elt F) (scrLoc c), scrLoc c ↦{fullShare} s)
        ∗ (iprop(owns (c : Thread nD τ) arg2 fullShare x0 ∗ owns (c : Thread nD τ) arg3 fullShare x1 ∗ owns (c : Thread nD τ) arg4 fullShare d4
            ∗ (scrLoc c ↦{fullShare} (k0_pay1 (k0_pay4 x0 x1 k0_pay3)))) -∗ K ⟨⟩))
      ⊢ wp frame (wpE (defs₀ (F := F)) Variants.none c none) Set.univ
          (cc0__bps_kernel i arg2 harg2 arg3 harg3 arg4 harg4 (Memref.whole cc0_scratch0) (Memref.isWhole_whole _)) K := by
  have h := bps_run_first c Set.univ i arg2 harg2 arg3 harg3 arg4 harg4 (Memref.whole cc0_scratch0) (Memref.isWhole_whole _) x0 x1 K hf hl d4
  simp only [owns_whole] at h
  exact h

theorem run_mid (c : Dev nD) (i : grid0.Coords)
    (arg2 : Memref sig .tc .vmem S1x2000x3 .f32) (harg2 : arg2.IsWhole) (arg3 : Memref sig .tc .vmem S3x1024 .f32) (harg3 : arg3.IsWhole)
    (arg4 : Memref sig .tc .vmem S1x1x1024 .f32) (harg4 : arg4.IsWhole)
    (x0 : Vec F S1x2000x3 .f32) (x1 : Vec F S3x1024 .f32) (K : PUnit → sProp 𝕄)
    (hf : ¬ isFirst i) (hl : ¬ k0_cond2 i = 1#1) (d4 : Vec F S1x1x1024 .f32) (s : Vec F S1x1024 .f32) :
    iprop(owns (c : Thread nD τ) arg2 fullShare x0 ∗ owns (c : Thread nD τ) arg3 fullShare x1 ∗ owns (c : Thread nD τ) arg4 fullShare d4
        ∗ (scrLoc c ↦{fullShare} s)
        ∗ (iprop(owns (c : Thread nD τ) arg2 fullShare x0 ∗ owns (c : Thread nD τ) arg3 fullShare x1 ∗ owns (c : Thread nD τ) arg4 fullShare d4
            ∗ (scrLoc c ↦{fullShare} (k0_pay1 (k0_pay4 x0 x1 s)))) -∗ K ⟨⟩))
      ⊢ wp frame (wpE (defs₀ (F := F)) Variants.none c none) Set.univ
          (cc0__bps_kernel i arg2 harg2 arg3 harg3 arg4 harg4 (Memref.whole cc0_scratch0) (Memref.isWhole_whole _)) K := by
  have h := bps_run_mid c Set.univ i arg2 harg2 arg3 harg3 arg4 harg4 (Memref.whole cc0_scratch0) (Memref.isWhole_whole _) x0 x1 K hf hl d4 s
  simp only [owns_whole] at h
  exact h

theorem run_last (c : Dev nD) (i : grid0.Coords)
    (arg2 : Memref sig .tc .vmem S1x2000x3 .f32) (harg2 : arg2.IsWhole) (arg3 : Memref sig .tc .vmem S3x1024 .f32) (harg3 : arg3.IsWhole)
    (arg4 : Memref sig .tc .vmem S1x1x1024 .f32) (harg4 : arg4.IsWhole)
    (x0 : Vec F S1x2000x3 .f32) (x1 : Vec F S3x1024 .f32) (K : PUnit → sProp 𝕄)
    (hf : ¬ isFirst i) (hl : k0_cond2 i = 1#1) (s : Vec F S1x1024 .f32) :
    iprop(owns (c : Thread nD τ) arg2 fullShare x0 ∗ owns (c : Thread nD τ) arg3 fullShare x1 ∗ (∃ d, owns (c : Thread nD τ) arg4 fullShare d)
        ∗ (scrLoc c ↦{fullShare} s)
        ∗ (iprop(owns (c : Thread nD τ) arg2 fullShare x0 ∗ owns (c : Thread nD τ) arg3 fullShare x1
            ∗ owns (c : Thread nD τ) arg4 fullShare (k0_pay2 (k0_pay1 (k0_pay4 x0 x1 s)))
            ∗ (scrLoc c ↦{fullShare} (k0_pay1 (k0_pay4 x0 x1 s)))) -∗ K ⟨⟩))
      ⊢ wp frame (wpE (defs₀ (F := F)) Variants.none c none) Set.univ
          (cc0__bps_kernel i arg2 harg2 arg3 harg3 arg4 harg4 (Memref.whole cc0_scratch0) (Memref.isWhole_whole _)) K := by
  have h := bps_run_last c Set.univ i arg2 harg2 arg3 harg3 arg4 harg4 (Memref.whole cc0_scratch0) (Memref.isWhole_whole _) x0 x1 K hf hl s
  simp only [owns_whole] at h
  exact h

/-! ## The body obligation -/

theorem scrAt_some (c : Dev nD) (k : ℕ) (hk : k ≤ cfg0.N) :
    scrAt V c k hk ⊢ (iprop(∃ f : Buf (Elt F) ((c : Thread nD τ).loc cc0_scratch0), ((c : Thread nD τ).loc cc0_scratch0) ↦{fullShare} f) : sProp 𝕄) := by
  cases k with
  | zero => exact .rfl
  | succ n => unfold scrAt; iintro H; iexists _; iexact H

theorem scrAt_pos (c : Dev nD) (t : Fin cfg0.N) (h : t.val ≠ 0) :
    scrAt V c t.val (Nat.le_of_lt t.isLt)
      = (((c : Thread nD τ).loc cc0_scratch0) ↦{fullShare} (accAt V c (t.val - 1) (Nat.lt_of_le_of_lt (Nat.sub_le _ _) t.isLt)) : sProp 𝕄) := by
  obtain ⟨n, hn⟩ := t
  cases n with
  | zero => exact absurd rfl h
  | succ n => rfl

theorem idle2_of_last (t : Fin cfg0.N) (h : t.val % 10 = 9) : idle0 2 (grid0.coords t) = false := by
  show (!(k0_cond2 (grid0.coords t) == 1#1)) = false
  rw [(last_iff t).mpr h]; rfl
theorem idle2_of_not_last (t : Fin cfg0.N) (h : ¬ t.val % 10 = 9) : idle0 2 (grid0.coords t) = true := by
  show (!(k0_cond2 (grid0.coords t) == 1#1)) = true
  have : ¬ k0_cond2 (grid0.coords t) = 1#1 := fun e => h ((last_iff t).mp e)
  simp only [Bool.not_eq_true', beq_eq_false_iff_ne, ne_eq, this, not_false_eq_true]
theorem flush2_of_not_last (t : Fin cfg0.N) (h : ¬ t.val % 10 = 9) : (win0 2).flush t = false :=
  Bool.eq_false_iff.mpr fun e => h ((flush0_2 t).mp e)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (match cfg0.idle 2 (cfg0.grid.coords t) with
        | true =>
          match (cfg0.win 2).flush t with
          | false => iprop(∃ d, owns (c : Thread nD τ) (st0_2 t) fullShare ((dat0 V c).before 2 t d))
          | true => owns (c : Thread nD τ) (st0_2 t) fullShare ((dat0 V c).after 2 t)
        | false => owns (c : Thread nD τ) (st0_2 t) fullShare ((dat0 V c).after 2 t)))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = Φ0 V c t.succ from rfl, show (dat0 V c).Φ t.castSucc = Φ0 V c t.castSucc from rfl,
    show (dat0 V c).owesAt () t.succ = (dat0 V c).owesAt () t.castSucc from rfl,
    after0_0, after0_1, after0_2]
  unfold Φ0
  rw [show scrAt V c t.succ.val (Nat.le_of_lt_succ t.succ.isLt)
      = (((c : Thread nD τ).loc cc0_scratch0) ↦{fullShare} (accAt V c t.val t.isLt) : sProp 𝕄) from rfl,
    show scrAt V c t.castSucc.val (Nat.le_of_lt_succ t.castSucc.isLt) = scrAt V c t.val (Nat.le_of_lt t.isLt) from rfl]
  by_cases h0 : t.val % 10 = 0
  · -- the first tile of a cloud: the reset, no output
    have h9 : ¬ t.val % 10 = 9 := by omega
    rw [idle2_of_not_last t h9, flush2_of_not_last t h9, accAt_first V c t h0]
    iintro ⟨⟨Hs, Hrest⟩, Ho, ⟨%d0, H0⟩, ⟨%d1, H1⟩, ⟨%d2, H2⟩⟩
    ihave Hs' := (scrAt_some V c t.val _) $$ Hs
    icases Hs' with ⟨%f, Hs⟩
    iapply (run_first c (grid0.coords t) _ _ _ _ _ _
      (iblk0 V c 0 t) (iblk0 V c 1 t) _ ((first_iff t).mpr h0) (fun e => h9 ((last_iff t).mp e)) ((dat0 V c).before 2 t d2))
    isplitl [H0]; · iexact H0
    isplitl [H1]; · iexact H1
    isplitl [H2]; · iexact H2
    isplitl [Hs]; · iexists f; iexact Hs
    iintro ⟨H0, H1, H2, Hs⟩
    isplitl [Hs Hrest]; · isplitl [Hs]; · iexact Hs
                          iexact Hrest
    isplitl [Ho]; · iexact Ho
    isplitl [H0]; · iexact H0
    isplitl [H1]; · iexact H1
    iexists d2; iexact H2
  · by_cases h9 : t.val % 10 = 9
    · -- the last tile of a cloud: the output stored
      rw [idle2_of_last t h9, accAt_next V c t h0, scrAt_pos V c t (by omega)]
      iintro ⟨⟨Hs, Hrest⟩, Ho, ⟨%d0, H0⟩, ⟨%d1, H1⟩, ⟨%d2, H2⟩⟩
      iapply (run_last c (grid0.coords t) _ _ _ _ _ _
        (iblk0 V c 0 t) (iblk0 V c 1 t) _ (fun e => h0 ((first_iff t).mp e)) ((last_iff t).mpr h9)
        (accAt V c (t.val - 1) (Nat.lt_of_le_of_lt (Nat.sub_le _ _) t.isLt)))
      isplitl [H0]; · iexact H0
      isplitl [H1]; · iexact H1
      isplitl [H2]; · iexists _; iexact H2
      isplitl [Hs]; · iexact Hs
      iintro ⟨H0, H1, H2, Hs⟩
      isplitl [Hs Hrest]; · isplitl [Hs]; · iexact Hs
                            iexact Hrest
      isplitl [Ho]; · iexact Ho
      isplitl [H0]; · iexact H0
      isplitl [H1]; · iexact H1
      iexact H2
    · -- a middle tile
      rw [idle2_of_not_last t h9, flush2_of_not_last t h9, accAt_next V c t h0, scrAt_pos V c t (by omega)]
      iintro ⟨⟨Hs, Hrest⟩, Ho, ⟨%d0, H0⟩, ⟨%d1, H1⟩, ⟨%d2, H2⟩⟩
      iapply (run_mid c (grid0.coords t) _ _ _ _ _ _
        (iblk0 V c 0 t) (iblk0 V c 1 t) _ (fun e => h0 ((first_iff t).mp e)) (fun e => h9 ((last_iff t).mp e)) ((dat0 V c).before 2 t d2)
        (accAt V c (t.val - 1) (Nat.lt_of_le_of_lt (Nat.sub_le _ _) t.isLt)))
      isplitl [H0]; · iexact H0
      isplitl [H1]; · iexact H1
      isplitl [H2]; · iexact H2
      isplitl [Hs]; · iexact Hs
      iintro ⟨H0, H1, H2, Hs⟩
      isplitl [Hs Hrest]; · isplitl [Hs]; · iexact Hs
                            iexact Hrest
      isplitl [Ho]; · iexact Ho
      isplitl [H0]; · iexact H0
      isplitl [H1]; · iexact H1
      iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KMlpFrame.lean ====
/-
  The second kernel region (batch normalisation, matrix product, rectifier, batch normalisation, matrix product)
  as a pipeline body on ONE grid point whose fourteen windows each hold their whole array: thirteen inputs, each
  loaded whole, and one output, stored whole once.

  At the contents `V` the region is entered with: each window's block (the window's array read through the point's
  block, which is the whole array); what the one store leaves in the output's staging buffer, as a function of the
  thirteen input blocks (`mlpOut`), and that it IS the body's last payload over the three values the body's first
  part hands on (`mlpOut_eq`: a load through the whole-shape rectangle at zero offsets reads the contents, and one
  store through it leaves its payload); the body's triple on whole staging memrefs; the pipeline's proof data
  (each input's buffer left at its block, the output's at `mlpOut` of the input blocks, nothing owed, full shares);
  and the body obligation at the one point.  Everything is generic in the float instance.
-/
import proofs.«103095_j12017318494451_1_alg».proof.Proof.Gen.Kernel.Launch
import proofs.«103095_j12017318494451_1_alg».proof.Proof.Gen.Kernel.Skeleton
import proofs.«103095_j12017318494451_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at the point, fetched there or not, for ANY proof data
    whose array is `V`'s (`hA`) and whose body leaves the block in place (`hafter`): the window is uncut and never
    idle, and an unfetched input's block index has not moved. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole-shape rectangle at zero offsets -/

abbrev r1_f : Rect S8x1024 := Rect.unit (s := S8x1024) ![0, 0] S8x1024.size inb_S8x1024_S8x1024_0_0
abbrev r1_v : Rect S1x1024 := Rect.unit (s := S1x1024) ![0, 0] S1x1024.size inb_S1x1024_S1x1024_0_0
abbrev r1_w : Rect S1024x1024 := Rect.unit (s := S1024x1024) ![0, 0] S1024x1024.size inb_S1024x1024_S1024x1024_0_0
abbrev r1_s : Rect S1x1 := Rect.unit (s := S1x1) ![0, 0] S1x1.size inb_S1x1_S1x1_0_0
abbrev r1_o : Rect S8x1 := Rect.unit (s := S8x1) ![0, 0] S8x1.size inb_S8x1_S8x1_0_0

/-- The zero offsets of rank 2 as the constant function. -/
theorem offsets_zero : (![0, 0] : Fin 2 → ℕ) = fun _ => 0 := by
  funext a; fin_cases a <;> rfl

/-! ## What the body leaves in the output window's buffer -/

/-- The output's staging buffer after the body, from the thirteen input blocks: its one store as a piece, the payload
    the body's last value over the three values of its first part and the three blocks loaded after it. -/
def mlpOut (x0 : Vec F S8x1024 .f32) (x1 x2 x3 x4 : Vec F S1x1024 .f32) (x5 : Vec F S1024x1024 .f32)
    (x6 x7 x8 x9 x10 x11 : Vec F S1x1024 .f32) (x12 : Vec F S1x1 .f32) : Vec F S8x1 .f32 :=
  View.canon [⟨r1_o, k1_pay1
    (k1_pay2 (View.ld x0 r1_f) (View.ld x3 r1_v) (View.ld x1 r1_v) (View.ld x4 r1_v) (View.ld x2 r1_v) (View.ld x5 r1_w)
      (View.ld x6 r1_v) (View.ld x9 r1_v))
    (k1_pay3 (View.ld x7 r1_v)) (k1_pay4 (View.ld x10 r1_v)) (View.ld x8 r1_v) (View.ld x11 r1_v) (View.ld x12 r1_s)⟩]

/-- The one store covers the buffer. -/
theorem cover1_13 (p0 : Vec F S8x1 .f32) (y : S8x1.Idx) :
    ∃ pc ∈ ([⟨r1_o, p0⟩] : List (View.Piece (Elt F) S8x1 .f32)), y ∈ pc.1.set :=
  ⟨_, List.mem_singleton_self _, View.mem_set_unit_zero (S := S8x1) offsets_zero inb_S8x1_S8x1_0_0 y⟩

/-- Whole loads read the contents and the one whole store leaves its payload: the output's buffer is the body's last
    payload over the input blocks themselves. -/
theorem mlpOut_eq (x0 : Vec F S8x1024 .f32) (x1 x2 x3 x4 : Vec F S1x1024 .f32) (x5 : Vec F S1024x1024 .f32)
    (x6 x7 x8 x9 x10 x11 : Vec F S1x1024 .f32) (x12 : Vec F S1x1 .f32) :
    mlpOut x0 x1 x2 x3 x4 x5 x6 x7 x8 x9 x10 x11 x12
      = k1_pay1 (k1_pay2 x0 x3 x1 x4 x2 x5 x6 x9) (k1_pay3 x7) (k1_pay4 x10) x8 x11 x12 := by
  unfold mlpOut
  rw [View.canon_unit_zero (S := S8x1) offsets_zero inb_S8x1_S8x1_0_0]
  rw [View.ld_unit_zero (S := S8x1024) offsets_zero inb_S8x1024_S8x1024_0_0 x0,
    View.ld_unit_zero (S := S1024x1024) offsets_zero inb_S1024x1024_S1024x1024_0_0 x5,
    View.ld_unit_zero (S := S1x1) offsets_zero inb_S1x1_S1x1_0_0 x12,
    View.ld_unit_zero (S := S1x1024) offsets_zero inb_S1x1024_S1x1024_0_0 x1,
    View.ld_unit_zero (S := S1x1024) offsets_zero inb_S1x1024_S1x1024_0_0 x2,
    View.ld_unit_zero (S := S1x1024) offsets_zero inb_S1x1024_S1x1024_0_0 x3,
    View.ld_unit_zero (S := S1x1024) offsets_zero inb_S1x1024_S1x1024_0_0 x4,
    View.ld_unit_zero (S := S1x1024) offsets_zero inb_S1x1024_S1x1024_0_0 x6,
    View.ld_unit_zero (S := S1x1024) offsets_zero inb_S1x1024_S1x1024_0_0 x7,
    View.ld_unit_zero (S := S1x1024) offsets_zero inb_S1x1024_S1x1024_0_0 x8,
    View.ld_unit_zero (S := S1x1024) offsets_zero inb_S1x1024_S1x1024_0_0 x9,
    View.ld_unit_zero (S := S1x1024) offsets_zero inb_S1x1024_S1x1024_0_0 x10,
    View.ld_unit_zero (S := S1x1024) offsets_zero inb_S1x1024_S1x1024_0_0 x11]

/-! ## The body's triple -/

set_option maxHeartbeats 4000000 in
/-- The kernel body on whole staging memrefs, the thirteen inputs' at read contents `xW` and the output's at anything,
    runs to the continuation holding the inputs' as they were and the output's at `mlpOut` of the inputs': the
    printed function is its skeleton, run operation by operation through the call of its first part. -/
theorem sound_kernel1 (c : Dev nD) (E : Set ℕ) (i : grid1.Coords)
    (arg1 : Memref sig .tc .vmem S8x1024 .f32) (harg1 : arg1.IsWhole) (arg2 : Memref sig .tc .vmem S1x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S1x1 .f32) (harg13 : arg13.IsWhole) (arg14 : Memref sig .tc .vmem S8x1 .f32) (harg14 : arg14.IsWhole)
    (x0 : Vec F S8x1024 .f32) (x1 x2 x3 x4 : Vec F S1x1024 .f32) (x5 : Vec F S1024x1024 .f32)
    (x6 x7 x8 x9 x10 x11 : Vec F S1x1024 .f32) (x12 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12
            ∗ owns (c : Thread nD τ) arg14 fullShare (mlpOut x0 x1 x2 x3 x4 x5 x6 x7 x8 x9 x10 x11 x12)) -∗ K ⟨⟩))
      ⊢ wp frame (wpE (defs₀ (F := F)) Variants.none c none) E
          (cc1__mlp_kernel i arg1 harg1 arg2 harg2 arg3 harg3 arg4 harg4 arg5 harg5 arg6 harg6 arg7 harg7 arg8 harg8 arg9 harg9
            arg10 harg10 arg11 harg11 arg12 harg12 arg13 harg13 arg14 harg14) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover1_13 _)

/-! ## The pipeline's proof data -/

/-- The proof data of the region's pipeline on core `c`: the arrays as the region finds them (`V`); after the body at the
    point each input's buffer at its block and the output's at `mlpOut` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => mlpOut (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t
    = mlpOut (iblk1 V c 0 t) (iblk1 V c 1 t) (iblk1 V c 2 t) (iblk1 V c 3 t) (iblk1 V c 4 t) (iblk1 V c 5 t) (iblk1 V c 6 t)
        (iblk1 V c 7 t) (iblk1 V c 8 t) (iblk1 V c 9 t) (iblk1 V c 10 t) (iblk1 V c 11 t) (iblk1 V c 12 t) := by dsimp only [dat1]

/-- Each input's current staging buffer holds its block at the point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 1000000 in
/-- The body at the point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9,
    before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11,
    after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program's run: @main is two transposes, the first region, eleven reshapes, the second region.

  Between two items every unscoped buffer of the core is held at named contents: the launch memory, then what the
  transposes write, then the first region's result array at what its write-backs leave, then what the reshapes write,
  then the program's result array at what the second region's one write-back leaves (`W2`, `W3`, `W4`). Each region is entered by
  taking its windows' arrays out of that state and left by putting them back; the first region's scratch goes into
  its invariant out of the scoped buffers no window stages and comes back out of it. The launch then gives: every
  weakly fair execution terminates, nothing faults, and every unscoped buffer ends at `W4` — in particular every
  argument array as launched (nothing writes one) and the result array at the second region's write-back.
-/
import proofs.«103095_j12017318494451_1_alg».proof.Proof.Gen.Kernel.Launch
import proofs.«103095_j12017318494451_1_alg».proof.Proof.Gen.Kernel.Skeleton
import proofs.«103095_j12017318494451_1_alg».proof.Proof.Gen.Kernel.Points
import proofs.«103095_j12017318494451_1_alg».proof.Proof.Gen.Kernel.Regions
import proofs.«103095_j12017318494451_1_alg».proof.Proof.KBpsData
import proofs.«103095_j12017318494451_1_alg».proof.Proof.KMlpFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's four segments from the launch to the return -/

section Run

variable (m : (ℓ : Loc nD τ sig) → Buf (Elt F) ℓ) (ρ : Dev nD → PrngReg)

/-- The buffers when region 0 is entered (after the two transposes), read at the TensorCore's references. -/
abbrev U1 : (c : Dev nD) → (b : Ref sig .tc) → Buf (Elt F) ((c : Thread nD τ).loc b) := fun c b => Gen.V1 m c b
/-- After region 0: its result array at what the write-backs leave, every other buffer as entered. -/
def W2 (c : Dev nD) : Valuation τ sig (Elt F) := Function.update (Gen.V1 m c) main_v2 ((dat0 (U1 m) c).arrAt 2 cfg0.N)
/-- After the eleven reshapes: region 1's entry. -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- After region 1: the program's result array at what its one write-back leaves. -/
def W4 (c : Dev nD) : Valuation τ sig (Elt F) := Function.update (W3 m c) main_v14 ((dat1 (U3 m) c).arrAt 13 cfg1.N)

theorem W2_of (c : Dev nD) (r : Ref sig .tc) (h : r ≠ main_v2) : W2 m c r = Gen.V1 m c r := by
  unfold W2; exact Function.update_of_ne (StableHlo.devRef_ne_of_ne h) _ _
theorem W2_v2 (c : Dev nD) : W2 m c main_v2 = (dat0 (U1 m) c).arrAt 2 cfg0.N := by
  unfold W2; exact Function.update_self _ _ _
theorem W3_of (c : Dev nD) (r : Ref sig .tc) (h : r ∉ (Gen.hostOps1_W : List (Ref sig .tc))) : W3 m c r = W2 m c r :=
  StableHlo.after_of_writes_sub hostOps1 _ Gen.hostOps1_writes h
theorem W4_of (c : Dev nD) (r : Ref sig .tc) (h : r ≠ main_v14) : W4 m c r = W3 m c r := by
  unfold W4; exact Function.update_of_ne (StableHlo.devRef_ne_of_ne h) _ _
theorem W4_v14 (c : Dev nD) : W4 m c main_v14 = (dat1 (U3 m) c).arrAt 13 cfg1.N := by
  unfold W4; exact Function.update_self _ _ _

/-- A buffer nothing writes (every argument array) ends as launched. -/
theorem W4_kept (c : Dev nD) (r : Ref sig .tc)
    (h : r ∉ ([main_v0, main_v1, main_v2, main_v3, main_v4, main_v5, main_v6, main_v7, main_v8, main_v9, main_v10, main_v11, main_v12, main_v13, main_v14] : List (Ref sig .tc))) :
    W4 m c r = m ((c : Thread nD τ).loc r) := by
  simp only [List.mem_cons, List.not_mem_nil, or_false, not_or] at h
  obtain ⟨h0, h1, h2, h3, h4, h5, h6, h7, h8, h9, h10, h11, h12, h13, h14⟩ := h
  rw [W4_of m c r h14, W3_of m c r (by simp only [Gen.hostOps1_W, List.mem_cons, List.not_mem_nil, or_false, not_or]; exact ⟨h3, h4, h5, h6, h7, h8, h9, h10, h11, h12, h13⟩),
    W2_of m c r h2, Gen.V1_of m c r (by simp only [Gen.hostOps0_W, List.mem_cons, List.not_mem_nil, or_false, not_or]; exact ⟨h0, h1⟩)]

end Run

section Launch

variable (m : (ℓ : Loc nD τ sig) → Buf (Elt F) ℓ) (ρ : Dev nD → PrngReg)

abbrev U2 : (c : Dev nD) → (b : Ref sig .tc) → Buf (Elt F) ((c : Thread nD τ).loc b) := fun c b => W2 m c b
abbrev U4 : (c : Dev nD) → (b : Ref sig .tc) → Buf (Elt F) ((c : Thread nD τ).loc b) := fun c b => W4 m c b

/-- At region 0's exit each of its arrays holds what the pipeline leaves, every other buffer what it held at entry. -/
theorem hF0 (c : Dev nD) (w : Fin cfg0.W) : (dat0 (U1 m) c).arrAt w cfg0.N = U2 m c (Pipeline.arrRef spec0 w) := by
  match w with
  | ⟨0, _⟩ => exact (((dat0 (U1 m) c).arrAt_in 0 rfl _).trans (A_eq0 (U1 m) c 0)).trans (W2_of m c main_v0 (by decide)).symm
  | ⟨1, _⟩ => exact (((dat0 (U1 m) c).arrAt_in 1 rfl _).trans (A_eq0 (U1 m) c 1)).trans (W2_of m c main_v1 (by decide)).symm
  | ⟨2, _⟩ => exact (W2_v2 m c).symm
theorem hrest0 (c : Dev nD) : ∀ b, b ∉ Finset.univ.image (Pipeline.arrRef spec0) → U2 m c b = U1 m c b :=
  fun b hb => W2_of m c b fun e => hb (Finset.mem_image.mpr ⟨2, Finset.mem_univ _, e.symm⟩)

set_option maxHeartbeats 4000000 in
/-- The same at region 1's exit. -/
theorem hF1 (c : Dev nD) (w : Fin cfg1.W) : (dat1 (U3 m) c).arrAt w cfg1.N = U4 m c (Pipeline.arrRef spec1 w) := by
  fin_cases w
  · exact (((dat1 (U3 m) c).arrAt_in 0 rfl _).trans (A_eq1 (U3 m) c 0)).trans (W4_of m c main_v3 (by decide)).symm
  · exact (((dat1 (U3 m) c).arrAt_in 1 rfl _).trans (A_eq1 (U3 m) c 1)).trans (W4_of m c main_v4 (by decide)).symm
  · exact (((dat1 (U3 m) c).arrAt_in 2 rfl _).trans (A_eq1 (U3 m) c 2)).trans (W4_of m c main_v5 (by decide)).symm
  · exact (((dat1 (U3 m) c).arrAt_in 3 rfl _).trans (A_eq1 (U3 m) c 3)).trans (W4_of m c main_v6 (by decide)).symm
  · exact (((dat1 (U3 m) c).arrAt_in 4 rfl _).trans (A_eq1 (U3 m) c 4)).trans (W4_of m c main_v7 (by decide)).symm
  · exact (((dat1 (U3 m) c).arrAt_in 5 rfl _).trans (A_eq1 (U3 m) c 5)).trans (W4_of m c main_arg6 (by decide)).symm
  · exact (((dat1 (U3 m) c).arrAt_in 6 rfl _).trans (A_eq1 (U3 m) c 6)).trans (W4_of m c main_v8 (by decide)).symm
  · exact (((dat1 (U3 m) c).arrAt_in 7 rfl _).trans (A_eq1 (U3 m) c 7)).trans (W4_of m c main_v9 (by decide)).symm
  · exact (((dat1 (U3 m) c).arrAt_in 8 rfl _).trans (A_eq1 (U3 m) c 8)).trans (W4_of m c main_v10 (by decide)).symm
  · exact (((dat1 (U3 m) c).arrAt_in 9 rfl _).trans (A_eq1 (U3 m) c 9)).trans (W4_of m c main_v11 (by decide)).symm
  · exact (((dat1 (U3 m) c).arrAt_in 10 rfl _).trans (A_eq1 (U3 m) c 10)).trans (W4_of m c main_v12 (by decide)).symm
  · exact (((dat1 (U3 m) c).arrAt_in 11 rfl _).trans (A_eq1 (U3 m) c 11)).trans (W4_of m c main_arg12 (by decide)).symm
  · exact (((dat1 (U3 m) c).arrAt_in 12 rfl _).trans (A_eq1 (U3 m) c 12)).trans (W4_of m c main_v13 (by decide)).symm
  · exact (W4_v14 m c).symm
theorem hrest1 (c : Dev nD) : ∀ b, b ∉ Finset.univ.image (Pipeline.arrRef spec1) → U4 m c b = U3 m c b :=
  fun b hb => W4_of m c b fun e => hb (Finset.mem_image.mpr ⟨13, Finset.mem_univ _, e.symm⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (U1 m) c
  | ⟨1, _⟩ => fun c => dat1 (U3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-- The scoped rest of region 0 split at its scratch. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

set_option backward.isDefEq.respectTransparency.types false in
/-- REGION 0 over the thread state: entered from every unscoped buffer at the contents after the transposes, left with
    its result array at what the write-backs leave. Its scratch enters the invariant out of the scoped rest and
    returns to it; the generator register and the core's `owes` bypass the region. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X _ := BI.emp
  Y _ := BI.emp
  Z c := iprop(Pipeline.unscopedRest (Ix := Unit) (Name := ℕ) (U := UR sig nD τ) (Lvl := ℕ) spec0 c (U1 m c) ∗ ∃ r, prngReg c r)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Φ0 (U1 m) c 0 from rfl,
      show (Pipeline.scopedRest (Ix := Unit) (Name := ℕ) (U := UR sig nD τ) (Lvl := ℕ) (Val := Elt F) (Pipeline.pin (pcfgs (F := F)) Gen.adm 0).spec c : sProp 𝕄) = _ from scopedRest0_split c]
    unfold Φ0
    iintro ⟨-, -, Hr⟩; iexact Hr
  hout c := by
    rw [Pipeline.ownSems0_none, show (pdats m 0 c).Φ (Fin.last _) = Φ0 (U1 m) c (Fin.last _) from rfl,
      show (Pipeline.scopedRest (Ix := Unit) (Name := ℕ) (U := UR sig nD τ) (Lvl := ℕ) (Val := Elt F) (Pipeline.pin (pcfgs (F := F)) Gen.adm 0).spec c : sProp 𝕄) = _ from scopedRest0_split c]
    unfold Φ0
    iintro ⟨Hs, Hr⟩
    ihave Hs' := (scrAt_some (U1 m) c _ _) $$ Hs
    isplitr; · iempintro
    isplitr; · iempintro
    isplitl [Hs']; · iexact Hs'
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- REGION 1 over the thread state: entered from every unscoped buffer at the contents after the reshapes, left with
    the program's result array at what its write-back leaves. The generator register passes through the class
    invariant; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) Gen.adm (pdats m) () defs₀ 𝒱₀ L lv) :=
  [ .host (hseg hostOps0 hostOps0_sub Gen.hostOps0_fresh (Gen.V0 m)),
    .region (reg0 m),
    .host (hseg hostOps1 hostOps1_sub Gen.hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and every unscoped buffer ends at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: from any memory with zero counters every weakly fair execution of @main terminates, nothing faulting,
    and every argument array ends as launched: no host operation and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_arg0 (by decide))).trans (W4_kept m c main_arg0 (by decide)),
      (h c _ (mem_uc main_arg1 (by decide))).trans (W4_kept m c main_arg1 (by decide)),
      (h c _ (mem_uc main_arg2 (by decide))).trans (W4_kept m c main_arg2 (by decide)),
      (h c _ (mem_uc main_arg3 (by decide))).trans (W4_kept m c main_arg3 (by decide)),
      (h c _ (mem_uc main_arg4 (by decide))).trans (W4_kept m c main_arg4 (by decide)),
      (h c _ (mem_uc main_arg5 (by decide))).trans (W4_kept m c main_arg5 (by decide)),
      (h c _ (mem_uc main_arg6 (by decide))).trans (W4_kept m c main_arg6 (by decide)),
      (h c _ (mem_uc main_arg7 (by decide))).trans (W4_kept m c main_arg7 (by decide)),
      (h c _ (mem_uc main_arg8 (by decide))).trans (W4_kept m c main_arg8 (by decide)),
      (h c _ (mem_uc main_arg9 (by decide))).trans (W4_kept m c main_arg9 (by decide)),
      (h c _ (mem_uc main_arg10 (by decide))).trans (W4_kept m c main_arg10 (by decide)),
      (h c _ (mem_uc main_arg11 (by decide))).trans (W4_kept m c main_arg11 (by decide)),
      (h c _ (mem_uc main_arg12 (by decide))).trans (W4_kept m c main_arg12 (by decide)),
      (h c _ (mem_uc main_arg13 (by decide))).trans (W4_kept m c main_arg13 (by decide))⟩) (run_all m ρ)

/-- The same run with the result array named: it ends at what the second region's write-back leaves. -/
theorem run_named : θ_run defs (onTc (τ := τ) (main (F := F))) ⟨m, fun _ => 0, ρ⟩ (fun r => ∀ c : Dev nD,
      r.2.mem ((c.tc : Thread nD τ).loc main_v14) = W4 m c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨h c _ (mem_uc main_v14 (by decide)),
      (h c _ (mem_uc main_arg0 (by decide))).trans (W4_kept m c main_arg0 (by decide)),
      (h c _ (mem_uc main_arg1 (by decide))).trans (W4_kept m c main_arg1 (by decide)),
      (h c _ (mem_uc main_arg2 (by decide))).trans (W4_kept m c main_arg2 (by decide)),
      (h c _ (mem_uc main_arg3 (by decide))).trans (W4_kept m c main_arg3 (by decide)),
      (h c _ (mem_uc main_arg4 (by decide))).trans (W4_kept m c main_arg4 (by decide)),
      (h c _ (mem_uc main_arg5 (by decide))).trans (W4_kept m c main_arg5 (by decide)),
      (h c _ (mem_uc main_arg6 (by decide))).trans (W4_kept m c main_arg6 (by decide)),
      (h c _ (mem_uc main_arg7 (by decide))).trans (W4_kept m c main_arg7 (by decide)),
      (h c _ (mem_uc main_arg8 (by decide))).trans (W4_kept m c main_arg8 (by decide)),
      (h c _ (mem_uc main_arg9 (by decide))).trans (W4_kept m c main_arg9 (by decide)),
      (h c _ (mem_uc main_arg10 (by decide))).trans (W4_kept m c main_arg10 (by decide)),
      (h c _ (mem_uc main_arg11 (by decide))).trans (W4_kept m c main_arg11 (by decide)),
      (h c _ (mem_uc main_arg12 (by decide))).trans (W4_kept m c main_arg12 (by decide)),
      (h c _ (mem_uc main_arg13 (by decide))).trans (W4_kept m c main_arg13 (by decide))⟩) (run_all m ρ)

end Launch

end Cert.Kernel.Hand

end
-- ==== Proof.BpsRuns.lean ====
import proofs.«103095_j12017318494451_1_alg».proof.Proof.Gen.KernelIdeal.Launch
import proofs.«103095_j12017318494451_1_alg».proof.Proof.Gen.KernelIdeal.Skeleton
import proofs.«103095_j12017318494451_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-!
# The distance kernel's body, run in its three control cases

The body keeps, in a scratch buffer, the running minimum over point tiles of the squared
distance from each basis point to the tile's points.  At the first tile of a cloud it resets
the scratch to +∞ before folding the tile in; at the last tile it also takes the square root
of the scratch into the output block.  Each theorem runs the body symbolically in one of the
three cases (first tile, a middle tile, last tile) and states what every buffer holds
afterwards, as the body's pure payloads applied to what the buffers held before.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-tile condition, as the body decides it from the tile coordinate. -/
abbrev isFirst (i : grid0.Coords) : Prop :=
  (Scalar.cmpi .ne (Scalar.extui (Scalar.cmpi .eq (BitVec.ofNat 32 (i 1).val) 0#32)) 0#32) = 1#1

/-- The two-axis zero offsets, however spelt, are the zero function. -/
theorem off2_zero : (![0, 0] : Fin 2 → Nat) = fun _ => 0 := funext fun a => by fin_cases a <;> rfl

/-- The three-axis zero offsets are the zero function. -/
theorem off3_zero : (![0, 0, 0] : Fin 3 → Nat) = fun _ => 0 := funext fun a => by fin_cases a <;> rfl

/-- A buffer whose LAST store went through the whole-shape rectangle at zero offsets reads back as
    that store's payload, whatever it held before and whatever the earlier stores were. -/
theorem read_writes_last_whole {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

set_option maxHeartbeats 1000000 in
/-- The FIRST tile of a cloud: the scratch, at anything, is reset to +∞ and ends at this tile's
    distances folded into that; the inputs and the output block are untouched. -/
theorem bps_run_first (c : Dev nD) (E : Set ℕ) (i : grid0.Coords)
    (arg2 : Memref sig .tc .vmem S1x2000x3 .f32) (harg2 : arg2.IsWhole)
    (arg3 : Memref sig .tc .vmem S3x1024 .f32) (harg3 : arg3.IsWhole)
    (arg4 : Memref sig .tc .vmem S1x1x1024 .f32) (harg4 : arg4.IsWhole)
    (arg5 : Memref sig .tc .vmem S1x1024 .f32) (harg5 : arg5.IsWhole)
    (x0 : Vec F S1x2000x3 .f32) (x1 : Vec F S3x1024 .f32) (K : PUnit → sProp 𝕄)
    (hf : isFirst i) (hl : ¬ k0_cond2 i = 1#1) (d4 : Vec F S1x1x1024 .f32) :
    iprop(owns (c : Thread nD τ) arg2 fullShare x0 ∗ owns (c : Thread nD τ) arg3 fullShare x1
        ∗ owns (c : Thread nD τ) arg4 fullShare d4 ∗ (∃ s, owns (c : Thread nD τ) arg5 fullShare s)
        ∗ (iprop(owns (c : Thread nD τ) arg2 fullShare x0 ∗ owns (c : Thread nD τ) arg3 fullShare x1
            ∗ owns (c : Thread nD τ) arg4 fullShare d4
            ∗ owns (c : Thread nD τ) arg5 fullShare (k0_pay1 (k0_pay4 x0 x1 k0_pay3))) -∗ K ⟨⟩))
      ⊢ wp frame (wpE (defs₀ (F := F)) Variants.none c none) E
          (cc0__bps_kernel i arg2 harg2 arg3 harg3 arg4 harg4 arg5 harg5) K := by
  simp only [cc0__bps_kernel_eq_skeleton]; unfold cc0__bps_kernel_skel
  unfold owns
  iintro ⟨⟨%f2, %hf2, H2⟩, ⟨%f3, %hf3, H3⟩, ⟨%f4, %hf4, H4⟩, ⟨%s5, %f5, -, H5⟩, Hk⟩
  obtain rfl := harg2.eq_unread hf2; obtain rfl := harg3.eq_unread hf3
  obtain rfl := harg4.eq_unread hf4
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_run_names
  rw [read_writes_last_whole _ _ off2_zero]
  simp only [View.readAt_eq_ld, harg2.read_unread, harg3.read_unread,
    View.readCov_unit_zero (S := S1x1024) _ off2_zero,
    View.ld_unit_zero (S := S1x2000x3) off3_zero, View.ld_unit_zero (S := S3x1024) off2_zero,
    View.ld_unit_zero (S := S1x1024) off2_zero]

set_option maxHeartbeats 1000000 in
/-- A MIDDLE tile (neither first nor last): the scratch, at running minimum `s`, ends at the
    minimum of `s` with this tile's distances; the inputs and the output block are untouched. -/
theorem bps_run_mid (c : Dev nD) (E : Set ℕ) (i : grid0.Coords)
    (arg2 : Memref sig .tc .vmem S1x2000x3 .f32) (harg2 : arg2.IsWhole)
    (arg3 : Memref sig .tc .vmem S3x1024 .f32) (harg3 : arg3.IsWhole)
    (arg4 : Memref sig .tc .vmem S1x1x1024 .f32) (harg4 : arg4.IsWhole)
    (arg5 : Memref sig .tc .vmem S1x1024 .f32) (harg5 : arg5.IsWhole)
    (x0 : Vec F S1x2000x3 .f32) (x1 : Vec F S3x1024 .f32) (K : PUnit → sProp 𝕄)
    (hf : ¬ isFirst i) (hl : ¬ k0_cond2 i = 1#1) (d4 : Vec F S1x1x1024 .f32) (s : Vec F S1x1024 .f32) :
    iprop(owns (c : Thread nD τ) arg2 fullShare x0 ∗ owns (c : Thread nD τ) arg3 fullShare x1
        ∗ owns (c : Thread nD τ) arg4 fullShare d4 ∗ owns (c : Thread nD τ) arg5 fullShare s
        ∗ (iprop(owns (c : Thread nD τ) arg2 fullShare x0 ∗ owns (c : Thread nD τ) arg3 fullShare x1
            ∗ owns (c : Thread nD τ) arg4 fullShare d4
            ∗ owns (c : Thread nD τ) arg5 fullShare (k0_pay1 (k0_pay4 x0 x1 s))) -∗ K ⟨⟩))
      ⊢ wp frame (wpE (defs₀ (F := F)) Variants.none c none) E
          (cc0__bps_kernel i arg2 harg2 arg3 harg3 arg4 harg4 arg5 harg5) K := by
  simp only [cc0__bps_kernel_eq_skeleton]; unfold cc0__bps_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_run_names
  rw [read_writes_last_whole _ _ off2_zero]
  simp only [View.readAt_eq_ld, harg2.read_unread, harg3.read_unread, harg5.read_unread,
    View.ld_unit_zero (S := S1x2000x3) off3_zero, View.ld_unit_zero (S := S3x1024) off2_zero,
    View.ld_unit_zero (S := S1x1024) off2_zero]

set_option maxHeartbeats 1000000 in
/-- The LAST tile of a cloud: the scratch, at running minimum `s`, ends at the minimum of `s` with
    this tile's distances, and the output block, at anything, ends at the square root of that;
    the inputs are untouched. -/
theorem bps_run_last (c : Dev nD) (E : Set ℕ) (i : grid0.Coords)
    (arg2 : Memref sig .tc .vmem S1x2000x3 .f32) (harg2 : arg2.IsWhole)
    (arg3 : Memref sig .tc .vmem S3x1024 .f32) (harg3 : arg3.IsWhole)
    (arg4 : Memref sig .tc .vmem S1x1x1024 .f32) (harg4 : arg4.IsWhole)
    (arg5 : Memref sig .tc .vmem S1x1024 .f32) (harg5 : arg5.IsWhole)
    (x0 : Vec F S1x2000x3 .f32) (x1 : Vec F S3x1024 .f32) (K : PUnit → sProp 𝕄)
    (hf : ¬ isFirst i) (hl : k0_cond2 i = 1#1) (s : Vec F S1x1024 .f32) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k0_pay2 (k0_pay1 (k0_pay4 x0 x1 s)))
            ∗ owns (c : Thread nD τ) arg5 fullShare (k0_pay1 (k0_pay4 x0 x1 s))) -∗ K ⟨⟩))
      ⊢ wp frame (wpE (defs₀ (F := F)) Variants.none c none) E
          (cc0__bps_kernel i arg2 harg2 arg3 harg3 arg4 harg4 arg5 harg5) K := by
  simp only [cc0__bps_kernel_eq_skeleton]; unfold cc0__bps_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3
  obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [read_writes_last_whole _ _ off3_zero]
    simp only [View.readAt_eq_ld, harg2.read_unread, harg3.read_unread, harg5.read_unread,
      View.readCov_unit_zero (S := S1x1024) _ off2_zero,
      View.ld_unit_zero (S := S1x2000x3) off3_zero, View.ld_unit_zero (S := S3x1024) off2_zero,
      View.ld_unit_zero (S := S1x1024) off2_zero]
  iexists _; isplitr
  swap; · iexact H5
  ipureintro
  sl_unfold_run_names
  rw [read_writes_last_whole _ _ off2_zero]
  simp only [View.readAt_eq_ld, harg2.read_unread, harg3.read_unread, harg5.read_unread,
    View.ld_unit_zero (S := S1x2000x3) off3_zero, View.ld_unit_zero (S := S3x1024) off2_zero,
    View.ld_unit_zero (S := S1x1024) off2_zero]

end Cert.KernelIdeal.Hand

end
-- ==== Proof.BpsData.lean ====
/-
  The first region's proof data: what each staging buffer holds after the body at each grid point, and the
  invariant the body keeps between points.

  The grid is 8 clouds by 10 tiles. The body folds a tile of 2000 points into a running minimum kept in a scratch
  buffer: the first tile of a cloud resets the scratch to +∞ before folding, every other tile folds into what the
  tile before left, and the last tile also stores the square root of the minimum into the output block, which the
  other nine tiles leave as they found it. So the scratch after point `t` is a recursion over the points
  (`accAt`), the invariant between points says the scratch holds it, and the body's obligation at a point is one
  of three runs of the body according to the tile.
-/
import proofs.«103095_j12017318494451_1_alg».proof.Proof.Gen.KernelIdeal.Launch
import proofs.«103095_j12017318494451_1_alg».proof.Proof.Gen.KernelIdeal.Skeleton
import proofs.«103095_j12017318494451_1_alg».proof.Proof.Gen.KernelIdeal.Points
import proofs.«103095_j12017318494451_1_alg».proof.Proof.BpsRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid's control cases in closed form -/

/-- The reset runs at the first tile of each cloud. -/
theorem first_iff : ∀ t : Fin cfg0.N, isFirst (grid0.coords t) ↔ t.val % 10 = 0 :=
  (by decide +kernel : ∀ t : Fin grid0.N, isFirst (grid0.coords t) ↔ t.val % 10 = 0)
/-- The output is stored at the last tile of each cloud. -/
theorem last_iff : ∀ t : Fin cfg0.N, k0_cond2 (grid0.coords t) = 1#1 ↔ t.val % 10 = 9 :=
  (by decide +kernel : ∀ t : Fin grid0.N, k0_cond2 (grid0.coords t) = 1#1 ↔ t.val % 10 = 9)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running minimum after the body at point `n`: the tile's minimum against the scratch, which the first
    tile of a cloud resets to `+∞` and every other finds as the point before left it. -/
def accAt (c : Dev nD) : (n : ℕ) → n < cfg0.N → Vec F S1x1024 .f32
  | 0, hn => k0_pay1 (k0_pay4 (iblk0 V c 0 ⟨0, hn⟩) (iblk0 V c 1 ⟨0, hn⟩) k0_pay3)
  | n + 1, hn =>
    if (n + 1) % 10 = 0 then k0_pay1 (k0_pay4 (iblk0 V c 0 ⟨n + 1, hn⟩) (iblk0 V c 1 ⟨n + 1, hn⟩) k0_pay3)
    else k0_pay1 (k0_pay4 (iblk0 V c 0 ⟨n + 1, hn⟩) (iblk0 V c 1 ⟨n + 1, hn⟩) (accAt c n (Nat.lt_of_succ_lt hn)))

theorem accAt_first (c : Dev nD) (t : Fin cfg0.N) (h : t.val % 10 = 0) :
    accAt V c t.val t.isLt = k0_pay1 (k0_pay4 (iblk0 V c 0 t) (iblk0 V c 1 t) k0_pay3) := by
  obtain ⟨n, hn⟩ := t
  cases n with
  | zero => rfl
  | succ n => exact (if_pos h).trans rfl

theorem accAt_next (c : Dev nD) (t : Fin cfg0.N) (h : ¬ t.val % 10 = 0) :
    accAt V c t.val t.isLt = k0_pay1 (k0_pay4 (iblk0 V c 0 t) (iblk0 V c 1 t) (accAt V c (t.val - 1) (Nat.lt_of_le_of_lt (Nat.sub_le _ _) t.isLt))) := by
  obtain ⟨n, hn⟩ := t
  cases n with
  | zero => exact absurd (Nat.zero_mod _) h
  | succ n => exact (if_neg h).trans rfl

/-! ## The invariant between points: the scratch at the running minimum -/

/-- The scratch buffer before point `k`: at anything before the first point, at the running minimum after. -/
def scrAt (c : Dev nD) : (k : ℕ) → k ≤ cfg0.N → sProp 𝕄
  | 0, _ => iprop(∃ f : Buf (Elt F) ((c : Thread nD τ).loc cc0_scratch0), ((c : Thread nD τ).loc cc0_scratch0) ↦{fullShare} f)
  | n + 1, h => (((c : Thread nD τ).loc cc0_scratch0) ↦{fullShare} (accAt V c n h) : sProp 𝕄)

/-- The body's invariant: the scratch, and every other scoped buffer that is no staging buffer of this call, untouched. -/
def Φ0 (c : Dev nD) (k : Fin (cfg0.N + 1)) : sProp 𝕄 :=
  iprop(scrAt V c k.val (Nat.le_of_lt_succ k.isLt)
    ∗ Pipeline.scopedRestBut (Ix := Unit) (Name := ℕ) (U := UR sig nD τ) (Lvl := ℕ) (Val := Elt F) spec0 c [cc0_scratch0])

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (accAt V c t.val t.isLt)
  Φ k := Φ0 V c k
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay2 (accAt V c t.val t.isLt) := by dsimp only [dat0]

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The three runs with the scratch as a whole buffer -/

abbrev scrLoc (c : Dev nD) := ((c : Thread nD τ).loc cc0_scratch0)

theorem run_first (c : Dev nD) (i : grid0.Coords)
    (arg2 : Memref sig .tc .vmem S1x2000x3 .f32) (harg2 : arg2.IsWhole) (arg3 : Memref sig .tc .vmem S3x1024 .f32) (harg3 : arg3.IsWhole)
    (arg4 : Memref sig .tc .vmem S1x1x1024 .f32) (harg4 : arg4.IsWhole)
    (x0 : Vec F S1x2000x3 .f32) (x1 : Vec F S3x1024 .f32) (K : PUnit → sProp 𝕄)
    (hf : isFirst i) (hl : ¬ k0_cond2 i = 1#1) (d4 : Vec F S1x1x1024 .f32) :
    iprop(owns (c : Thread nD τ) arg2 fullShare x0 ∗ owns (c : Thread nD τ) arg3 fullShare x1 ∗ owns (c : Thread nD τ) arg4 fullShare d4
        ∗ (∃ s : Buf (Elt F) (scrLoc c), scrLoc c ↦{fullShare} s)
        ∗ (iprop(owns (c : Thread nD τ) arg2 fullShare x0 ∗ owns (c : Thread nD τ) arg3 fullShare x1 ∗ owns (c : Thread nD τ) arg4 fullShare d4
            ∗ (scrLoc c ↦{fullShare} (k0_pay1 (k0_pay4 x0 x1 k0_pay3)))) -∗ K ⟨⟩))
      ⊢ wp frame (wpE (defs₀ (F := F)) Variants.none c none) Set.univ
          (cc0__bps_kernel i arg2 harg2 arg3 harg3 arg4 harg4 (Memref.whole cc0_scratch0) (Memref.isWhole_whole _)) K := by
  have h := bps_run_first c Set.univ i arg2 harg2 arg3 harg3 arg4 harg4 (Memref.whole cc0_scratch0) (Memref.isWhole_whole _) x0 x1 K hf hl d4
  simp only [owns_whole] at h
  exact h

theorem run_mid (c : Dev nD) (i : grid0.Coords)
    (arg2 : Memref sig .tc .vmem S1x2000x3 .f32) (harg2 : arg2.IsWhole) (arg3 : Memref sig .tc .vmem S3x1024 .f32) (harg3 : arg3.IsWhole)
    (arg4 : Memref sig .tc .vmem S1x1x1024 .f32) (harg4 : arg4.IsWhole)
    (x0 : Vec F S1x2000x3 .f32) (x1 : Vec F S3x1024 .f32) (K : PUnit → sProp 𝕄)
    (hf : ¬ isFirst i) (hl : ¬ k0_cond2 i = 1#1) (d4 : Vec F S1x1x1024 .f32) (s : Vec F S1x1024 .f32) :
    iprop(owns (c : Thread nD τ) arg2 fullShare x0 ∗ owns (c : Thread nD τ) arg3 fullShare x1 ∗ owns (c : Thread nD τ) arg4 fullShare d4
        ∗ (scrLoc c ↦{fullShare} s)
        ∗ (iprop(owns (c : Thread nD τ) arg2 fullShare x0 ∗ owns (c : Thread nD τ) arg3 fullShare x1 ∗ owns (c : Thread nD τ) arg4 fullShare d4
            ∗ (scrLoc c ↦{fullShare} (k0_pay1 (k0_pay4 x0 x1 s)))) -∗ K ⟨⟩))
      ⊢ wp frame (wpE (defs₀ (F := F)) Variants.none c none) Set.univ
          (cc0__bps_kernel i arg2 harg2 arg3 harg3 arg4 harg4 (Memref.whole cc0_scratch0) (Memref.isWhole_whole _)) K := by
  have h := bps_run_mid c Set.univ i arg2 harg2 arg3 harg3 arg4 harg4 (Memref.whole cc0_scratch0) (Memref.isWhole_whole _) x0 x1 K hf hl d4 s
  simp only [owns_whole] at h
  exact h

theorem run_last (c : Dev nD) (i : grid0.Coords)
    (arg2 : Memref sig .tc .vmem S1x2000x3 .f32) (harg2 : arg2.IsWhole) (arg3 : Memref sig .tc .vmem S3x1024 .f32) (harg3 : arg3.IsWhole)
    (arg4 : Memref sig .tc .vmem S1x1x1024 .f32) (harg4 : arg4.IsWhole)
    (x0 : Vec F S1x2000x3 .f32) (x1 : Vec F S3x1024 .f32) (K : PUnit → sProp 𝕄)
    (hf : ¬ isFirst i) (hl : k0_cond2 i = 1#1) (s : Vec F S1x1024 .f32) :
    iprop(owns (c : Thread nD τ) arg2 fullShare x0 ∗ owns (c : Thread nD τ) arg3 fullShare x1 ∗ (∃ d, owns (c : Thread nD τ) arg4 fullShare d)
        ∗ (scrLoc c ↦{fullShare} s)
        ∗ (iprop(owns (c : Thread nD τ) arg2 fullShare x0 ∗ owns (c : Thread nD τ) arg3 fullShare x1
            ∗ owns (c : Thread nD τ) arg4 fullShare (k0_pay2 (k0_pay1 (k0_pay4 x0 x1 s)))
            ∗ (scrLoc c ↦{fullShare} (k0_pay1 (k0_pay4 x0 x1 s)))) -∗ K ⟨⟩))
      ⊢ wp frame (wpE (defs₀ (F := F)) Variants.none c none) Set.univ
          (cc0__bps_kernel i arg2 harg2 arg3 harg3 arg4 harg4 (Memref.whole cc0_scratch0) (Memref.isWhole_whole _)) K := by
  have h := bps_run_last c Set.univ i arg2 harg2 arg3 harg3 arg4 harg4 (Memref.whole cc0_scratch0) (Memref.isWhole_whole _) x0 x1 K hf hl s
  simp only [owns_whole] at h
  exact h

/-! ## The body obligation -/

theorem scrAt_some (c : Dev nD) (k : ℕ) (hk : k ≤ cfg0.N) :
    scrAt V c k hk ⊢ (iprop(∃ f : Buf (Elt F) ((c : Thread nD τ).loc cc0_scratch0), ((c : Thread nD τ).loc cc0_scratch0) ↦{fullShare} f) : sProp 𝕄) := by
  cases k with
  | zero => exact .rfl
  | succ n => unfold scrAt; iintro H; iexists _; iexact H

theorem scrAt_pos (c : Dev nD) (t : Fin cfg0.N) (h : t.val ≠ 0) :
    scrAt V c t.val (Nat.le_of_lt t.isLt)
      = (((c : Thread nD τ).loc cc0_scratch0) ↦{fullShare} (accAt V c (t.val - 1) (Nat.lt_of_le_of_lt (Nat.sub_le _ _) t.isLt)) : sProp 𝕄) := by
  obtain ⟨n, hn⟩ := t
  cases n with
  | zero => exact absurd rfl h
  | succ n => rfl

theorem idle2_of_last (t : Fin cfg0.N) (h : t.val % 10 = 9) : idle0 2 (grid0.coords t) = false := by
  show (!(k0_cond2 (grid0.coords t) == 1#1)) = false
  rw [(last_iff t).mpr h]; rfl
theorem idle2_of_not_last (t : Fin cfg0.N) (h : ¬ t.val % 10 = 9) : idle0 2 (grid0.coords t) = true := by
  show (!(k0_cond2 (grid0.coords t) == 1#1)) = true
  have : ¬ k0_cond2 (grid0.coords t) = 1#1 := fun e => h ((last_iff t).mp e)
  simp only [Bool.not_eq_true', beq_eq_false_iff_ne, ne_eq, this, not_false_eq_true]
theorem flush2_of_not_last (t : Fin cfg0.N) (h : ¬ t.val % 10 = 9) : (win0 2).flush t = false :=
  Bool.eq_false_iff.mpr fun e => h ((flush0_2 t).mp e)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (match cfg0.idle 2 (cfg0.grid.coords t) with
        | true =>
          match (cfg0.win 2).flush t with
          | false => iprop(∃ d, owns (c : Thread nD τ) (st0_2 t) fullShare ((dat0 V c).before 2 t d))
          | true => owns (c : Thread nD τ) (st0_2 t) fullShare ((dat0 V c).after 2 t)
        | false => owns (c : Thread nD τ) (st0_2 t) fullShare ((dat0 V c).after 2 t)))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = Φ0 V c t.succ from rfl, show (dat0 V c).Φ t.castSucc = Φ0 V c t.castSucc from rfl,
    show (dat0 V c).owesAt () t.succ = (dat0 V c).owesAt () t.castSucc from rfl,
    after0_0, after0_1, after0_2]
  unfold Φ0
  rw [show scrAt V c t.succ.val (Nat.le_of_lt_succ t.succ.isLt)
      = (((c : Thread nD τ).loc cc0_scratch0) ↦{fullShare} (accAt V c t.val t.isLt) : sProp 𝕄) from rfl,
    show scrAt V c t.castSucc.val (Nat.le_of_lt_succ t.castSucc.isLt) = scrAt V c t.val (Nat.le_of_lt t.isLt) from rfl]
  by_cases h0 : t.val % 10 = 0
  · -- the first tile of a cloud: the reset, no output
    have h9 : ¬ t.val % 10 = 9 := by omega
    rw [idle2_of_not_last t h9, flush2_of_not_last t h9, accAt_first V c t h0]
    iintro ⟨⟨Hs, Hrest⟩, Ho, ⟨%d0, H0⟩, ⟨%d1, H1⟩, ⟨%d2, H2⟩⟩
    ihave Hs' := (scrAt_some V c t.val _) $$ Hs
    icases Hs' with ⟨%f, Hs⟩
    iapply (run_first c (grid0.coords t) _ _ _ _ _ _
      (iblk0 V c 0 t) (iblk0 V c 1 t) _ ((first_iff t).mpr h0) (fun e => h9 ((last_iff t).mp e)) ((dat0 V c).before 2 t d2))
    isplitl [H0]; · iexact H0
    isplitl [H1]; · iexact H1
    isplitl [H2]; · iexact H2
    isplitl [Hs]; · iexists f; iexact Hs
    iintro ⟨H0, H1, H2, Hs⟩
    isplitl [Hs Hrest]; · isplitl [Hs]; · iexact Hs
                          iexact Hrest
    isplitl [Ho]; · iexact Ho
    isplitl [H0]; · iexact H0
    isplitl [H1]; · iexact H1
    iexists d2; iexact H2
  · by_cases h9 : t.val % 10 = 9
    · -- the last tile of a cloud: the output stored
      rw [idle2_of_last t h9, accAt_next V c t h0, scrAt_pos V c t (by omega)]
      iintro ⟨⟨Hs, Hrest⟩, Ho, ⟨%d0, H0⟩, ⟨%d1, H1⟩, ⟨%d2, H2⟩⟩
      iapply (run_last c (grid0.coords t) _ _ _ _ _ _
        (iblk0 V c 0 t) (iblk0 V c 1 t) _ (fun e => h0 ((first_iff t).mp e)) ((last_iff t).mpr h9)
        (accAt V c (t.val - 1) (Nat.lt_of_le_of_lt (Nat.sub_le _ _) t.isLt)))
      isplitl [H0]; · iexact H0
      isplitl [H1]; · iexact H1
      isplitl [H2]; · iexists _; iexact H2
      isplitl [Hs]; · iexact Hs
      iintro ⟨H0, H1, H2, Hs⟩
      isplitl [Hs Hrest]; · isplitl [Hs]; · iexact Hs
                            iexact Hrest
      isplitl [Ho]; · iexact Ho
      isplitl [H0]; · iexact H0
      isplitl [H1]; · iexact H1
      iexact H2
    · -- a middle tile
      rw [idle2_of_not_last t h9, flush2_of_not_last t h9, accAt_next V c t h0, scrAt_pos V c t (by omega)]
      iintro ⟨⟨Hs, Hrest⟩, Ho, ⟨%d0, H0⟩, ⟨%d1, H1⟩, ⟨%d2, H2⟩⟩
      iapply (run_mid c (grid0.coords t) _ _ _ _ _ _
        (iblk0 V c 0 t) (iblk0 V c 1 t) _ (fun e => h0 ((first_iff t).mp e)) (fun e => h9 ((last_iff t).mp e)) ((dat0 V c).before 2 t d2)
        (accAt V c (t.val - 1) (Nat.lt_of_le_of_lt (Nat.sub_le _ _) t.isLt)))
      isplitl [H0]; · iexact H0
      isplitl [H1]; · iexact H1
      isplitl [H2]; · iexact H2
      isplitl [Hs]; · iexact Hs
      iintro ⟨H0, H1, H2, Hs⟩
      isplitl [Hs Hrest]; · isplitl [Hs]; · iexact Hs
                            iexact Hrest
      isplitl [Ho]; · iexact Ho
      isplitl [H0]; · iexact H0
      isplitl [H1]; · iexact H1
      iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.MlpFrame.lean ====
/-
  The second kernel region (batch normalisation, matrix product, rectifier, batch normalisation, matrix product)
  as a pipeline body on ONE grid point whose fourteen windows each hold their whole array: thirteen inputs, each
  loaded whole, and one output, stored whole once.

  At the contents `V` the region is entered with: each window's block (the window's array read through the point's
  block, which is the whole array); what the one store leaves in the output's staging buffer, as a function of the
  thirteen input blocks (`mlpOut`), and that it IS the body's last payload over the three values the body's first
  part hands on (`mlpOut_eq`: a load through the whole-shape rectangle at zero offsets reads the contents, and one
  store through it leaves its payload); the body's triple on whole staging memrefs; the pipeline's proof data
  (each input's buffer left at its block, the output's at `mlpOut` of the input blocks, nothing owed, full shares);
  and the body obligation at the one point.  Everything is generic in the float instance.
-/
import proofs.«103095_j12017318494451_1_alg».proof.Proof.Gen.KernelIdeal.Launch
import proofs.«103095_j12017318494451_1_alg».proof.Proof.Gen.KernelIdeal.Skeleton
import proofs.«103095_j12017318494451_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at the point, fetched there or not, for ANY proof data
    whose array is `V`'s (`hA`) and whose body leaves the block in place (`hafter`): the window is uncut and never
    idle, and an unfetched input's block index has not moved. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole-shape rectangle at zero offsets -/

abbrev r1_f : Rect S8x1024 := Rect.unit (s := S8x1024) ![0, 0] S8x1024.size inb_S8x1024_S8x1024_0_0
abbrev r1_v : Rect S1x1024 := Rect.unit (s := S1x1024) ![0, 0] S1x1024.size inb_S1x1024_S1x1024_0_0
abbrev r1_w : Rect S1024x1024 := Rect.unit (s := S1024x1024) ![0, 0] S1024x1024.size inb_S1024x1024_S1024x1024_0_0
abbrev r1_s : Rect S1x1 := Rect.unit (s := S1x1) ![0, 0] S1x1.size inb_S1x1_S1x1_0_0
abbrev r1_o : Rect S8x1 := Rect.unit (s := S8x1) ![0, 0] S8x1.size inb_S8x1_S8x1_0_0

/-- The zero offsets of rank 2 as the constant function. -/
theorem offsets_zero : (![0, 0] : Fin 2 → ℕ) = fun _ => 0 := by
  funext a; fin_cases a <;> rfl

/-! ## What the body leaves in the output window's buffer -/

/-- The output's staging buffer after the body, from the thirteen input blocks: its one store as a piece, the payload
    the body's last value over the three values of its first part and the three blocks loaded after it. -/
def mlpOut (x0 : Vec F S8x1024 .f32) (x1 x2 x3 x4 : Vec F S1x1024 .f32) (x5 : Vec F S1024x1024 .f32)
    (x6 x7 x8 x9 x10 x11 : Vec F S1x1024 .f32) (x12 : Vec F S1x1 .f32) : Vec F S8x1 .f32 :=
  View.canon [⟨r1_o, k1_pay1
    (k1_pay2 (View.ld x0 r1_f) (View.ld x3 r1_v) (View.ld x1 r1_v) (View.ld x4 r1_v) (View.ld x2 r1_v) (View.ld x5 r1_w)
      (View.ld x6 r1_v) (View.ld x9 r1_v))
    (k1_pay3 (View.ld x7 r1_v)) (k1_pay4 (View.ld x10 r1_v)) (View.ld x8 r1_v) (View.ld x11 r1_v) (View.ld x12 r1_s)⟩]

/-- The one store covers the buffer. -/
theorem cover1_13 (p0 : Vec F S8x1 .f32) (y : S8x1.Idx) :
    ∃ pc ∈ ([⟨r1_o, p0⟩] : List (View.Piece (Elt F) S8x1 .f32)), y ∈ pc.1.set :=
  ⟨_, List.mem_singleton_self _, View.mem_set_unit_zero (S := S8x1) offsets_zero inb_S8x1_S8x1_0_0 y⟩

/-- Whole loads read the contents and the one whole store leaves its payload: the output's buffer is the body's last
    payload over the input blocks themselves. -/
theorem mlpOut_eq (x0 : Vec F S8x1024 .f32) (x1 x2 x3 x4 : Vec F S1x1024 .f32) (x5 : Vec F S1024x1024 .f32)
    (x6 x7 x8 x9 x10 x11 : Vec F S1x1024 .f32) (x12 : Vec F S1x1 .f32) :
    mlpOut x0 x1 x2 x3 x4 x5 x6 x7 x8 x9 x10 x11 x12
      = k1_pay1 (k1_pay2 x0 x3 x1 x4 x2 x5 x6 x9) (k1_pay3 x7) (k1_pay4 x10) x8 x11 x12 := by
  unfold mlpOut
  rw [View.canon_unit_zero (S := S8x1) offsets_zero inb_S8x1_S8x1_0_0]
  rw [View.ld_unit_zero (S := S8x1024) offsets_zero inb_S8x1024_S8x1024_0_0 x0,
    View.ld_unit_zero (S := S1024x1024) offsets_zero inb_S1024x1024_S1024x1024_0_0 x5,
    View.ld_unit_zero (S := S1x1) offsets_zero inb_S1x1_S1x1_0_0 x12,
    View.ld_unit_zero (S := S1x1024) offsets_zero inb_S1x1024_S1x1024_0_0 x1,
    View.ld_unit_zero (S := S1x1024) offsets_zero inb_S1x1024_S1x1024_0_0 x2,
    View.ld_unit_zero (S := S1x1024) offsets_zero inb_S1x1024_S1x1024_0_0 x3,
    View.ld_unit_zero (S := S1x1024) offsets_zero inb_S1x1024_S1x1024_0_0 x4,
    View.ld_unit_zero (S := S1x1024) offsets_zero inb_S1x1024_S1x1024_0_0 x6,
    View.ld_unit_zero (S := S1x1024) offsets_zero inb_S1x1024_S1x1024_0_0 x7,
    View.ld_unit_zero (S := S1x1024) offsets_zero inb_S1x1024_S1x1024_0_0 x8,
    View.ld_unit_zero (S := S1x1024) offsets_zero inb_S1x1024_S1x1024_0_0 x9,
    View.ld_unit_zero (S := S1x1024) offsets_zero inb_S1x1024_S1x1024_0_0 x10,
    View.ld_unit_zero (S := S1x1024) offsets_zero inb_S1x1024_S1x1024_0_0 x11]

/-! ## The body's triple -/

set_option maxHeartbeats 4000000 in
/-- The kernel body on whole staging memrefs, the thirteen inputs' at read contents `xW` and the output's at anything,
    runs to the continuation holding the inputs' as they were and the output's at `mlpOut` of the inputs': the
    printed function is its skeleton, run operation by operation through the call of its first part. -/
theorem sound_kernel1 (c : Dev nD) (E : Set ℕ) (i : grid1.Coords)
    (arg1 : Memref sig .tc .vmem S8x1024 .f32) (harg1 : arg1.IsWhole) (arg2 : Memref sig .tc .vmem S1x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S1x1 .f32) (harg13 : arg13.IsWhole) (arg14 : Memref sig .tc .vmem S8x1 .f32) (harg14 : arg14.IsWhole)
    (x0 : Vec F S8x1024 .f32) (x1 x2 x3 x4 : Vec F S1x1024 .f32) (x5 : Vec F S1024x1024 .f32)
    (x6 x7 x8 x9 x10 x11 : Vec F S1x1024 .f32) (x12 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12
            ∗ owns (c : Thread nD τ) arg14 fullShare (mlpOut x0 x1 x2 x3 x4 x5 x6 x7 x8 x9 x10 x11 x12)) -∗ K ⟨⟩))
      ⊢ wp frame (wpE (defs₀ (F := F)) Variants.none c none) E
          (cc1__mlp_kernel i arg1 harg1 arg2 harg2 arg3 harg3 arg4 harg4 arg5 harg5 arg6 harg6 arg7 harg7 arg8 harg8 arg9 harg9
            arg10 harg10 arg11 harg11 arg12 harg12 arg13 harg13 arg14 harg14) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover1_13 _)

/-! ## The pipeline's proof data -/

/-- The proof data of the region's pipeline on core `c`: the arrays as the region finds them (`V`); after the body at the
    point each input's buffer at its block and the output's at `mlpOut` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => mlpOut (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t
    = mlpOut (iblk1 V c 0 t) (iblk1 V c 1 t) (iblk1 V c 2 t) (iblk1 V c 3 t) (iblk1 V c 4 t) (iblk1 V c 5 t) (iblk1 V c 6 t)
        (iblk1 V c 7 t) (iblk1 V c 8 t) (iblk1 V c 9 t) (iblk1 V c 10 t) (iblk1 V c 11 t) (iblk1 V c 12 t) := by dsimp only [dat1]

/-- Each input's current staging buffer holds its block at the point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 1000000 in
/-- The body at the point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9,
    before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11,
    after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program's run: @main is two transposes, the first region, eleven reshapes, the second region.

  Between two items every unscoped buffer of the core is held at named contents: the launch memory, then what the
  transposes write, then the first region's result array at what its write-backs leave, then what the reshapes write,
  then the program's result array at what the second region's one write-back leaves (`W2`, `W3`, `W4`). Each region is entered by
  taking its windows' arrays out of that state and left by putting them back; the first region's scratch goes into
  its invariant out of the scoped buffers no window stages and comes back out of it. The launch then gives: every
  weakly fair execution terminates, nothing faults, and every unscoped buffer ends at `W4` — in particular every
  argument array as launched (nothing writes one) and the result array at the second region's write-back.
-/
import proofs.«103095_j12017318494451_1_alg».proof.Proof.Gen.KernelIdeal.Launch
import proofs.«103095_j12017318494451_1_alg».proof.Proof.Gen.KernelIdeal.Skeleton
import proofs.«103095_j12017318494451_1_alg».proof.Proof.Gen.KernelIdeal.Points
import proofs.«103095_j12017318494451_1_alg».proof.Proof.Gen.KernelIdeal.Regions
import proofs.«103095_j12017318494451_1_alg».proof.Proof.BpsData
import proofs.«103095_j12017318494451_1_alg».proof.Proof.MlpFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's four segments from the launch to the return -/

section Run

variable (m : (ℓ : Loc nD τ sig) → Buf (Elt F) ℓ) (ρ : Dev nD → PrngReg)

/-- The buffers when region 0 is entered (after the two transposes), read at the TensorCore's references. -/
abbrev U1 : (c : Dev nD) → (b : Ref sig .tc) → Buf (Elt F) ((c : Thread nD τ).loc b) := fun c b => Gen.V1 m c b
/-- After region 0: its result array at what the write-backs leave, every other buffer as entered. -/
def W2 (c : Dev nD) : Valuation τ sig (Elt F) := Function.update (Gen.V1 m c) main_v2 ((dat0 (U1 m) c).arrAt 2 cfg0.N)
/-- After the eleven reshapes: region 1's entry. -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- After region 1: the program's result array at what its one write-back leaves. -/
def W4 (c : Dev nD) : Valuation τ sig (Elt F) := Function.update (W3 m c) main_v14 ((dat1 (U3 m) c).arrAt 13 cfg1.N)

theorem W2_of (c : Dev nD) (r : Ref sig .tc) (h : r ≠ main_v2) : W2 m c r = Gen.V1 m c r := by
  unfold W2; exact Function.update_of_ne (StableHlo.devRef_ne_of_ne h) _ _
theorem W2_v2 (c : Dev nD) : W2 m c main_v2 = (dat0 (U1 m) c).arrAt 2 cfg0.N := by
  unfold W2; exact Function.update_self _ _ _
theorem W3_of (c : Dev nD) (r : Ref sig .tc) (h : r ∉ (Gen.hostOps1_W : List (Ref sig .tc))) : W3 m c r = W2 m c r :=
  StableHlo.after_of_writes_sub hostOps1 _ Gen.hostOps1_writes h
theorem W4_of (c : Dev nD) (r : Ref sig .tc) (h : r ≠ main_v14) : W4 m c r = W3 m c r := by
  unfold W4; exact Function.update_of_ne (StableHlo.devRef_ne_of_ne h) _ _
theorem W4_v14 (c : Dev nD) : W4 m c main_v14 = (dat1 (U3 m) c).arrAt 13 cfg1.N := by
  unfold W4; exact Function.update_self _ _ _

/-- A buffer nothing writes (every argument array) ends as launched. -/
theorem W4_kept (c : Dev nD) (r : Ref sig .tc)
    (h : r ∉ ([main_v0, main_v1, main_v2, main_v3, main_v4, main_v5, main_v6, main_v7, main_v8, main_v9, main_v10, main_v11, main_v12, main_v13, main_v14] : List (Ref sig .tc))) :
    W4 m c r = m ((c : Thread nD τ).loc r) := by
  simp only [List.mem_cons, List.not_mem_nil, or_false, not_or] at h
  obtain ⟨h0, h1, h2, h3, h4, h5, h6, h7, h8, h9, h10, h11, h12, h13, h14⟩ := h
  rw [W4_of m c r h14, W3_of m c r (by simp only [Gen.hostOps1_W, List.mem_cons, List.not_mem_nil, or_false, not_or]; exact ⟨h3, h4, h5, h6, h7, h8, h9, h10, h11, h12, h13⟩),
    W2_of m c r h2, Gen.V1_of m c r (by simp only [Gen.hostOps0_W, List.mem_cons, List.not_mem_nil, or_false, not_or]; exact ⟨h0, h1⟩)]

end Run

section Launch

variable (m : (ℓ : Loc nD τ sig) → Buf (Elt F) ℓ) (ρ : Dev nD → PrngReg)

abbrev U2 : (c : Dev nD) → (b : Ref sig .tc) → Buf (Elt F) ((c : Thread nD τ).loc b) := fun c b => W2 m c b
abbrev U4 : (c : Dev nD) → (b : Ref sig .tc) → Buf (Elt F) ((c : Thread nD τ).loc b) := fun c b => W4 m c b

/-- At region 0's exit each of its arrays holds what the pipeline leaves, every other buffer what it held at entry. -/
theorem hF0 (c : Dev nD) (w : Fin cfg0.W) : (dat0 (U1 m) c).arrAt w cfg0.N = U2 m c (Pipeline.arrRef spec0 w) := by
  match w with
  | ⟨0, _⟩ => exact (((dat0 (U1 m) c).arrAt_in 0 rfl _).trans (A_eq0 (U1 m) c 0)).trans (W2_of m c main_v0 (by decide)).symm
  | ⟨1, _⟩ => exact (((dat0 (U1 m) c).arrAt_in 1 rfl _).trans (A_eq0 (U1 m) c 1)).trans (W2_of m c main_v1 (by decide)).symm
  | ⟨2, _⟩ => exact (W2_v2 m c).symm
theorem hrest0 (c : Dev nD) : ∀ b, b ∉ Finset.univ.image (Pipeline.arrRef spec0) → U2 m c b = U1 m c b :=
  fun b hb => W2_of m c b fun e => hb (Finset.mem_image.mpr ⟨2, Finset.mem_univ _, e.symm⟩)

set_option maxHeartbeats 4000000 in
/-- The same at region 1's exit. -/
theorem hF1 (c : Dev nD) (w : Fin cfg1.W) : (dat1 (U3 m) c).arrAt w cfg1.N = U4 m c (Pipeline.arrRef spec1 w) := by
  fin_cases w
  · exact (((dat1 (U3 m) c).arrAt_in 0 rfl _).trans (A_eq1 (U3 m) c 0)).trans (W4_of m c main_v3 (by decide)).symm
  · exact (((dat1 (U3 m) c).arrAt_in 1 rfl _).trans (A_eq1 (U3 m) c 1)).trans (W4_of m c main_v4 (by decide)).symm
  · exact (((dat1 (U3 m) c).arrAt_in 2 rfl _).trans (A_eq1 (U3 m) c 2)).trans (W4_of m c main_v5 (by decide)).symm
  · exact (((dat1 (U3 m) c).arrAt_in 3 rfl _).trans (A_eq1 (U3 m) c 3)).trans (W4_of m c main_v6 (by decide)).symm
  · exact (((dat1 (U3 m) c).arrAt_in 4 rfl _).trans (A_eq1 (U3 m) c 4)).trans (W4_of m c main_v7 (by decide)).symm
  · exact (((dat1 (U3 m) c).arrAt_in 5 rfl _).trans (A_eq1 (U3 m) c 5)).trans (W4_of m c main_arg6 (by decide)).symm
  · exact (((dat1 (U3 m) c).arrAt_in 6 rfl _).trans (A_eq1 (U3 m) c 6)).trans (W4_of m c main_v8 (by decide)).symm
  · exact (((dat1 (U3 m) c).arrAt_in 7 rfl _).trans (A_eq1 (U3 m) c 7)).trans (W4_of m c main_v9 (by decide)).symm
  · exact (((dat1 (U3 m) c).arrAt_in 8 rfl _).trans (A_eq1 (U3 m) c 8)).trans (W4_of m c main_v10 (by decide)).symm
  · exact (((dat1 (U3 m) c).arrAt_in 9 rfl _).trans (A_eq1 (U3 m) c 9)).trans (W4_of m c main_v11 (by decide)).symm
  · exact (((dat1 (U3 m) c).arrAt_in 10 rfl _).trans (A_eq1 (U3 m) c 10)).trans (W4_of m c main_v12 (by decide)).symm
  · exact (((dat1 (U3 m) c).arrAt_in 11 rfl _).trans (A_eq1 (U3 m) c 11)).trans (W4_of m c main_arg12 (by decide)).symm
  · exact (((dat1 (U3 m) c).arrAt_in 12 rfl _).trans (A_eq1 (U3 m) c 12)).trans (W4_of m c main_v13 (by decide)).symm
  · exact (W4_v14 m c).symm
theorem hrest1 (c : Dev nD) : ∀ b, b ∉ Finset.univ.image (Pipeline.arrRef spec1) → U4 m c b = U3 m c b :=
  fun b hb => W4_of m c b fun e => hb (Finset.mem_image.mpr ⟨13, Finset.mem_univ _, e.symm⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (U1 m) c
  | ⟨1, _⟩ => fun c => dat1 (U3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-- The scoped rest of region 0 split at its scratch. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

set_option backward.isDefEq.respectTransparency.types false in
/-- REGION 0 over the thread state: entered from every unscoped buffer at the contents after the transposes, left with
    its result array at what the write-backs leave. Its scratch enters the invariant out of the scoped rest and
    returns to it; the generator register and the core's `owes` bypass the region. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X _ := BI.emp
  Y _ := BI.emp
  Z c := iprop(Pipeline.unscopedRest (Ix := Unit) (Name := ℕ) (U := UR sig nD τ) (Lvl := ℕ) spec0 c (U1 m c) ∗ ∃ r, prngReg c r)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Φ0 (U1 m) c 0 from rfl,
      show (Pipeline.scopedRest (Ix := Unit) (Name := ℕ) (U := UR sig nD τ) (Lvl := ℕ) (Val := Elt F) (Pipeline.pin (pcfgs (F := F)) Gen.adm 0).spec c : sProp 𝕄) = _ from scopedRest0_split c]
    unfold Φ0
    iintro ⟨-, -, Hr⟩; iexact Hr
  hout c := by
    rw [Pipeline.ownSems0_none, show (pdats m 0 c).Φ (Fin.last _) = Φ0 (U1 m) c (Fin.last _) from rfl,
      show (Pipeline.scopedRest (Ix := Unit) (Name := ℕ) (U := UR sig nD τ) (Lvl := ℕ) (Val := Elt F) (Pipeline.pin (pcfgs (F := F)) Gen.adm 0).spec c : sProp 𝕄) = _ from scopedRest0_split c]
    unfold Φ0
    iintro ⟨Hs, Hr⟩
    ihave Hs' := (scrAt_some (U1 m) c _ _) $$ Hs
    isplitr; · iempintro
    isplitr; · iempintro
    isplitl [Hs']; · iexact Hs'
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- REGION 1 over the thread state: entered from every unscoped buffer at the contents after the reshapes, left with
    the program's result array at what its write-back leaves. The generator register passes through the class
    invariant; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) Gen.adm (pdats m) () defs₀ 𝒱₀ L lv) :=
  [ .host (hseg hostOps0 hostOps0_sub Gen.hostOps0_fresh (Gen.V0 m)),
    .region (reg0 m),
    .host (hseg hostOps1 hostOps1_sub Gen.hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and every unscoped buffer ends at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: from any memory with zero counters every weakly fair execution of @main terminates, nothing faulting,
    and every argument array ends as launched: no host operation and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_arg0 (by decide))).trans (W4_kept m c main_arg0 (by decide)),
      (h c _ (mem_uc main_arg1 (by decide))).trans (W4_kept m c main_arg1 (by decide)),
      (h c _ (mem_uc main_arg2 (by decide))).trans (W4_kept m c main_arg2 (by decide)),
      (h c _ (mem_uc main_arg3 (by decide))).trans (W4_kept m c main_arg3 (by decide)),
      (h c _ (mem_uc main_arg4 (by decide))).trans (W4_kept m c main_arg4 (by decide)),
      (h c _ (mem_uc main_arg5 (by decide))).trans (W4_kept m c main_arg5 (by decide)),
      (h c _ (mem_uc main_arg6 (by decide))).trans (W4_kept m c main_arg6 (by decide)),
      (h c _ (mem_uc main_arg7 (by decide))).trans (W4_kept m c main_arg7 (by decide)),
      (h c _ (mem_uc main_arg8 (by decide))).trans (W4_kept m c main_arg8 (by decide)),
      (h c _ (mem_uc main_arg9 (by decide))).trans (W4_kept m c main_arg9 (by decide)),
      (h c _ (mem_uc main_arg10 (by decide))).trans (W4_kept m c main_arg10 (by decide)),
      (h c _ (mem_uc main_arg11 (by decide))).trans (W4_kept m c main_arg11 (by decide)),
      (h c _ (mem_uc main_arg12 (by decide))).trans (W4_kept m c main_arg12 (by decide)),
      (h c _ (mem_uc main_arg13 (by decide))).trans (W4_kept m c main_arg13 (by decide))⟩) (run_all m ρ)

/-- The same run with the result array named: it ends at what the second region's write-back leaves. -/
theorem run_named : θ_run defs (onTc (τ := τ) (main (F := F))) ⟨m, fun _ => 0, ρ⟩ (fun r => ∀ c : Dev nD,
      r.2.mem ((c.tc : Thread nD τ).loc main_v14) = W4 m c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨h c _ (mem_uc main_v14 (by decide)),
      (h c _ (mem_uc main_arg0 (by decide))).trans (W4_kept m c main_arg0 (by decide)),
      (h c _ (mem_uc main_arg1 (by decide))).trans (W4_kept m c main_arg1 (by decide)),
      (h c _ (mem_uc main_arg2 (by decide))).trans (W4_kept m c main_arg2 (by decide)),
      (h c _ (mem_uc main_arg3 (by decide))).trans (W4_kept m c main_arg3 (by decide)),
      (h c _ (mem_uc main_arg4 (by decide))).trans (W4_kept m c main_arg4 (by decide)),
      (h c _ (mem_uc main_arg5 (by decide))).trans (W4_kept m c main_arg5 (by decide)),
      (h c _ (mem_uc main_arg6 (by decide))).trans (W4_kept m c main_arg6 (by decide)),
      (h c _ (mem_uc main_arg7 (by decide))).trans (W4_kept m c main_arg7 (by decide)),
      (h c _ (mem_uc main_arg8 (by decide))).trans (W4_kept m c main_arg8 (by decide)),
      (h c _ (mem_uc main_arg9 (by decide))).trans (W4_kept m c main_arg9 (by decide)),
      (h c _ (mem_uc main_arg10 (by decide))).trans (W4_kept m c main_arg10 (by decide)),
      (h c _ (mem_uc main_arg11 (by decide))).trans (W4_kept m c main_arg11 (by decide)),
      (h c _ (mem_uc main_arg12 (by decide))).trans (W4_kept m c main_arg12 (by decide)),
      (h c _ (mem_uc main_arg13 (by decide))).trans (W4_kept m c main_arg13 (by decide))⟩) (run_all m ρ)

end Launch

end Cert.KernelIdeal.Hand

end
-- ==== Proof.Spec.lean ====
/-
  What the program computes, coordinate by coordinate, over the extended reals.

  A point cloud `x b d n` (8 clouds, 20000 points in 3 coordinates) is encoded against 1024 basis points
  `bs m d`: feature `m` of cloud `b` is the distance from basis point `m` to the nearest point of the cloud,
  `sqrt (min_n max (|p_n|² + |q_m|² - 2 <p_n, q_m>, 0))`. The features then pass through two batch-norm layers in
  evaluation form, `(f - mean) * (gamma * rsqrt (var + eps)) + beta`, with a linear layer and a rectifier
  between them and a linear layer to one output after them.

  Everything here is stated over functions of coordinates (`Fin 8`, `Fin 1024`, …), so that an array of either
  program, whatever its layout, is read into it by composing with its index constructor.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The batch-norm epsilon as both programs spell it. -/
abbrev eps : EReal := Ideal.ofBits .f32 0x3727C5AC#32
/-- The factor of the cross term. -/
abbrev two : EReal := Ideal.ofBits .f32 0x40000000#32
/-- The floor of the clipped squared distance, and of the rectifier. -/
abbrev zero : EReal := Ideal.ofBits .f32 0x00000000#32

/-- The clipped squared distance between a point `p` and a basis point `q`, each given by its three coordinates:
    `max (|p|² + |q|² - 2 <p, q>, 0)`, the inner product summed coordinate by coordinate from the left. -/
def sqdist (p q : Fin 3 → EReal) : EReal :=
  max (((∑ d : Fin 3, p d * p d) + (∑ d : Fin 3, q d * q d)) - two * ((p 0 * q 0 + p 1 * q 1) + p 2 * q 2)) zero

/-- Feature `m` of cloud `b`: the distance from basis point `m` to the cloud's nearest point. -/
def feat (x : Fin 8 → Fin 3 → Fin 20000 → EReal) (bs : Fin 1024 → Fin 3 → EReal) (b : Fin 8) (m : Fin 1024) : EReal :=
  Ideal.sqrt (Finset.univ.inf fun n : Fin 20000 => sqdist (fun d => x b d n) (bs m))

/-- Batch norm in evaluation form at one element. -/
def bn (f mean gamma var beta : EReal) : EReal := (f - mean) * (gamma * Ideal.rsqrt (var + eps)) + beta

section Mlp

variable (f : Fin 8 → Fin 1024 → EReal)
  (g1 b1 rm1 rv1 : Fin 1024 → EReal) (w1 : Fin 1024 → Fin 1024 → EReal)
  (c1 g2 b2 rm2 rv2 : Fin 1024 → EReal) (w2 : Fin 1024 → EReal) (c2 : EReal)

/-- The first batch norm, on feature `j` of row `b`. -/
def norm1 (b : Fin 8) (j : Fin 1024) : EReal := bn (f b j) (rm1 j) (g1 j) (rv1 j) (b1 j)

/-- The hidden layer: row `h` of `w1` against the normalised features, the bias, the rectifier. -/
def hidden (b : Fin 8) (h : Fin 1024) : EReal :=
  max ((∑ j : Fin 1024, norm1 f g1 b1 rm1 rv1 b j * w1 h j) + c1 h) zero

/-- The second batch norm. -/
def norm2 (b : Fin 8) (h : Fin 1024) : EReal :=
  bn (hidden f g1 b1 rm1 rv1 w1 c1 b h) (rm2 h) (g2 h) (rv2 h) (b2 h)

/-- The output of row `b`. -/
def head (b : Fin 8) : EReal :=
  (∑ h : Fin 1024, norm2 f g1 b1 rm1 rv1 w1 c1 g2 b2 rm2 rv2 b h * w2 h) + c2

end Mlp

/-- The whole program's result array, from the fourteen argument arrays in the order of the entry point:
    `x`, `basis`, then `gamma, beta, mean, var` of the first norm, `w1, bias1`, the same four of the second norm,
    `w2, bias2`. -/
def G (x : (⟨3, ![8, 3, 20000]⟩ : Shape).Idx → EReal) (bs : (⟨2, ![1024, 3]⟩ : Shape).Idx → EReal)
    (g1 b1 rm1 rv1 : (⟨1, ![1024]⟩ : Shape).Idx → EReal) (w1 : (⟨2, ![1024, 1024]⟩ : Shape).Idx → EReal)
    (c1 g2 b2 rm2 rv2 : (⟨1, ![1024]⟩ : Shape).Idx → EReal) (w2 : (⟨2, ![1, 1024]⟩ : Shape).Idx → EReal)
    (c2 : (⟨1, ![1]⟩ : Shape).Idx → EReal) : (⟨2, ![8, 1]⟩ : Shape).Idx → EReal :=
  fun i => head (feat (fun b d n => x (ix3 b d n)) (fun m d => bs (ix2 m d)))
    (fun j => g1 (ix1 j)) (fun j => b1 (ix1 j)) (fun j => rm1 (ix1 j)) (fun j => rv1 (ix1 j)) (fun h j => w1 (ix2 h j))
    (fun j => c1 (ix1 j)) (fun j => g2 (ix1 j)) (fun j => b2 (ix1 j)) (fun j => rm2 (ix1 j)) (fun j => rv2 (ix1 j))
    (fun h => w2 (ix2 0 h)) (c2 (ix1 0)) ⟨(i 0).val, (i 0).isLt⟩

end Cert.Spec

end
-- ==== Proof.KernelPayload.lean ====
/-
  The kernel bodies' pure payloads read at an index, over the extended reals.

  Region 0 keeps, for each of 1024 basis points, the least clipped squared distance to the points seen so far: the
  scratch starts at `+∞`, each tile of 2000 points takes the minimum with the tile's least distance, and the last tile's
  store takes the square root. Region 1 is a batch norm, a linear layer with a rectifier, a second batch norm and a
  linear layer to one output. Each payload is a chain of elementwise operations, layout operations (shape casts, slices
  of one row or column, broadcasts of a row or a column), one-axis reductions and two matrix products; read at an index
  every one of them is the operand at an index, a finite sum or an infimum, and the chain meets the specification's
  formula term by term.
-/
import proofs.«103095_j12017318494451_1_alg».proof.Proof.Gen.KernelIdeal.Skeleton
import proofs.«103095_j12017318494451_1_alg».proof.Proof.Spec
import Idealize.ShloMosaic.PureOps.Reduce
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandValue

open Cert.KernelIdeal Cert.KernelIdeal.Gen Idealize.ShloMosaic Idealize.ShloMosaic.ValueIdx
open scoped BigOperators

namespace Payload

/-! ## Two keepdims layout forms read at an index -/

section Layout
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## One-axis reductions of a matrix read at an index -/

/-- Over a matrix reduced along its columns, the index over row `i` with column `d` inserted is `(i, d)`. -/
theorem lift_cols {a b : ℕ} (h : (⟨2, ![a, b]⟩ : Shape).Reduces [1] ⟨1, ![a]⟩) (i : Fin a) (d : Fin b) :
    h.lift (ix1 i) d = ix2 i d := by
  funext c; apply Fin.ext
  match c with
  | ⟨0, _⟩ => rfl
  | ⟨1, _⟩ => rfl

/-- Over a matrix reduced along its rows, the index over column `j` with row `d` inserted is `(d, j)`. -/
theorem lift_rows {a b : ℕ} (h : (⟨2, ![a, b]⟩ : Shape).Reduces [0] ⟨1, ![b]⟩) (j : Fin b) (d : Fin a) :
    h.lift (ix1 j) d = ix2 d j := by
  funext c; apply Fin.ext
  match c with
  | ⟨0, _⟩ => rfl
  | ⟨1, _⟩ => rfl

/-- A row's sum: the lane reduction of a matrix at row `i` is the sum over the columns. -/
theorem sum_cols {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ d : Fin b, src (ix2 i d) :=
  (Ideal.multiReduction_add_single src 0x00000000#32 h hφ hacc (ix1 i)).trans
    (Finset.sum_congr rfl fun d _ => congrArg src (lift_cols h i d))

/-- A column's sum: the sublane reduction of a matrix at column `j` is the sum over the rows. -/
theorem sum_rows {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ d : Fin a, src (ix2 d j) :=
  (Ideal.multiReduction_add_single src 0x00000000#32 h hφ hacc (ix1 j)).trans
    (Finset.sum_congr rfl fun d _ => congrArg src (lift_rows h j d))

/-- The word of `+∞` is the top of the extended reals. -/
theorem inf_word : Ideal.ofBits .f32 0x7F800000#32 = ⊤ := by
  simp [Ideal.ofBits, Ideal.ieee]

/-- A fold of `min` from the top is the infimum. -/
theorem fold_min_top {ι : Type} (s : Finset ι) (f : ι → EReal) :
    s.fold (FloatOps.minimumf (F := Ideal) (φ := .f32)) ⊤ f = s.inf f := by
  classical
  induction s using Finset.induction_on with
  | empty => rfl
  | insert a s ha ih =>
    rw [Finset.fold_insert ha, Finset.inf_insert, ih]
    rfl

/-- A column's minimum: the sublane `min`-reduction of a matrix from `+∞` at column `j` is the infimum over the rows. -/
theorem min_rows {a b : ℕ} (src : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (j : Fin b) :
    multiReduction .minimumf [0] ⟨1, ![b]⟩ src 0x7F800000#32 h hφ hacc (ix1 j) = Finset.univ.inf fun r : Fin a => src (ix2 r j) := by
  refine (multiReduction_minimumf_eq_fold src 0x7F800000#32 h hφ hacc (ix1 j)).trans ?_
  refine (h.fold_filter_drop_single _ _ src (ix1 j)).trans ?_
  show Finset.univ.fold (FloatOps.minimumf (F := Ideal) (φ := .f32)) (Ideal.ofBits .f32 0x7F800000#32)
    (fun r : Fin a => src (h.lift (ix1 j) r)) = _
  rw [inf_word, fold_min_top]
  exact Finset.inf_congr rfl fun r _ => congrArg src (lift_rows h j r)

/-! ## Region 1: the two matrix products read at an index -/

theorem lhs_hid_0 (i : S8x1024.Idx) (q : dot_S8x1024_S1024x1024_S8x1024_1_1_0_0_n_n.contr.Idx) :
    (dot_S8x1024_S1024x1024_S8x1024_1_1_0_0_n_n.lhsIdx i q 0).val = (i 0).val := by
  unfold DotDims.lhsIdx
  rw [dif_neg (show ¬(0 : Fin S8x1024.rank) ∈ dot_S8x1024_S1024x1024_S8x1024_1_1_0_0_n_n.lhsBatch by decide), dif_pos (show (0 : Fin S8x1024.rank) ∈ dot_S8x1024_S1024x1024_S8x1024_1_1_0_0_n_n.lhsNonContracting by decide)]
  rfl
theorem lhs_hid_1 (i : S8x1024.Idx) (q : dot_S8x1024_S1024x1024_S8x1024_1_1_0_0_n_n.contr.Idx) :
    (dot_S8x1024_S1024x1024_S8x1024_1_1_0_0_n_n.lhsIdx i q 1).val = (q ⟨0, by decide⟩).val :=
  dot_S8x1024_S1024x1024_S8x1024_1_1_0_0_n_n.lhsIdx_val_of_single rfl i q
theorem rhs_hid_0 (i : S8x1024.Idx) (q : dot_S8x1024_S1024x1024_S8x1024_1_1_0_0_n_n.contr.Idx) :
    (dot_S8x1024_S1024x1024_S8x1024_1_1_0_0_n_n.rhsIdx i q 0).val = (i 1).val := by
  unfold DotDims.rhsIdx
  rw [dif_neg (show ¬(0 : Fin S1024x1024.rank) ∈ dot_S8x1024_S1024x1024_S8x1024_1_1_0_0_n_n.rhsBatch by decide), dif_pos (show (0 : Fin S1024x1024.rank) ∈ dot_S8x1024_S1024x1024_S8x1024_1_1_0_0_n_n.rhsNonContracting by decide)]
  rfl
theorem rhs_hid_1 (i : S8x1024.Idx) (q : dot_S8x1024_S1024x1024_S8x1024_1_1_0_0_n_n.contr.Idx) :
    (dot_S8x1024_S1024x1024_S8x1024_1_1_0_0_n_n.rhsIdx i q 1).val = (q ⟨0, by decide⟩).val :=
  dot_S8x1024_S1024x1024_S8x1024_1_1_0_0_n_n.rhsIdx_val_of_single rfl i q

/-- The hidden layer's product into a zero accumulator: row `b` of the left operand against row `h` of the right. -/
theorem hid_matmul_apply (lhs : FVec Ideal S8x1024 .f32) (rhs : FVec Ideal S1024x1024 .f32) (b : Fin 8) (h : Fin 1024) :
    matmul dot_S8x1024_S1024x1024_S8x1024_1_1_0_0_n_n none lhs rhs (constant (F := Ideal) S8x1024 .f32 0x00000000#32) (ix2 b h)
      = ∑ j : Fin 1024, lhs (ix2 b j) * rhs (ix2 h j) := by
  simp only [matmul]
  rw [Ideal.matmul_constant_zero_apply, ← Equiv.sum_comp (contrEquiv1 dot_S8x1024_S1024x1024_S8x1024_1_1_0_0_n_n 1024 rfl rfl).symm]
  refine Finset.sum_congr rfl fun k _ => ?_
  have hk := contrEquiv1_symm_val dot_S8x1024_S1024x1024_S8x1024_1_1_0_0_n_n 1024 rfl rfl k
  have el : dot_S8x1024_S1024x1024_S8x1024_1_1_0_0_n_n.lhsIdx (ix2 b h) ((contrEquiv1 dot_S8x1024_S1024x1024_S8x1024_1_1_0_0_n_n 1024 rfl rfl).symm k) = ix2 b k := funext fun a => Fin.ext (by
    match a with
    | ⟨0, _⟩ => exact lhs_hid_0 _ _
    | ⟨1, _⟩ => exact (lhs_hid_1 _ _).trans hk)
  have er : dot_S8x1024_S1024x1024_S8x1024_1_1_0_0_n_n.rhsIdx (ix2 b h) ((contrEquiv1 dot_S8x1024_S1024x1024_S8x1024_1_1_0_0_n_n 1024 rfl rfl).symm k) = ix2 h k := funext fun a => Fin.ext (by
    match a with
    | ⟨0, _⟩ => exact rhs_hid_0 _ _
    | ⟨1, _⟩ => exact (rhs_hid_1 _ _).trans hk)
  rw [el, er]

theorem lhs_out_0 (i : S8x1.Idx) (q : dot_S8x1024_S1x1024_S8x1_1_1_0_0_n_n.contr.Idx) :
    (dot_S8x1024_S1x1024_S8x1_1_1_0_0_n_n.lhsIdx i q 0).val = (i 0).val := by
  unfold DotDims.lhsIdx
  rw [dif_neg (show ¬(0 : Fin S8x1024.rank) ∈ dot_S8x1024_S1x1024_S8x1_1_1_0_0_n_n.lhsBatch by decide), dif_pos (show (0 : Fin S8x1024.rank) ∈ dot_S8x1024_S1x1024_S8x1_1_1_0_0_n_n.lhsNonContracting by decide)]
  rfl
theorem lhs_out_1 (i : S8x1.Idx) (q : dot_S8x1024_S1x1024_S8x1_1_1_0_0_n_n.contr.Idx) :
    (dot_S8x1024_S1x1024_S8x1_1_1_0_0_n_n.lhsIdx i q 1).val = (q ⟨0, by decide⟩).val :=
  dot_S8x1024_S1x1024_S8x1_1_1_0_0_n_n.lhsIdx_val_of_single rfl i q
theorem rhs_out_0 (i : S8x1.Idx) (q : dot_S8x1024_S1x1024_S8x1_1_1_0_0_n_n.contr.Idx) :
    (dot_S8x1024_S1x1024_S8x1_1_1_0_0_n_n.rhsIdx i q 0).val = (i 1).val := by
  unfold DotDims.rhsIdx
  rw [dif_neg (show ¬(0 : Fin S1x1024.rank) ∈ dot_S8x1024_S1x1024_S8x1_1_1_0_0_n_n.rhsBatch by decide), dif_pos (show (0 : Fin S1x1024.rank) ∈ dot_S8x1024_S1x1024_S8x1_1_1_0_0_n_n.rhsNonContracting by decide)]
  rfl
theorem rhs_out_1 (i : S8x1.Idx) (q : dot_S8x1024_S1x1024_S8x1_1_1_0_0_n_n.contr.Idx) :
    (dot_S8x1024_S1x1024_S8x1_1_1_0_0_n_n.rhsIdx i q 1).val = (q ⟨0, by decide⟩).val :=
  dot_S8x1024_S1x1024_S8x1_1_1_0_0_n_n.rhsIdx_val_of_single rfl i q

/-- The output layer's product into a zero accumulator: row `b` of the left operand against the one row of the right. -/
theorem out_matmul_apply (lhs : FVec Ideal S8x1024 .f32) (rhs : FVec Ideal S1x1024 .f32) (b : Fin 8) :
    matmul dot_S8x1024_S1x1024_S8x1_1_1_0_0_n_n none lhs rhs (constant (F := Ideal) S8x1 .f32 0x00000000#32) (ix2 b 0)
      = ∑ h : Fin 1024, lhs (ix2 b h) * rhs (ix2 0 h) := by
  simp only [matmul]
  rw [Ideal.matmul_constant_zero_apply, ← Equiv.sum_comp (contrEquiv1 dot_S8x1024_S1x1024_S8x1_1_1_0_0_n_n 1024 rfl rfl).symm]
  refine Finset.sum_congr rfl fun k _ => ?_
  have hk := contrEquiv1_symm_val dot_S8x1024_S1x1024_S8x1_1_1_0_0_n_n 1024 rfl rfl k
  have el : dot_S8x1024_S1x1024_S8x1_1_1_0_0_n_n.lhsIdx (ix2 b 0) ((contrEquiv1 dot_S8x1024_S1x1024_S8x1_1_1_0_0_n_n 1024 rfl rfl).symm k) = ix2 b k := funext fun a => Fin.ext (by
    match a with
    | ⟨0, _⟩ => exact lhs_out_0 _ _
    | ⟨1, _⟩ => exact (lhs_out_1 _ _).trans hk)
  have er : dot_S8x1024_S1x1024_S8x1_1_1_0_0_n_n.rhsIdx (ix2 b 0) ((contrEquiv1 dot_S8x1024_S1x1024_S8x1_1_1_0_0_n_n 1024 rfl rfl).symm k) = ix2 0 k := funext fun a => Fin.ext (by
    match a with
    | ⟨0, _⟩ => exact rhs_out_0 _ _
    | ⟨1, _⟩ => exact (rhs_out_1 _ _).trans hk)
  rw [el, er]

/-! ## Region 1: the network read at an index -/

/-- A reciprocal square root at an index is the element's. -/
theorem rsqrt_apply {s : Shape} {φ : FTy} (a : FVec Ideal s φ) (i : s.Idx) : rsqrt a i = Ideal.rsqrt (a i) := rfl

/-- The first part's value: the hidden layer less the second norm's mean. -/
theorem centred_apply (f : Vec Ideal S8x1024 .f32) (rm1 g1 rv1 b1 : Vec Ideal S1x1024 .f32) (w1 : Vec Ideal S1024x1024 .f32)
    (c1 rm2 : Vec Ideal S1x1024 .f32) (b : Fin 8) (h : Fin 1024) :
    k1_pay2 (F := Ideal) f rm1 g1 rv1 b1 w1 c1 rm2 (ix2 b h)
      = Cert.Spec.hidden (fun b j => f (ix2 b j)) (fun j => g1 (ix2 0 j)) (fun j => b1 (ix2 0 j)) (fun j => rm1 (ix2 0 j))
          (fun j => rv1 (ix2 0 j)) (fun h j => w1 (ix2 h j)) (fun j => c1 (ix2 0 j)) b h - rm2 (ix2 0 h) := by
  unfold k1_pay2
  simp only [subf_apply, maximumf_apply, addf_apply, broadcast_apply, broadcastTo_1b_ab_apply, shapeCast_self]
  unfold Cert.Spec.hidden
  refine congrArg₂ (· - ·) (congrArg₂ max (congrArg₂ (· + ·) ?_ rfl) rfl) rfl
  refine (hid_matmul_apply _ _ b h).trans (Finset.sum_congr rfl fun j _ => ?_)
  simp only [addf_apply, mulf_apply, subf_apply, broadcastTo_1b_ab_apply, rsqrt_apply, broadcast_apply]
  rfl

end Payload

open Payload

/-! ## Region 0: the running minimum of clipped squared distances -/

/-- The scratch is initialised to `+∞` everywhere. -/
theorem pay3_apply (j : S1x1024.Idx) : k0_pay3 (F := Ideal) j = ⊤ := by
  unfold k0_pay3
  rw [shapeCast_self]
  exact inf_word

/-- The running minimum is stored as it is. -/
theorem pay1_eq (v : FVec Ideal S1x1024 .f32) : k0_pay1 (F := Ideal) v = v := by
  unfold k0_pay1
  exact shapeCast_self v _

/-- At the last tile the output is the square root of the running minimum. -/
theorem pay2_apply (v : Vec Ideal S1x1024 .f32) (m : Fin 1024) :
    k0_pay2 (F := Ideal) v (ix3 0 0 m) = Ideal.sqrt (v (ix2 0 m)) := by
  unfold k0_pay2
  refine (shapeCast_ab_1ab_apply _ _ 0 0 m).trans ?_
  rfl

/-- One tile's step: the running minimum at basis point `m` meets the least clipped squared distance from `m` to the
    tile's 2000 points. -/
theorem pay4_apply (x : Vec Ideal S1x2000x3 .f32) (q : Vec Ideal S3x1024 .f32) (acc : Vec Ideal S1x1024 .f32) (m : Fin 1024) :
    k0_pay4 (F := Ideal) x q acc (ix2 0 m) = min (acc (ix2 0 m)) (Finset.univ.inf fun r : Fin 2000 => Cert.Spec.sqdist (fun d => x (ix3 0 r d)) (fun d => q (ix2 d m))) := by
  unfold k0_pay4
  simp only [minimumf_apply, shapeCast_a_1a_apply]
  refine congrArg (min (acc (ix2 0 m))) ?_
  refine (min_rows _ _ _ _ m).trans ?_
  refine Finset.inf_congr rfl fun r _ => ?_
  simp only [maximumf_apply, subf_apply, addf_apply, mulf_apply, broadcast_apply, broadcastTo_a1_ab_apply, broadcastTo_1b_ab_apply,
    shapeCast_a_a1_apply, shapeCast_a_1a_apply, slice2_axis1_eq, slice2_axis0_eq, shapeCast_1ab_ab_apply, shapeCast_self]
  unfold Cert.Spec.sqdist
  refine congrArg₂ max (congrArg₂ (· - ·) (congrArg₂ (· + ·) ?_ ?_) rfl) rfl
  · exact (sum_cols _ _ _ _ r).trans (Finset.sum_congr rfl fun d _ => by rw [mulf_apply, shapeCast_1ab_ab_apply])
  · exact (sum_rows _ _ _ _ m).trans (Finset.sum_congr rfl fun d _ => rfl)

/-! ## Region 1: the network's output -/

/-- The network's output for row `b`. -/
theorem mlp_apply (f : Vec Ideal S8x1024 .f32) (g1 b1 rm1 rv1 : Vec Ideal S1x1024 .f32) (w1 : Vec Ideal S1024x1024 .f32) (c1 g2 b2 rm2 rv2 w2 : Vec Ideal S1x1024 .f32) (c2 : Vec Ideal S1x1 .f32) (b : Fin 8) :
    k1_pay1 (F := Ideal) (k1_pay2 f rm1 g1 rv1 b1 w1 c1 rm2) (k1_pay3 g2) (k1_pay4 rv2) b2 w2 c2 (ix2 b 0)
      = Cert.Spec.head (fun b j => f (ix2 b j)) (fun j => g1 (ix2 0 j)) (fun j => b1 (ix2 0 j)) (fun j => rm1 (ix2 0 j)) (fun j => rv1 (ix2 0 j)) (fun h j => w1 (ix2 h j)) (fun j => c1 (ix2 0 j)) (fun j => g2 (ix2 0 j)) (fun j => b2 (ix2 0 j)) (fun j => rm2 (ix2 0 j)) (fun j => rv2 (ix2 0 j)) (fun h => w2 (ix2 0 h)) (c2 (ix2 0 0)) b := by
  unfold k1_pay1 k1_pay3 k1_pay4
  simp only [addf_apply, broadcastTo_1b_ab_apply, shapeCast_self]
  unfold Cert.Spec.head
  refine congrArg₂ (· + ·) ?_ rfl
  refine (out_matmul_apply _ _ b).trans (Finset.sum_congr rfl fun h _ => ?_)
  simp only [addf_apply, mulf_apply, broadcastTo_1b_ab_apply, rsqrt_apply, broadcast_apply, centred_apply]
  rfl

end Cert.KernelIdeal.HandValue

end
-- ==== Proof.BpsValue.lean ====
/-
  The first region's result array after the run, index by index, over the extended reals.

  The grid is 8 clouds by 10 tiles of 2000 points. At point `t` the body reads tile `t % 10` of cloud `t / 10` and all
  1024 basis points, and folds the tile's least clipped squared distances into a running minimum that the first tile of
  a cloud starts from `+∞`. By induction on the point, a number is below the running minimum after point `t` exactly
  when it is below the distance to each of the cloud's first `2000 * (t % 10 + 1)` points; at the last tile of a cloud
  these are all of its points, so the running minimum is the infimum over the cloud. The last tile stores its square
  root into row `t / 10` of the result, the rows of different clouds are different blocks, and every row is written by
  the point `10 * b + 9`: so after the run row `b`, column `m` is the distance from basis point `m` to the nearest
  point of cloud `b`.
-/
import proofs.«103095_j12017318494451_1_alg».proof.Proof.BpsData
import proofs.«103095_j12017318494451_1_alg».proof.Proof.KernelPayload
import proofs.«103095_j12017318494451_1_alg».proof.Proof.Spec
import Idealize.ShloMosaic.Lib.Pipeline.Value
import Idealize.ShloMosaic.Lib.ValueIdx
import Mathlib.Order.Basic
import Mathlib.Order.MinMax
import Mathlib.Order.BoundedOrder.Basic
import Mathlib.Data.Finset.Lattice.Fold

set_option maxRecDepth 16384

noncomputable section

namespace Cert.KernelIdeal.HandValue

open Cert.KernelIdeal Cert.KernelIdeal.Gen Cert.KernelIdeal.Hand Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

namespace Bps

/-! ## The blocks the body reads, as elements of the arrays -/

/-- The grid has eighty points. -/
theorem N80 : cfg0.N = 80 := N_0

/-- The index maps over the grid: the points' tile of cloud `t / 10` is tile `t % 10`, the basis points are one
    block, and the output's block is row `t / 10`. -/
theorem idx_facts : ∀ t : Fin cfg0.N,
    win0_0.index t (0 : Fin 3) = t.val / 10 ∧ win0_0.index t (1 : Fin 3) = t.val % 10 ∧ win0_0.index t (2 : Fin 3) = 0
    ∧ win0_1.index t (0 : Fin 2) = 0 ∧ win0_1.index t (1 : Fin 2) = 0
    ∧ win0_2.index t (0 : Fin 3) = t.val / 10 ∧ win0_2.index t (1 : Fin 3) = 0 ∧ win0_2.index t (2 : Fin 3) = 0 :=
  (by decide +kernel : ∀ t : Fin grid0.N, _)

/-- Row `r` of the tile of points at `t` is point `2000 * (t % 10) + r` of cloud `t / 10`. -/
theorem blk0_read (c : Dev nD) (t : Fin cfg0.N) (b : Fin 8) (hb : b.val = t.val / 10) (r : Fin 2000) (n : Fin 20000)
    (hn : n.val = 2000 * (t.val % 10) + r.val) (d : Fin 3) :
    iblk0 (F := Ideal) V c 0 t (ix3 0 r d) = V c main_v0 (ix3 b n d) := by
  obtain ⟨e0, e1, e2, -⟩ := idx_facts t
  unfold iblk0
  show V c main_v0 (((cfg0.win 0).blk t).view.emb (ix3 0 r d)) = V c main_v0 (ix3 b n d)
  refine congrArg (V c main_v0) (funext fun a => Fin.ext ?_)
  match a with
  | ⟨0, _⟩ => show win0_0.index t (0 : Fin 3) * 1 + 1 * 0 = b.val; omega
  | ⟨1, _⟩ => show win0_0.index t (1 : Fin 3) * 2000 + 1 * r.val = n.val; omega
  | ⟨2, _⟩ => show win0_0.index t (2 : Fin 3) * 3 + 1 * d.val = d.val; omega

/-- The block of basis points is the whole array at every point. -/
theorem blk1_read (c : Dev nD) (t : Fin cfg0.N) (d : Fin 3) (mm : Fin 1024) :
    iblk0 (F := Ideal) V c 1 t (ix2 d mm) = V c main_v1 (ix2 d mm) := by
  obtain ⟨-, -, -, e0, e1, -⟩ := idx_facts t
  unfold iblk0
  show V c main_v1 (((cfg0.win 1).blk t).view.emb (ix2 d mm)) = V c main_v1 (ix2 d mm)
  refine congrArg (V c main_v1) (funext fun a => Fin.ext ?_)
  match a with
  | ⟨0, _⟩ => show win0_1.index t (0 : Fin 2) * 3 + 1 * d.val = d.val; omega
  | ⟨1, _⟩ => show win0_1.index t (1 : Fin 2) * 1024 + 1 * mm.val = mm.val; omega

/-! ## The running minimum by its universal property -/

/-- The clipped squared distance from basis point `mm` to point `n` of cloud `b`, off the arrays. -/
abbrev sq (c : Dev nD) (b : Fin 8) (n : Fin 20000) (mm : Fin 1024) : EReal :=
  Cert.Spec.sqdist (fun d => V c main_v0 (ix3 b n d)) (fun d => V c main_v1 (ix2 d mm))

/-- The first `2000 * (k + 1)` points are the first `2000 * k` and the rows of tile `k`. -/
theorem forall_tile_split (k : ℕ) (P : Fin 20000 → Prop) :
    ((∀ n : Fin 20000, n.val < 2000 * k → P n) ∧ (∀ (r : Fin 2000) (n : Fin 20000), n.val = 2000 * k + r.val → P n))
      ↔ ∀ n : Fin 20000, n.val < 2000 * (k + 1) → P n := by
  constructor
  · rintro ⟨h1, h2⟩ n hn
    by_cases h : n.val < 2000 * k
    · exact h1 n h
    · exact h2 ⟨n.val - 2000 * k, by omega⟩ n (by show n.val = 2000 * k + (n.val - 2000 * k); omega)
  · intro h
    exact ⟨fun n hn => h n (by omega), fun r n hn => h n (by have := r.isLt; omega)⟩

/-- A bound below the tile's least distance is a bound below the distance to each of the tile's points. -/
theorem tile_le_iff (c : Dev nD) (t : Fin cfg0.N) (b : Fin 8) (hb : b.val = t.val / 10) (mm : Fin 1024) (z : EReal) :
    z ≤ (Finset.univ.inf fun r : Fin 2000 =>
          Cert.Spec.sqdist (fun d => iblk0 (F := Ideal) V c 0 t (ix3 0 r d)) (fun d => iblk0 (F := Ideal) V c 1 t (ix2 d mm)))
      ↔ ∀ (r : Fin 2000) (n : Fin 20000), n.val = 2000 * (t.val % 10) + r.val → z ≤ sq V c b n mm := by
  have e : ∀ (r : Fin 2000) (n : Fin 20000), n.val = 2000 * (t.val % 10) + r.val →
      Cert.Spec.sqdist (fun d => iblk0 (F := Ideal) V c 0 t (ix3 0 r d)) (fun d => iblk0 (F := Ideal) V c 1 t (ix2 d mm)) = sq V c b n mm :=
    fun r n hn => congrArg₂ Cert.Spec.sqdist (funext fun d => blk0_read V c t b hb r n hn d) (funext fun d => blk1_read V c t d mm)
  rw [Finset.le_inf_iff]
  constructor
  · intro h r n hn
    exact le_of_le_of_eq (h r (Finset.mem_univ r)) (e r n hn)
  · intro h r _
    have hr := r.isLt
    have ht : t.val % 10 < 10 := Nat.mod_lt _ (by decide)
    exact le_of_le_of_eq (h r ⟨2000 * (t.val % 10) + r.val, by omega⟩ rfl) (e r ⟨2000 * (t.val % 10) + r.val, by omega⟩ rfl).symm

/-- One step of the running minimum at basis point `mm`. -/
theorem step_apply (x : Vec Ideal S1x2000x3 .f32) (q : Vec Ideal S3x1024 .f32) (acc : Vec Ideal S1x1024 .f32) (mm : Fin 1024) :
    k0_pay1 (F := Ideal) (k0_pay4 x q acc) (ix2 0 mm)
      = min (acc (ix2 0 mm)) (Finset.univ.inf fun r : Fin 2000 => Cert.Spec.sqdist (fun d => x (ix3 0 r d)) (fun d => q (ix2 d mm))) := by
  rw [pay1_eq]
  exact pay4_apply x q acc mm

/-- A point after the first of its cloud folds its tile into what the point before left. -/
theorem accAt_succ_ne (c : Dev nD) (t : ℕ) (ht : t + 1 < cfg0.N) (h : ¬ (t + 1) % 10 = 0) :
    accAt (F := Ideal) V c (t + 1) ht
      = k0_pay1 (k0_pay4 (iblk0 V c 0 ⟨t + 1, ht⟩) (iblk0 V c 1 ⟨t + 1, ht⟩) (accAt V c t (Nat.lt_of_succ_lt ht))) :=
  (if_neg h).trans rfl

/-- At the first tile of a cloud the running minimum is below exactly the bounds of the tile's distances. -/
theorem acc_first_le_iff (c : Dev nD) (t : Fin cfg0.N) (h0 : t.val % 10 = 0) (b : Fin 8) (hb : b.val = t.val / 10)
    (mm : Fin 1024) (z : EReal) :
    z ≤ accAt (F := Ideal) V c t.val t.isLt (ix2 0 mm) ↔ ∀ n : Fin 20000, n.val < 2000 * (t.val % 10 + 1) → z ≤ sq V c b n mm := by
  rw [accAt_first V c t h0, step_apply, pay3_apply, le_min_iff, tile_le_iff V c t b hb mm z, ← forall_tile_split]
  exact ⟨fun h => ⟨fun n hn => absurd hn (by omega), h.2⟩, fun h => ⟨le_top, h.2⟩⟩

/-- The running minimum after point `t` is below exactly the bounds of the distances to the cloud's first
    `2000 * (t % 10 + 1)` points. -/
theorem acc_le_iff (c : Dev nD) (t : ℕ) : ∀ (ht : t < cfg0.N) (b : Fin 8), b.val = t / 10 → ∀ (mm : Fin 1024) (z : EReal),
    z ≤ accAt (F := Ideal) V c t ht (ix2 0 mm) ↔ ∀ n : Fin 20000, n.val < 2000 * (t % 10 + 1) → z ≤ sq V c b n mm := by
  induction t with
  | zero => intro ht b hb mm z; exact acc_first_le_iff V c ⟨0, ht⟩ rfl b hb mm z
  | succ t ih =>
    intro ht b hb mm z
    by_cases h0 : (t + 1) % 10 = 0
    · exact acc_first_le_iff V c ⟨t + 1, ht⟩ h0 b hb mm z
    · have hk : t % 10 + 1 = (t + 1) % 10 := by omega
      rw [accAt_succ_ne V c t ht h0, step_apply, le_min_iff, ih (Nat.lt_of_succ_lt ht) b (by omega) mm z,
        tile_le_iff V c ⟨t + 1, ht⟩ b hb mm z, hk]
      exact forall_tile_split ((t + 1) % 10) fun n => z ≤ sq V c b n mm

/-- After the last tile of a cloud the running minimum is the least distance to the whole cloud. -/
theorem acc_last (c : Dev nD) (t : Fin cfg0.N) (h9 : t.val % 10 = 9) (b : Fin 8) (hb : b.val = t.val / 10) (mm : Fin 1024) :
    accAt (F := Ideal) V c t.val t.isLt (ix2 0 mm) = Finset.univ.inf fun n : Fin 20000 => sq V c b n mm :=
  eq_of_forall_le_iff fun z => by
    rw [acc_le_iff V c t.val t.isLt b hb mm z, Finset.le_inf_iff, h9]
    exact ⟨fun h n _ => h n (by have := n.isLt; omega), fun h n _ => h n (Finset.mem_univ n)⟩

/-! ## The result array from its blocks -/

/-- The features as an array: row `b`, column `mm` holds feature `mm` of cloud `b`. -/
def featArr (c : Dev nD) : (⟨3, ![8, 1, 1024]⟩ : Shape).Idx → EReal := fun i =>
  Cert.Spec.feat (fun b d n => V c main_v0 (ix3 b n d)) (fun mm d => V c main_v1 (ix2 d mm))
    ⟨(i 0).val, (i 0).isLt⟩ ⟨(i 2).val, (i 2).isLt⟩

/-- The stored block at its one row: the square root of the running minimum. -/
theorem pay2_block (v : Vec Ideal S1x1024 .f32) (j : (⟨3, ![1, 1, 1024]⟩ : Shape).Idx) :
    k0_pay2 (F := Ideal) v j = Ideal.sqrt (v (ix2 0 (⟨(j 2).val, (j 2).isLt⟩ : Fin 1024))) := by
  obtain ⟨p, q, m, rfl⟩ : ∃ (p : Fin 1) (q : Fin 1) (m : Fin 1024), j = ix3 p q m := ⟨j 0, j 1, j 2, eq_ix3 j⟩
  have hp : p = 0 := Fin.ext (by omega)
  have hq : q = 0 := Fin.ext (by omega)
  subst hp hq
  exact pay2_apply v m

/-- A block of the result array read back is the array at the block's elements. -/
theorem read_blk2 (t : Fin cfg0.N) (G : (⟨3, ![8, 1, 1024]⟩ : Shape).Idx → EReal) (j : ((cfg0.win 2).xblock (grid0.coords t)).Idx) :
    ((cfg0.win 2).blk t).view.read (Elt Ideal) G j = G (((cfg0.win 2).blk t).view.emb j) := rfl

/-- What a last tile writes back is its block of the features. -/
theorem flushed_eq (c : Dev nD) (t : Fin cfg0.N) (h9 : t.val % 10 = 9) :
    (dat0 (F := Ideal) V c).flushed 2 t = ((cfg0.win 2).blk t).view.read (Elt Ideal) (featArr V c) := by
  show (cfg0.win 2).cut (grid0.coords t) ((dat0 V c).after 2 t) = _
  rw [after0_2]
  obtain ⟨-, -, -, -, -, e0, e1, e2⟩ := idx_facts t
  funext j
  refine Eq.trans ?_ (read_blk2 t (featArr V c) j).symm
  show k0_pay2 (accAt V c t.val t.isLt) ((cfg0.win 2).xinj (grid0.coords t) j) = _
  refine (pay2_block (accAt V c t.val t.isLt) ((cfg0.win 2).xinj (grid0.coords t) j)).trans ?_
  unfold featArr Cert.Spec.feat
  refine congrArg Ideal.sqrt ?_
  have hj0 : (j 0).val < 1 := (j 0).isLt
  have hm : (⟨(((cfg0.win 2).xinj (grid0.coords t) j) 2).val, (((cfg0.win 2).xinj (grid0.coords t) j) 2).isLt⟩ : Fin 1024)
      = ⟨((((cfg0.win 2).blk t).view.emb j) 2).val, ((((cfg0.win 2).blk t).view.emb j) 2).isLt⟩ :=
    Fin.ext (by show (j 2).val = win0_2.index t (2 : Fin 3) * 1024 + 1 * (j 2).val; omega)
  rw [hm]
  exact acc_last V c t h9 _ (by show win0_2.index t (0 : Fin 3) * 1 + 1 * (j 0).val = t.val / 10; omega) _

/-- Row `b` of the result lies in the block of the point that ends cloud `b`. -/
theorem mem_last_blk (t : Fin cfg0.N) (b : Fin 8) (hb : b.val = t.val / 10) (mm : Fin 1024) :
    (ix3 b 0 mm : (⟨3, ![8, 1, 1024]⟩ : Shape).Idx) ∈ ((cfg0.win 2).blk t).view.set := by
  show _ ∈ ((View.whole main_v2).slice (win0_2.rect t)).set
  rw [View.set_slice_whole, Rect.mem_set_unit]
  obtain ⟨-, -, -, -, -, e0, e1, e2⟩ := idx_facts t
  intro a
  match a with
  | ⟨0, _⟩ => show win0_2.index t (0 : Fin 3) * 1 ≤ b.val ∧ b.val < win0_2.index t (0 : Fin 3) * 1 + 1; omega
  | ⟨1, _⟩ => show win0_2.index t (1 : Fin 3) * 1 ≤ 0 ∧ 0 < win0_2.index t (1 : Fin 3) * 1 + 1; omega
  | ⟨2, _⟩ => show win0_2.index t (2 : Fin 3) * 1024 ≤ mm.val ∧ mm.val < win0_2.index t (2 : Fin 3) * 1024 + 1024; have := mm.isLt; omega

end Bps

open Bps

/-- THE FIRST REGION'S RESULT: after the run, row `b`, column `mm` of the result array is feature `mm` of cloud `b`. -/
theorem bps_arr (c : Dev nD) (b : Fin 8) (mm : Fin 1024) :
    (dat0 (F := Ideal) V c).arrAt 2 cfg0.N (ix3 b 0 mm)
      = Cert.Spec.feat (fun b d n => V c main_v0 (ix3 b n d)) (fun mm d => V c main_v1 (ix2 d mm)) b mm := by
  have hlt : 10 * b.val + 9 < cfg0.N := by rw [N80]; have := b.isLt; omega
  have h9 : (10 * b.val + 9) % 10 = 9 := by omega
  have hb : b.val = (10 * b.val + 9) / 10 := by omega
  exact (dat0 (F := Ideal) V c).arrAt_apply_of_mem 2 (featArr V c) (fun t hf => flushed_eq V c t ((flush0_2 t).mp hf))
    cfg0.N ⟨10 * b.val + 9, hlt⟩ (ix3 b 0 mm) hlt ((flush0_2 _).mpr h9) (mem_last_blk ⟨10 * b.val + 9, hlt⟩ b hb mm)

end Cert.KernelIdeal.HandValue

end
-- ==== Proof.MlpValue.lean ====
/-
  The second region's result array after its run, index by index, over the extended reals.

  The region has one grid point, and at it every window's block index is zero on both axes while the block has the
  array's own extents: a block's element sits in its array at its own coordinates, so reading an array through its
  block gives the array back. The thirteen input blocks are therefore the arrays as the region finds them, what the
  one point writes back is the network's output computed from those arrays, and the written block covers the output
  array: the array ends holding that output, which read at row `b` is the specification's `head`.
-/
import proofs.«103095_j12017318494451_1_alg».proof.Proof.MlpFrame
import proofs.«103095_j12017318494451_1_alg».proof.Proof.KernelPayload
import proofs.«103095_j12017318494451_1_alg».proof.Proof.Spec
import Idealize.ShloMosaic.Lib.Pipeline.Value
import Idealize.ShloMosaic.Lib.ValueIdx

noncomputable section

namespace Cert.KernelIdeal.HandValue

open Cert.KernelIdeal Cert.KernelIdeal.Gen Cert.KernelIdeal.Hand Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

namespace Mlp

/-! ## The one point's blocks are the whole arrays -/

/-- Every window's block index at the one grid point is zero on each axis. -/
theorem idx_zero : ∀ (w : Fin cfg1.W) (t : Fin cfg1.N) (a : Fin (cfg1.win w).shape.rank), (cfg1.win w).index t a = 0 :=
  (by decide +kernel : ∀ (w : Fin 14) (t : Fin grid1.N) (a : Fin (win1 w).shape.rank), (win1 w).index t a = 0)

/-- The block of the features is the array. -/
theorem blk_feat (c : Dev nD) (t : Fin cfg1.N) : iblk1 (F := Ideal) V c 0 t = V c main_v3 := by
  funext y
  show V c main_v3 (((cfg1.win 0).blk t).view.emb y) = V c main_v3 y
  congr 1; funext a; apply Fin.ext
  exact win1_0.rect_emb_val_of_index_zero t a (idx_zero 0 t a) y

/-- The block of the first norm's scale is the array. -/
theorem blk_gamma1 (c : Dev nD) (t : Fin cfg1.N) : iblk1 (F := Ideal) V c 1 t = V c main_v4 := by
  funext y
  show V c main_v4 (((cfg1.win 1).blk t).view.emb y) = V c main_v4 y
  congr 1; funext a; apply Fin.ext
  exact win1_1.rect_emb_val_of_index_zero t a (idx_zero 1 t a) y

/-- The block of the first norm's shift is the array. -/
theorem blk_beta1 (c : Dev nD) (t : Fin cfg1.N) : iblk1 (F := Ideal) V c 2 t = V c main_v5 := by
  funext y
  show V c main_v5 (((cfg1.win 2).blk t).view.emb y) = V c main_v5 y
  congr 1; funext a; apply Fin.ext
  exact win1_2.rect_emb_val_of_index_zero t a (idx_zero 2 t a) y

/-- The block of the first norm's mean is the array. -/
theorem blk_mean1 (c : Dev nD) (t : Fin cfg1.N) : iblk1 (F := Ideal) V c 3 t = V c main_v6 := by
  funext y
  show V c main_v6 (((cfg1.win 3).blk t).view.emb y) = V c main_v6 y
  congr 1; funext a; apply Fin.ext
  exact win1_3.rect_emb_val_of_index_zero t a (idx_zero 3 t a) y

/-- The block of the first norm's variance is the array. -/
theorem blk_var1 (c : Dev nD) (t : Fin cfg1.N) : iblk1 (F := Ideal) V c 4 t = V c main_v7 := by
  funext y
  show V c main_v7 (((cfg1.win 4).blk t).view.emb y) = V c main_v7 y
  congr 1; funext a; apply Fin.ext
  exact win1_4.rect_emb_val_of_index_zero t a (idx_zero 4 t a) y

/-- The block of the hidden layer's weights is the array. -/
theorem blk_w1 (c : Dev nD) (t : Fin cfg1.N) : iblk1 (F := Ideal) V c 5 t = V c main_arg6 := by
  funext y
  show V c main_arg6 (((cfg1.win 5).blk t).view.emb y) = V c main_arg6 y
  congr 1; funext a; apply Fin.ext
  exact win1_5.rect_emb_val_of_index_zero t a (idx_zero 5 t a) y

/-- The block of the hidden layer's bias is the array. -/
theorem blk_bias1 (c : Dev nD) (t : Fin cfg1.N) : iblk1 (F := Ideal) V c 6 t = V c main_v8 := by
  funext y
  show V c main_v8 (((cfg1.win 6).blk t).view.emb y) = V c main_v8 y
  congr 1; funext a; apply Fin.ext
  exact win1_6.rect_emb_val_of_index_zero t a (idx_zero 6 t a) y

/-- The block of the second norm's scale is the array. -/
theorem blk_gamma2 (c : Dev nD) (t : Fin cfg1.N) : iblk1 (F := Ideal) V c 7 t = V c main_v9 := by
  funext y
  show V c main_v9 (((cfg1.win 7).blk t).view.emb y) = V c main_v9 y
  congr 1; funext a; apply Fin.ext
  exact win1_7.rect_emb_val_of_index_zero t a (idx_zero 7 t a) y

/-- The block of the second norm's shift is the array. -/
theorem blk_beta2 (c : Dev nD) (t : Fin cfg1.N) : iblk1 (F := Ideal) V c 8 t = V c main_v10 := by
  funext y
  show V c main_v10 (((cfg1.win 8).blk t).view.emb y) = V c main_v10 y
  congr 1; funext a; apply Fin.ext
  exact win1_8.rect_emb_val_of_index_zero t a (idx_zero 8 t a) y

/-- The block of the second norm's mean is the array. -/
theorem blk_mean2 (c : Dev nD) (t : Fin cfg1.N) : iblk1 (F := Ideal) V c 9 t = V c main_v11 := by
  funext y
  show V c main_v11 (((cfg1.win 9).blk t).view.emb y) = V c main_v11 y
  congr 1; funext a; apply Fin.ext
  exact win1_9.rect_emb_val_of_index_zero t a (idx_zero 9 t a) y

/-- The block of the second norm's variance is the array. -/
theorem blk_var2 (c : Dev nD) (t : Fin cfg1.N) : iblk1 (F := Ideal) V c 10 t = V c main_v12 := by
  funext y
  show V c main_v12 (((cfg1.win 10).blk t).view.emb y) = V c main_v12 y
  congr 1; funext a; apply Fin.ext
  exact win1_10.rect_emb_val_of_index_zero t a (idx_zero 10 t a) y

/-- The block of the output layer's weights is the array. -/
theorem blk_w2 (c : Dev nD) (t : Fin cfg1.N) : iblk1 (F := Ideal) V c 11 t = V c main_arg12 := by
  funext y
  show V c main_arg12 (((cfg1.win 11).blk t).view.emb y) = V c main_arg12 y
  congr 1; funext a; apply Fin.ext
  exact win1_11.rect_emb_val_of_index_zero t a (idx_zero 11 t a) y

/-- The block of the output layer's bias is the array. -/
theorem blk_bias2 (c : Dev nD) (t : Fin cfg1.N) : iblk1 (F := Ideal) V c 12 t = V c main_v13 := by
  funext y
  show V c main_v13 (((cfg1.win 12).blk t).view.emb y) = V c main_v13 y
  congr 1; funext a; apply Fin.ext
  exact win1_12.rect_emb_val_of_index_zero t a (idx_zero 12 t a) y

/-! ## The output array -/

/-- An element of the output's block sits in the output array at its own coordinates. -/
theorem emb_out (t : Fin cfg1.N) (y : S8x1.Idx) : ((cfg1.win 13).blk t).view.emb y = y := by
  funext a; apply Fin.ext
  exact win1_13.rect_emb_val_of_index_zero t a (idx_zero 13 t a) y

/-- Contents of the output array, read through the point's block, are themselves. -/
theorem read_out (t : Fin cfg1.N) (A : Vec Ideal S8x1 .f32) : ((cfg1.win 13).blk t).view.read (Elt Ideal) A = A := by
  funext y
  show A (((cfg1.win 13).blk t).view.emb y) = A y
  rw [emb_out]

/-- Every index of the output array is in the block the one point writes back. -/
theorem out_covered (i : S8x1.Idx) :
    ∃ t : Fin cfg1.N, (cfg1.win 13).flush t = true ∧ i ∈ ((cfg1.win 13).blk t).view.set := by
  refine ⟨t1_0, flush1_13 t1_0, ?_⟩
  have h := ((cfg1.win 13).blk t1_0).view.emb_mem_set i
  rwa [emb_out] at h

/-- The network's output from the arrays as the region finds them: the body's payloads over the whole arrays. -/
def net (c : Dev nD) : Vec Ideal S8x1 .f32 :=
  k1_pay1 (k1_pay2 (V c main_v3) (V c main_v6) (V c main_v4) (V c main_v7) (V c main_v5) (V c main_arg6) (V c main_v8) (V c main_v11))
    (k1_pay3 (V c main_v9)) (k1_pay4 (V c main_v12)) (V c main_v10) (V c main_arg12) (V c main_v13)

/-- What the point writes back is its block of the network's output. -/
theorem flushed_out (c : Dev nD) (t : Fin cfg1.N) :
    (dat1 (F := Ideal) V c).flushed 13 t = ((cfg1.win 13).blk t).view.read (Elt Ideal) (net V c) := by
  show (cfg1.win 13).cut (grid1.coords t) ((dat1 (F := Ideal) V c).after 13 t) = _
  rw [after1_13, mlpOut_eq, blk_feat, blk_gamma1, blk_beta1, blk_mean1, blk_var1, blk_w1, blk_bias1, blk_gamma2, blk_beta2,
    blk_mean2, blk_var2, blk_w2, blk_bias2, read_out]
  rfl

/-- The output array after the run is the network's output. -/
theorem arr_out (c : Dev nD) : (dat1 (F := Ideal) V c).arrAt 13 cfg1.N = net V c :=
  (dat1 (F := Ideal) V c).arrAt_eq_of_cover 13 (net V c) (fun t _ => flushed_out V c t) out_covered

end Mlp

/-- The output array after the run, at row `b`, is the specification's network output of the arrays as the region finds
    them. -/
theorem mlp_arr (c : Dev nD) (b : Fin 8) :
    (dat1 (F := Ideal) V c).arrAt 13 cfg1.N (ix2 b 0)
      = Cert.Spec.head (fun b j => V c main_v3 (ix2 b j)) (fun j => V c main_v4 (ix2 0 j)) (fun j => V c main_v5 (ix2 0 j)) (fun j => V c main_v6 (ix2 0 j)) (fun j => V c main_v7 (ix2 0 j)) (fun h j => V c main_arg6 (ix2 h j)) (fun j => V c main_v8 (ix2 0 j)) (fun j => V c main_v9 (ix2 0 j)) (fun j => V c main_v10 (ix2 0 j)) (fun j => V c main_v11 (ix2 0 j)) (fun j => V c main_v12 (ix2 0 j)) (fun h => V c main_arg12 (ix2 0 h)) (V c main_v13 (ix2 0 0)) b := by
  rw [Mlp.arr_out]
  exact mlp_apply (V c main_v3) (V c main_v4) (V c main_v5) (V c main_v6) (V c main_v7) (V c main_arg6) (V c main_v8) (V c main_v9)
    (V c main_v10) (V c main_v11) (V c main_v12) (V c main_arg12) (V c main_v13) b

end Cert.KernelIdeal.HandValue

end
-- ==== Proof.KernelValue.lean ====
/-
  The kernel program's result array is the specification of its argument arrays, over the extended reals.

  The run leaves the result array at what the second region's write-back leaves. That is the network's output of the
  buffers the second region finds: the reshaped argument vectors, the two weight matrices as launched, and the
  first region's result viewed as an `[8, 1024]` matrix. The first region's result is the features of the arrays it
  finds, the clouds with their last two axes exchanged and the basis transposed. Reading each reshape and transpose
  at an index and substituting gives the specification of the launch arrays.
-/
import proofs.«103095_j12017318494451_1_alg».proof.Proof.Run
import proofs.«103095_j12017318494451_1_alg».proof.Proof.KernelPayload
import proofs.«103095_j12017318494451_1_alg».proof.Proof.Spec
import proofs.«103095_j12017318494451_1_alg».proof.Proof.BpsValue
import proofs.«103095_j12017318494451_1_alg».proof.Proof.MlpValue
import Idealize.ShloMosaic.Lib.StableHlo.Run
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-! ## The host operations read at an index -/

/-- A vector viewed as a one-row matrix reads, at `(0, j)`, the vector at `j`. -/
theorem row_view (x : S1024.Idx → EReal) (h : S1024.ShapeCasts S1x1024) (j : Fin 1024) :
    shapeCast S1x1024 x h (ix2 0 j) = x (ix1 j) := by
  refine (shapeCast_apply x h (ix2 0 j) (ix1 j) ?_)
  rw [Shape.rowMajor_val_two, Shape.rowMajor_val_one]
  show j.val = 0 * 1024 + j.val
  omega

/-- The one-element vector viewed as a one-by-one matrix. -/
theorem one_view (x : S1.Idx → EReal) (h : S1.ShapeCasts S1x1) : shapeCast S1x1 x h (ix2 0 0) = x (ix1 0) := by
  refine (shapeCast_apply x h (ix2 0 0) (ix1 0) ?_)
  rw [Shape.rowMajor_val_two, Shape.rowMajor_val_one]
  rfl

/-- The first region's result `[8, 1, 1024]` viewed `[8, 1024]` reads, at `(b, j)`, the result at `(b, 0, j)`. -/
theorem mid_view (x : S8x1x1024.Idx → EReal) (h : S8x1x1024.ShapeCasts S8x1024) (b : Fin 8) (j : Fin 1024) :
    shapeCast S8x1024 x h (ix2 b j) = x (ix3 b 0 j) := by
  refine (shapeCast_apply x h (ix2 b j) (ix3 b 0 j) ?_)
  rw [Shape.rowMajor_val_two, Shape.rowMajor_val_three]
  show (b.val * 1 + 0) * 1024 + j.val = b.val * 1024 + j.val
  omega

/-- The clouds as the first region finds them: the launch array with its last two axes exchanged. -/
theorem v0_read (c : Dev nD) (b : Fin 8) (n : Fin 20000) (d : Fin 3) :
    Gen.V1 m c main_v0 (ix3 b n d) = m ((c : Thread nD τ).loc main_arg0) (ix3 b d n) := by
  have e : Gen.V1 m c main_v0 = transpose S8x20000x3 [0, 2, 1] (m ((c : Thread nD τ).loc main_arg0)) transposes_S8x3x20000_S8x20000x3_0_2_1 := by
    show StableHlo.after hostOps0 (Gen.V0 m c) (Proc.devRef .tc main_v0) = _
    after_results <;> rfl
  rw [e]
  exact transpose_apply [0, 2, 1] _ transposes_S8x3x20000_S8x20000x3_0_2_1 (ix3 b n d) (ix3 b d n) (fun a => match a with
    | ⟨0, _⟩ => rfl
    | ⟨1, _⟩ => rfl
    | ⟨2, _⟩ => rfl)

/-- The basis as the first region finds it: the launch array transposed. -/
theorem v1_read (c : Dev nD) (d : Fin 3) (mm : Fin 1024) :
    Gen.V1 m c main_v1 (ix2 d mm) = m ((c : Thread nD τ).loc main_arg1) (ix2 mm d) := by
  have e : Gen.V1 m c main_v1 = transpose S3x1024 [1, 0] (m ((c : Thread nD τ).loc main_arg1)) transposes_S1024x3_S3x1024_1_0 := by
    show StableHlo.after hostOps0 (Gen.V0 m c) (Proc.devRef .tc main_v1) = _
    after_results <;> rfl
  rw [e]
  exact transpose_apply [1, 0] _ transposes_S1024x3_S3x1024_1_0 (ix2 d mm) (ix2 mm d) (fun a => match a with
    | ⟨0, _⟩ => rfl
    | ⟨1, _⟩ => rfl)

/-- An argument array reaches the second region as launched. -/
theorem W2_arg (c : Dev nD) (r : Ref sig .tc) (h2 : r ≠ main_v2) (h01 : r ∉ (Gen.hostOps0_W : List (Ref sig .tc))) :
    W2 m c r = m ((c : Thread nD τ).loc r) :=
  (W2_of m c r h2).trans (Gen.V1_of m c r h01)

/-! ## The reshapes before the second region, read at an index -/

/-- The features the second region reads are the first region's result. -/
theorem v3_read (c : Dev nD) (b : Fin 8) (j : Fin 1024) :
    W3 m c main_v3 (ix2 b j) = (dat0 (U1 m) c).arrAt 2 cfg0.N (ix3 b 0 j) := by
  have e : W3 m c main_v3 = shapeCast S8x1024 (W2 m c main_v2) shapeCasts_S8x1x1024_S8x1024 := by
    show StableHlo.after hostOps1 (W2 m c) (Proc.devRef .tc main_v3) = _
    after_results <;> rfl
  rw [e, mid_view, W2_v2]

/-! Each reshaped argument vector, read at `(0, j)`, is the launch vector at `j`. -/

theorem v4_read (c : Dev nD) (j : Fin 1024) : W3 m c main_v4 (ix2 0 j) = m ((c : Thread nD τ).loc main_arg2) (ix1 j) := by
  have e : W3 m c main_v4 = shapeCast S1x1024 (W2 m c main_arg2) shapeCasts_S1024_S1x1024 := by
    show StableHlo.after hostOps1 (W2 m c) (Proc.devRef .tc main_v4) = _
    after_results <;> rfl
  rw [e, row_view, W2_arg m c main_arg2 (by decide) (by decide)]

theorem v5_read (c : Dev nD) (j : Fin 1024) : W3 m c main_v5 (ix2 0 j) = m ((c : Thread nD τ).loc main_arg3) (ix1 j) := by
  have e : W3 m c main_v5 = shapeCast S1x1024 (W2 m c main_arg3) shapeCasts_S1024_S1x1024 := by
    show StableHlo.after hostOps1 (W2 m c) (Proc.devRef .tc main_v5) = _
    after_results <;> rfl
  rw [e, row_view, W2_arg m c main_arg3 (by decide) (by decide)]

theorem v6_read (c : Dev nD) (j : Fin 1024) : W3 m c main_v6 (ix2 0 j) = m ((c : Thread nD τ).loc main_arg4) (ix1 j) := by
  have e : W3 m c main_v6 = shapeCast S1x1024 (W2 m c main_arg4) shapeCasts_S1024_S1x1024 := by
    show StableHlo.after hostOps1 (W2 m c) (Proc.devRef .tc main_v6) = _
    after_results <;> rfl
  rw [e, row_view, W2_arg m c main_arg4 (by decide) (by decide)]

theorem v7_read (c : Dev nD) (j : Fin 1024) : W3 m c main_v7 (ix2 0 j) = m ((c : Thread nD τ).loc main_arg5) (ix1 j) := by
  have e : W3 m c main_v7 = shapeCast S1x1024 (W2 m c main_arg5) shapeCasts_S1024_S1x1024 := by
    show StableHlo.after hostOps1 (W2 m c) (Proc.devRef .tc main_v7) = _
    after_results <;> rfl
  rw [e, row_view, W2_arg m c main_arg5 (by decide) (by decide)]

theorem v8_read (c : Dev nD) (j : Fin 1024) : W3 m c main_v8 (ix2 0 j) = m ((c : Thread nD τ).loc main_arg7) (ix1 j) := by
  have e : W3 m c main_v8 = shapeCast S1x1024 (W2 m c main_arg7) shapeCasts_S1024_S1x1024 := by
    show StableHlo.after hostOps1 (W2 m c) (Proc.devRef .tc main_v8) = _
    after_results <;> rfl
  rw [e, row_view, W2_arg m c main_arg7 (by decide) (by decide)]

theorem v9_read (c : Dev nD) (j : Fin 1024) : W3 m c main_v9 (ix2 0 j) = m ((c : Thread nD τ).loc main_arg8) (ix1 j) := by
  have e : W3 m c main_v9 = shapeCast S1x1024 (W2 m c main_arg8) shapeCasts_S1024_S1x1024 := by
    show StableHlo.after hostOps1 (W2 m c) (Proc.devRef .tc main_v9) = _
    after_results <;> rfl
  rw [e, row_view, W2_arg m c main_arg8 (by decide) (by decide)]

theorem v10_read (c : Dev nD) (j : Fin 1024) : W3 m c main_v10 (ix2 0 j) = m ((c : Thread nD τ).loc main_arg9) (ix1 j) := by
  have e : W3 m c main_v10 = shapeCast S1x1024 (W2 m c main_arg9) shapeCasts_S1024_S1x1024 := by
    show StableHlo.after hostOps1 (W2 m c) (Proc.devRef .tc main_v10) = _
    after_results <;> rfl
  rw [e, row_view, W2_arg m c main_arg9 (by decide) (by decide)]

theorem v11_read (c : Dev nD) (j : Fin 1024) : W3 m c main_v11 (ix2 0 j) = m ((c : Thread nD τ).loc main_arg10) (ix1 j) := by
  have e : W3 m c main_v11 = shapeCast S1x1024 (W2 m c main_arg10) shapeCasts_S1024_S1x1024 := by
    show StableHlo.after hostOps1 (W2 m c) (Proc.devRef .tc main_v11) = _
    after_results <;> rfl
  rw [e, row_view, W2_arg m c main_arg10 (by decide) (by decide)]

theorem v12_read (c : Dev nD) (j : Fin 1024) : W3 m c main_v12 (ix2 0 j) = m ((c : Thread nD τ).loc main_arg11) (ix1 j) := by
  have e : W3 m c main_v12 = shapeCast S1x1024 (W2 m c main_arg11) shapeCasts_S1024_S1x1024 := by
    show StableHlo.after hostOps1 (W2 m c) (Proc.devRef .tc main_v12) = _
    after_results <;> rfl
  rw [e, row_view, W2_arg m c main_arg11 (by decide) (by decide)]

theorem v13_read (c : Dev nD) : W3 m c main_v13 (ix2 0 0) = m ((c : Thread nD τ).loc main_arg13) (ix1 0) := by
  have e : W3 m c main_v13 = shapeCast S1x1 (W2 m c main_arg13) shapeCasts_S1_S1x1 := by
    show StableHlo.after hostOps1 (W2 m c) (Proc.devRef .tc main_v13) = _
    after_results <;> rfl
  rw [e, one_view, W2_arg m c main_arg13 (by decide) (by decide)]

/-- The two weight matrices reach the second region as launched. -/
theorem w1_read (c : Dev nD) : W3 m c main_arg6 = m ((c : Thread nD τ).loc main_arg6) :=
  (W3_of m c main_arg6 (by decide)).trans (W2_arg m c main_arg6 (by decide) (by decide))
theorem w2_read (c : Dev nD) : W3 m c main_arg12 = m ((c : Thread nD τ).loc main_arg12) :=
  (W3_of m c main_arg12 (by decide)).trans (W2_arg m c main_arg12 (by decide) (by decide))

/-! ## The program's result is the specification -/

/-- The result array after the run is the specification of the launch arrays: the second region's output of the
    reshaped arguments and of the first region's result, which is the features of the transposed clouds and basis. -/
theorem kernel_value (c : Dev nD) :
    W4 m c main_v14 = Cert.Spec.G (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12)) (m ((c : Thread nD τ).loc main_arg13)) := by
  funext i
  obtain ⟨b, z, rfl⟩ : ∃ (b : Fin 8) (z : Fin 1), i = ix2 b z := ⟨i 0, i 1, eq_ix2 i⟩
  obtain rfl : z = 0 := Subsingleton.elim _ _
  rw [W4_v14, mlp_arr (U3 m) c b]
  have hf : (fun (b : Fin 8) (j : Fin 1024) => U3 m c main_v3 (ix2 b j))
      = Cert.Spec.feat (fun b d n => m ((c : Thread nD τ).loc main_arg0) (ix3 b d n)) (fun mm d => m ((c : Thread nD τ).loc main_arg1) (ix2 mm d)) := by
    funext b j
    show W3 m c main_v3 (ix2 b j) = _
    rw [v3_read, bps_arr (U1 m) c b j]
    congr 1
    · funext b d n; exact v0_read m c b n d
    · funext mm d; exact v1_read m c d mm
  have h4 : (fun j : Fin 1024 => U3 m c main_v4 (ix2 0 j)) = fun j => m ((c : Thread nD τ).loc main_arg2) (ix1 j) := funext fun j => v4_read m c j
  have h5 : (fun j : Fin 1024 => U3 m c main_v5 (ix2 0 j)) = fun j => m ((c : Thread nD τ).loc main_arg3) (ix1 j) := funext fun j => v5_read m c j
  have h6 : (fun j : Fin 1024 => U3 m c main_v6 (ix2 0 j)) = fun j => m ((c : Thread nD τ).loc main_arg4) (ix1 j) := funext fun j => v6_read m c j
  have h7 : (fun j : Fin 1024 => U3 m c main_v7 (ix2 0 j)) = fun j => m ((c : Thread nD τ).loc main_arg5) (ix1 j) := funext fun j => v7_read m c j
  have h8 : (fun j : Fin 1024 => U3 m c main_v8 (ix2 0 j)) = fun j => m ((c : Thread nD τ).loc main_arg7) (ix1 j) := funext fun j => v8_read m c j
  have h9 : (fun j : Fin 1024 => U3 m c main_v9 (ix2 0 j)) = fun j => m ((c : Thread nD τ).loc main_arg8) (ix1 j) := funext fun j => v9_read m c j
  have h10 : (fun j : Fin 1024 => U3 m c main_v10 (ix2 0 j)) = fun j => m ((c : Thread nD τ).loc main_arg9) (ix1 j) := funext fun j => v10_read m c j
  have h11 : (fun j : Fin 1024 => U3 m c main_v11 (ix2 0 j)) = fun j => m ((c : Thread nD τ).loc main_arg10) (ix1 j) := funext fun j => v11_read m c j
  have h12 : (fun j : Fin 1024 => U3 m c main_v12 (ix2 0 j)) = fun j => m ((c : Thread nD τ).loc main_arg11) (ix1 j) := funext fun j => v12_read m c j
  have hw1 : (fun (h j : Fin 1024) => U3 m c main_arg6 (ix2 h j)) = fun h j => m ((c : Thread nD τ).loc main_arg6) (ix2 h j) := by
    funext h j; show W3 m c main_arg6 (ix2 h j) = _; rw [w1_read]
  have hw2 : (fun h : Fin 1024 => U3 m c main_arg12 (ix2 0 h)) = fun h => m ((c : Thread nD τ).loc main_arg12) (ix2 0 h) := by
    funext h; show W3 m c main_arg12 (ix2 0 h) = _; rw [w2_read]
  have h13 : U3 m c main_v13 (ix2 0 0) = m ((c : Thread nD τ).loc main_arg13) (ix1 0) := v13_read m c
  rw [hf, h4, h5, h6, h7, h8, h9, h10, h11, h12, hw1, hw2, h13]
  rfl

end Cert.KernelIdeal.HandValue

end
-- ==== Proof.RefFeat.lean ====
/-
  The reference's features, read at an index, over the extended reals.

  The reference transposes the clouds to [8, 20000, 3], forms the squared norms of the points and of the basis points as
  sums of three squares from zero, the cross terms as a contraction over the three coordinates, combines them as
  `|p|² + |q|² - 2 <p, q>`, clips below at zero, takes the minimum over the 20000 points from `+∞`, and the square root.
  Read at cloud `b` and basis point `m` this is the specification's `feat`: only `0 + a = a`, the commutativity of `max`,
  and the sum over `Fin 3` written out from the left are used, so no finiteness is needed.
-/
import proofs.«103095_j12017318494451_1_alg».proof.Proof.Gen.ReferenceIdeal.Read
import proofs.«103095_j12017318494451_1_alg».proof.Proof.Spec
import Idealize.ShloMosaic.PureOps.Reduce
import Idealize.ShloMosaic.PureOps.Ideal.Laws
import Idealize.ShloMosaic.Lib.ValueIdx
import Idealize.ShloMosaic.Lib.Pipeline.Value

noncomputable section

namespace Cert.RefValue

open Cert.ReferenceIdeal Cert.ReferenceIdeal.Read Idealize.ShloMosaic Idealize.ShloMosaic.ValueIdx
open scoped BigOperators

/-- The squared norm of point `n` of cloud `b`, broadcast over the basis points: `0 + ∑ d, x b d n * x b d n`, the transpose
    read back to the cloud's own layout. -/
private theorem v8_at (x0 : (⟨S8x3x20000, .f32⟩ : BufTy).Contents (Elt Ideal)) (b : Fin 8) (n : Fin 20000) (m : Fin 1024) :
    val_main_v8 (F := Ideal) x0 (ix3 b n m) = ∑ d : Fin 3, (x0 (ix3 b d n) : EReal) * x0 (ix3 b d n) := by
  rw [val_main_v8_apply, val_main_v6_apply, val_main_v2_apply, val_main_cst_apply]
  show Ideal.ofBits .f32 0x00000000#32 + _ = _
  rw [Ideal.ofBits_zero_f32, zero_add]
  refine Finset.sum_congr rfl fun d _ => ?_
  rw [val_main_v1_apply, val_main_v0_apply]
  have e : idx_main_v0 (idx_main_v2 (idx_main_v6 (idx_main_v8 (ix3 b n m))) d) = ix3 b d n := by
    funext a; match a with | ⟨0, _⟩ => rfl | ⟨1, _⟩ => rfl | ⟨2, _⟩ => rfl
  rw [e]
  rfl

/-- The squared norm of basis point `m`, broadcast over clouds and points: `0 + ∑ d, q m d * q m d`. -/
private theorem v9_at (x1 : (⟨S1024x3, .f32⟩ : BufTy).Contents (Elt Ideal)) (b : Fin 8) (n : Fin 20000) (m : Fin 1024) :
    val_main_v9 (F := Ideal) x1 (ix3 b n m) = ∑ d : Fin 3, (x1 (ix2 m d) : EReal) * x1 (ix2 m d) := by
  rw [val_main_v9_apply, val_main_v7_apply, val_main_v4_apply, val_main_cst_0_apply]
  show Ideal.ofBits .f32 0x00000000#32 + _ = _
  rw [Ideal.ofBits_zero_f32, zero_add]
  refine Finset.sum_congr rfl fun d _ => ?_
  rw [val_main_v3_apply]
  have e : idx_main_v4 (idx_main_v7 (idx_main_v9 (ix3 b n m))) d = ix2 m d := by
    funext a; match a with | ⟨0, _⟩ => rfl | ⟨1, _⟩ => rfl
  rw [e]
  rfl

/-- The inner product of point `n` of cloud `b` with basis point `m`: the contraction over the three coordinates. -/
private theorem v5_at (x0 : (⟨S8x3x20000, .f32⟩ : BufTy).Contents (Elt Ideal)) (x1 : (⟨S1024x3, .f32⟩ : BufTy).Contents (Elt Ideal))
    (b : Fin 8) (n : Fin 20000) (m : Fin 1024) :
    val_main_v5 (F := Ideal) x0 x1 (ix3 b n m) = ∑ d : Fin 3, (x0 (ix3 b d n) : EReal) * x1 (ix2 m d) := by
  rw [val_main_v5_apply]
  refine Finset.sum_congr rfl fun d _ => ?_
  rw [val_main_v0_apply]
  have el : idx_main_v0 (lidx_main_v5 (ix3 b n m) d) = ix3 b d n := by
    funext a; match a with | ⟨0, _⟩ => rfl | ⟨1, _⟩ => rfl | ⟨2, _⟩ => rfl
  have er : ridx_main_v5 (ix3 b n m) d = ix2 m d := by
    funext a; match a with | ⟨0, _⟩ => rfl | ⟨1, _⟩ => rfl
  rw [el, er]

/-- The clipped squared distance at (cloud `b`, point `n`, basis point `m`) is the specification's `sqdist`: the sum over
    `Fin 3` is `(t 0 + t 1) + t 2`, and `max 0 a = max a 0`. -/
private theorem v14_at (x0 : (⟨S8x3x20000, .f32⟩ : BufTy).Contents (Elt Ideal)) (x1 : (⟨S1024x3, .f32⟩ : BufTy).Contents (Elt Ideal))
    (b : Fin 8) (n : Fin 20000) (m : Fin 1024) :
    val_main_v14 (F := Ideal) x0 x1 (ix3 b n m)
      = Cert.Spec.sqdist (fun d => x0 (ix3 b d n)) (fun d => x1 (ix2 m d)) := by
  rw [val_main_v14_apply, val_main_call0_v1_apply, val_main_call0_v0_apply, val_main_cst_2_apply,
    val_main_v13_apply, val_main_v10_apply, val_main_v12_apply, val_main_v11_apply, val_main_cst_1_apply,
    v8_at, v9_at, v5_at]
  unfold Cert.Spec.sqdist
  simp only [Fin.sum_univ_three]
  exact max_comm _ _

/-- The index over (cloud `b`, basis point `m`) with point `n` inserted on the reduced axis is (`b`, `n`, `m`). -/
private theorem lift_at (hR : S8x20000x1024.Reduces [1] S8x1024) (b : Fin 8) (m : Fin 1024) (n : Fin 20000) :
    hR.lift (ix2 b m) n = ix3 b n m := by
  funext a; match a with | ⟨0, _⟩ => rfl | ⟨1, _⟩ => rfl | ⟨2, _⟩ => rfl

/-- Feature `m` of cloud `b` as the reference computes it is the specification's: the square root of the minimum over the
    cloud's points, from `+∞`, of the clipped squared distance to basis point `m`. The minimum over one axis is a fold of
    `min` from `⊤` over that axis's coordinates, which is the infimum over `Fin 20000`. -/
theorem ref_feat (x0 : (⟨S8x3x20000, .f32⟩ : BufTy).Contents (Elt Ideal)) (x1 : (⟨S1024x3, .f32⟩ : BufTy).Contents (Elt Ideal)) (b : Fin 8) (m : Fin 1024) :
    val_main_v16 (F := Ideal) x0 x1 (ix2 b m) = Cert.Spec.feat (fun b d n => x0 (ix3 b d n)) (fun m d => x1 (ix2 m d)) b m := by
  have hR : S8x20000x1024.Reduces [1] S8x1024 := by decide
  have hfold : val_main_v15 (F := Ideal) x0 x1 (ix2 b m) = _ :=
    Host.reduce_eq_fold_single (FloatOps.minimumf (F := Ideal) (φ := .f32)) (val_main_v14 (F := Ideal) x0 x1)
      (val_main_cst_3 (F := Ideal)) Gen.reducesTo_S8x20000x1024_S8x1024_d1 hR Gen.h_S_ (ix2 b m)
  rw [val_main_v16_apply, hfold, Ideal.hostUnary_sqrt_def]
  unfold Cert.Spec.feat
  refine congrArg Ideal.sqrt ?_
  have hf : (val_main_v14 (F := Ideal) x0 x1 ∘ hR.lift (ix2 b m))
      = fun n : Fin 20000 => Cert.Spec.sqdist (fun d => x0 (ix3 b d n)) (fun d => x1 (ix2 m d)) := by
    funext n
    exact (congrArg (val_main_v14 (F := Ideal) x0 x1) (lift_at hR b m n)).trans (v14_at x0 x1 b n m)
  rw [hf]
  have htop : val_main_cst_3 (F := Ideal) (Shape.Idx.first Gen.h_S_) = (⊤ : EReal) := by
    show Ideal.ofBits .f32 0x7F800000#32 = ⊤
    simp [Ideal.ofBits, Ideal.ieee]
  rw [htop]
  rfl

end Cert.RefValue

end
-- ==== Proof.RefMlp.lean ====
/-
  The reference program's result is the specification, over the extended reals, once its features are.

  The reference normalises with `gamma / sqrt (var + eps)`, the specification with `gamma * rsqrt (var + eps)`; for a
  variance that is a nonnegative real the two scales agree, because `var + eps` is then a positive real. Everything
  else is reading the reference's arrays coordinate by coordinate: its broadcasts and transposes only move
  coordinates, and its two contractions are the sums the specification writes.
-/
import proofs.«103095_j12017318494451_1_alg».proof.Proof.Gen.ReferenceIdeal.Read
import proofs.«103095_j12017318494451_1_alg».proof.Proof.Spec
import Idealize.ShloMosaic.PureOps.Ideal.Laws
import Idealize.ShloMosaic.Lib.ValueIdx
import Idealize.ShloMosaic.Lib.Pipeline.Value

noncomputable section

namespace Cert.RefValue

open Cert.ReferenceIdeal Cert.ReferenceIdeal.Read Idealize.ShloMosaic Idealize.ShloMosaic.ValueIdx
open scoped BigOperators

/-- The batch-norm epsilon denotes a positive real, `10995116 * 2^(-40)`. -/
theorem eps_pos : ∃ e : ℝ, 0 < e ∧ Cert.Spec.eps = (e : EReal) := by
  refine ⟨10995116 * (2 : ℝ) ^ (-40 : ℤ), by positivity, ?_⟩
  simp [Cert.Spec.eps, Ideal.ofBits, Ideal.ieee, -EReal.coe_mul]

/-- For a variance `v` that is a nonnegative real, `v + eps` is a positive real `s`, so `sqrt s` is the nonzero real
    `√s`, dividing by it is multiplying by `(√s)⁻¹`, and that is `rsqrt s`. -/
theorem bn_scale (g v : EReal) (hv : 0 ≤ v ∧ v ≠ ⊤) :
    Ideal.div g (Ideal.sqrt (v + Cert.Spec.eps)) = g * Ideal.rsqrt (v + Cert.Spec.eps) := by
  obtain ⟨e, he, heq⟩ := eps_pos
  rw [heq]
  obtain ⟨h0, htop⟩ := hv
  induction v using EReal.rec with
  | bot => simp at h0
  | top => exact absurd rfl htop
  | coe r =>
    have hr : 0 ≤ r := by exact_mod_cast h0
    have hpos : 0 < r + e := by linarith
    rw [← EReal.coe_add, Ideal.sqrt_coe, Ideal.rsqrt_coe, if_neg (not_lt.mpr hpos.le), if_neg (not_lt.mpr hpos.le),
      if_neg hpos.ne']
    have hs : Real.sqrt (r + e) ≠ 0 := (Real.sqrt_pos.mpr hpos).ne'
    rw [Ideal.div_coe hs, one_div]

section Chain

variable (x0 : (⟨S8x3x20000, .f32⟩ : BufTy).Contents (Elt Ideal)) (x1 : (⟨S1024x3, .f32⟩ : BufTy).Contents (Elt Ideal))
  (x2 x3 x4 x5 : (⟨S1024, .f32⟩ : BufTy).Contents (Elt Ideal)) (x6 : (⟨S1024x1024, .f32⟩ : BufTy).Contents (Elt Ideal))
  (x7 x8 x9 x10 x11 : (⟨S1024, .f32⟩ : BufTy).Contents (Elt Ideal)) (x12 : (⟨S1x1024, .f32⟩ : BufTy).Contents (Elt Ideal))
  (x13 : (⟨S1, .f32⟩ : BufTy).Contents (Elt Ideal))

/-- A vector broadcast along the rows, read at `(b, j)`, is the vector at `j`. -/
theorem row_bcast_idx (b : Fin 8) (j : Fin 1024) : idx_main_v17 (idx_main_v18 (ix2 b j)) = ix1 j := by
  funext a; match a with | ⟨0, _⟩ => rfl

/-- The reference's scale `gamma / sqrt (var + eps)`, broadcast along the rows and read at `(b, j)`, is the
    specification's `gamma j * rsqrt (var j + eps)`. -/
theorem scale_eq (g v : (⟨S1024, .f32⟩ : BufTy).Contents (Elt Ideal)) (hv : ∀ i, 0 ≤ v i ∧ v i ≠ ⊤) (b : Fin 8) (j : Fin 1024) :
    val_main_v25 (F := Ideal) g v (ix2 b j) = g (ix1 j) * Ideal.rsqrt (v (ix1 j) + Cert.Spec.eps) := by
  rw [val_main_v25_apply, val_main_v24_apply, val_main_v23_apply, val_main_v22_apply, val_main_v21_apply, val_main_v20_apply,
    val_main_cst_4_apply]
  have e : idx_main_v24 (idx_main_v25 (ix2 b j)) = ix1 j := by
    funext a; match a with | ⟨0, _⟩ => rfl
  rw [e]
  exact bn_scale _ _ (hv _)

/-- The first batch norm: the reference's `(f - mean) * scale + beta` at `(b, j)` is the specification's. -/
theorem norm1_eq
    (hfeat : ∀ (b : Fin 8) (m : Fin 1024), val_main_v16 (F := Ideal) x0 x1 (ix2 b m)
      = Cert.Spec.feat (fun b d n => x0 (ix3 b d n)) (fun m d => x1 (ix2 m d)) b m)
    (h5 : ∀ i, 0 ≤ x5 i ∧ x5 i ≠ ⊤) (b : Fin 8) (j : Fin 1024) :
    val_main_v29 (F := Ideal) x0 x1 x2 x3 x4 x5 (ix2 b j)
      = Cert.Spec.norm1 (Cert.Spec.feat (fun b d n => x0 (ix3 b d n)) (fun m d => x1 (ix2 m d)))
          (fun j => x2 (ix1 j)) (fun j => x3 (ix1 j)) (fun j => x4 (ix1 j)) (fun j => x5 (ix1 j)) b j := by
  rw [val_main_v29_apply, val_main_v26_apply, val_main_v19_apply, val_main_v18_apply, val_main_v17_apply,
    val_main_v28_apply, val_main_v27_apply, hfeat, scale_eq x2 x5 h5]
  have e1 : idx_main_v17 (idx_main_v18 (ix2 b j)) = ix1 j := by
    funext a; match a with | ⟨0, _⟩ => rfl
  have e2 : idx_main_v27 (idx_main_v28 (ix2 b j)) = ix1 j := by
    funext a; match a with | ⟨0, _⟩ => rfl
  rw [e1, e2]
  rfl

/-- The hidden layer: the reference contracts the normalised features against the transposed weights, adds the
    bias and takes the maximum with zero, which is the specification's sum over `j` against row `h`. -/
theorem hidden_eq
    (hfeat : ∀ (b : Fin 8) (m : Fin 1024), val_main_v16 (F := Ideal) x0 x1 (ix2 b m)
      = Cert.Spec.feat (fun b d n => x0 (ix3 b d n)) (fun m d => x1 (ix2 m d)) b m)
    (h5 : ∀ i, 0 ≤ x5 i ∧ x5 i ≠ ⊤) (b : Fin 8) (h : Fin 1024) :
    val_main_v35 (F := Ideal) x0 x1 x2 x3 x4 x5 x6 x7 (ix2 b h)
      = Cert.Spec.hidden (Cert.Spec.feat (fun b d n => x0 (ix3 b d n)) (fun m d => x1 (ix2 m d)))
          (fun j => x2 (ix1 j)) (fun j => x3 (ix1 j)) (fun j => x4 (ix1 j)) (fun j => x5 (ix1 j))
          (fun h j => x6 (ix2 h j)) (fun j => x7 (ix1 j)) b h := by
  rw [val_main_v35_apply, val_main_v34_apply, val_main_v31_apply, val_main_v33_apply, val_main_v32_apply,
    val_main_call1_v0_apply, val_main_call1_cst_apply]
  have e1 : idx_main_v32 (idx_main_v33 (ix2 b h)) = ix1 h := by
    funext a; match a with | ⟨0, _⟩ => rfl
  rw [e1]
  have es : ∀ k : Fin 1024, val_main_v29 (F := Ideal) x0 x1 x2 x3 x4 x5 (lidx_main_v31 (ix2 b h) k)
        * val_main_v30 (F := Ideal) x6 (ridx_main_v31 (ix2 b h) k)
      = Cert.Spec.norm1 (Cert.Spec.feat (fun b d n => x0 (ix3 b d n)) (fun m d => x1 (ix2 m d)))
          (fun j => x2 (ix1 j)) (fun j => x3 (ix1 j)) (fun j => x4 (ix1 j)) (fun j => x5 (ix1 j)) b k * x6 (ix2 h k) := by
    intro k
    have el : lidx_main_v31 (ix2 b h) k = ix2 b k := by
      funext a; match a with | ⟨0, _⟩ => rfl | ⟨1, _⟩ => rfl
    have er : idx_main_v30 (ridx_main_v31 (ix2 b h) k) = ix2 h k := by
      funext a; match a with | ⟨0, _⟩ => rfl | ⟨1, _⟩ => rfl
    rw [el, norm1_eq x0 x1 x2 x3 x4 x5 hfeat h5, val_main_v30_apply, er]
  rw [Finset.sum_congr rfl fun k _ => es k]
  rfl

/-- The second scale, as the first: `gamma / sqrt (var + eps)` broadcast along the rows is `gamma h * rsqrt (var h + eps)`. -/
theorem scale2_eq (g v : (⟨S1024, .f32⟩ : BufTy).Contents (Elt Ideal)) (hv : ∀ i, 0 ≤ v i ∧ v i ≠ ⊤) (b : Fin 8) (h : Fin 1024) :
    val_main_v44 (F := Ideal) g v (ix2 b h) = g (ix1 h) * Ideal.rsqrt (v (ix1 h) + Cert.Spec.eps) := by
  rw [val_main_v44_apply, val_main_v43_apply, val_main_v42_apply, val_main_v41_apply, val_main_v40_apply, val_main_v39_apply,
    val_main_cst_5_apply]
  have e : idx_main_v43 (idx_main_v44 (ix2 b h)) = ix1 h := by
    funext a; match a with | ⟨0, _⟩ => rfl
  rw [e]
  exact bn_scale _ _ (hv _)

/-- The second batch norm, on the hidden layer. -/
theorem norm2_eq
    (hfeat : ∀ (b : Fin 8) (m : Fin 1024), val_main_v16 (F := Ideal) x0 x1 (ix2 b m)
      = Cert.Spec.feat (fun b d n => x0 (ix3 b d n)) (fun m d => x1 (ix2 m d)) b m)
    (h5 : ∀ i, 0 ≤ x5 i ∧ x5 i ≠ ⊤) (h11 : ∀ i, 0 ≤ x11 i ∧ x11 i ≠ ⊤) (b : Fin 8) (h : Fin 1024) :
    val_main_v48 (F := Ideal) x0 x1 x2 x3 x4 x5 x6 x7 x8 x9 x10 x11 (ix2 b h)
      = Cert.Spec.norm2 (Cert.Spec.feat (fun b d n => x0 (ix3 b d n)) (fun m d => x1 (ix2 m d)))
          (fun j => x2 (ix1 j)) (fun j => x3 (ix1 j)) (fun j => x4 (ix1 j)) (fun j => x5 (ix1 j))
          (fun h j => x6 (ix2 h j)) (fun j => x7 (ix1 j)) (fun j => x8 (ix1 j)) (fun j => x9 (ix1 j))
          (fun j => x10 (ix1 j)) (fun j => x11 (ix1 j)) b h := by
  rw [val_main_v48_apply, val_main_v45_apply, val_main_v38_apply, val_main_v37_apply, val_main_v36_apply,
    val_main_v47_apply, val_main_v46_apply, hidden_eq x0 x1 x2 x3 x4 x5 x6 x7 hfeat h5, scale2_eq x8 x11 h11]
  have e1 : idx_main_v36 (idx_main_v37 (ix2 b h)) = ix1 h := by
    funext a; match a with | ⟨0, _⟩ => rfl
  have e2 : idx_main_v46 (idx_main_v47 (ix2 b h)) = ix1 h := by
    funext a; match a with | ⟨0, _⟩ => rfl
  rw [e1, e2]
  rfl

/-- The reference's result array is the specification's: the last contraction is the sum over `h` against the one
    row of the output weights, and the output bias is added to it. -/
theorem ref_eq
    (hfeat : ∀ (b : Fin 8) (m : Fin 1024), val_main_v16 (F := Ideal) x0 x1 (ix2 b m)
      = Cert.Spec.feat (fun b d n => x0 (ix3 b d n)) (fun m d => x1 (ix2 m d)) b m)
    (h5 : ∀ i, 0 ≤ x5 i ∧ x5 i ≠ ⊤) (h11 : ∀ i, 0 ≤ x11 i ∧ x11 i ≠ ⊤) :
    val_main_v53 (F := Ideal) x0 x1 x2 x3 x4 x5 x6 x7 x8 x9 x10 x11 x12 x13
      = Cert.Spec.G x0 x1 x2 x3 x4 x5 x6 x7 x8 x9 x10 x11 x12 x13 := by
  funext i
  obtain ⟨b, z, rfl⟩ : ∃ (b : Fin 8) (z : Fin 1), i = ix2 b z := ⟨i 0, i 1, eq_ix2 i⟩
  obtain rfl : z = 0 := Subsingleton.elim _ _
  rw [val_main_v53_apply, val_main_v50_apply, val_main_v52_apply, val_main_v51_apply]
  have e1 : idx_main_v51 (idx_main_v52 (ix2 b 0)) = ix1 0 := by
    funext a; match a with | ⟨0, _⟩ => rfl
  rw [e1]
  have es : ∀ k : Fin 1024,
      val_main_v48 (F := Ideal) x0 x1 x2 x3 x4 x5 x6 x7 x8 x9 x10 x11 (lidx_main_v50 (ix2 b 0) k)
        * val_main_v49 (F := Ideal) x12 (ridx_main_v50 (ix2 b 0) k)
      = Cert.Spec.norm2 (Cert.Spec.feat (fun b d n => x0 (ix3 b d n)) (fun m d => x1 (ix2 m d)))
          (fun j => x2 (ix1 j)) (fun j => x3 (ix1 j)) (fun j => x4 (ix1 j)) (fun j => x5 (ix1 j))
          (fun h j => x6 (ix2 h j)) (fun j => x7 (ix1 j)) (fun j => x8 (ix1 j)) (fun j => x9 (ix1 j))
          (fun j => x10 (ix1 j)) (fun j => x11 (ix1 j)) b k * x12 (ix2 0 k) := by
    intro k
    have el : lidx_main_v50 (ix2 b 0) k = ix2 b k := by
      funext a; match a with | ⟨0, _⟩ => rfl | ⟨1, _⟩ => rfl
    have er : idx_main_v49 (ridx_main_v50 (ix2 b 0) k) = ix2 0 k := by
      funext a; match a with | ⟨0, _⟩ => rfl | ⟨1, _⟩ => rfl
    rw [el, norm2_eq x0 x1 x2 x3 x4 x5 x6 x7 x8 x9 x10 x11 hfeat h5 h11, val_main_v49_apply, er]
  rw [Finset.sum_congr rfl fun k _ => es k]
  rfl

end Chain

end Cert.RefValue

end
-- ==== Proof.PreFacts.lean ====
import proofs.«103095_j12017318494451_1_alg».proof.Pre_finite_inputs
import proofs.«103095_j12017318494451_1_alg».proof.Proof.Gen.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

/-!
What the precondition says of the two variance inputs, over the extended reals.

The precondition is a conjunction of sixteen "every element satisfies p" tests: fourteen of the form
|x| < +∞, one per input, and then x ≥ 0 for each of the two variance vectors. From the claim that the
conjunction is true we read back, for each variance vector, that every entry is non-negative and is not +∞.
-/

namespace Cert.PreFacts

open Idealize.ShloMosaic Cert.Pre_finite_inputs

/-- The shape of rank zero has exactly one index. -/
instance : Subsingleton S_.Idx := ⟨fun a b => funext fun d => d.elim0⟩

/-- The bit pattern of +∞ reads as the top element of the extended reals. -/
theorem ofBits_inf : Ideal.ofBits .f32 0x7F800000#32 = (⊤ : EReal) := by
  simp [Ideal.ofBits, Ideal.ieee]

/-- If |x| = max x (-x) is strictly below +∞ then x is not +∞. -/
theorem ne_top_of_abs_lt (x : EReal) (h : Ideal.cmp .olt (max x (-x)) ⊤ = 1#1) : x ≠ ⊤ := by
  rintro rfl
  simp [Ideal.cmp] at h

/-- The test x ≥ 0 coming out true says 0 ≤ x. -/
theorem nonneg_of_oge (x : EReal) (h : Ideal.cmp .oge x 0 = 1#1) : 0 ≤ x := by
  by_contra hn
  simp [Ideal.cmp, hn] at h

variable [Facts]

/-- "Every |a i| < +∞" being true gives a i ≠ +∞ at each index. -/
theorem all_lt_inf (a : FVec Ideal S1024 .f32) (init : IVec S_ 1)
    (e : Host.reduce IntOp.andi
        (cmpf .olt (Host.absf a) (broadcastInDim S1024 ![] Facts.bcast_S_S1024 (constant (F := Ideal) S_ .f32 0x7F800000#32)))
        init Facts.reducesTo_S1024_S_d0 Facts.h_S_ ValueIdx.ix0 = 1#1) (i : S1024.Idx) : a i ≠ ⊤ := by
  have hi := Host.reduce_andi_all _ _ _ _ _ e i
  have hb : broadcastInDim S1024 ![] Facts.bcast_S_S1024 (constant (F := Ideal) S_ .f32 0x7F800000#32) i = (⊤ : EReal) := by
    rw [StableHlo.Predicate.bcast_scalar _ Facts.h_S_]
    exact ofBits_inf
  refine ne_top_of_abs_lt (a i) ?_
  rw [← hb]
  exact hi

/-- "Every a i ≥ 0" being true gives 0 ≤ a i at each index. -/
theorem all_nonneg (a : FVec Ideal S1024 .f32) (init : IVec S_ 1)
    (e : Host.reduce IntOp.andi
        (cmpf .oge a (broadcastInDim S1024 ![] Facts.bcast_S_S1024 (constant (F := Ideal) S_ .f32 0x00000000#32)))
        init Facts.reducesTo_S1024_S_d0 Facts.h_S_ ValueIdx.ix0 = 1#1) (i : S1024.Idx) : (0 : EReal) ≤ a i := by
  have hi := Host.reduce_andi_all _ _ _ _ _ e i
  have hb : broadcastInDim S1024 ![] Facts.bcast_S_S1024 (constant (F := Ideal) S_ .f32 0x00000000#32) i = (0 : EReal) := by
    rw [StableHlo.Predicate.bcast_scalar _ Facts.h_S_]
    exact Ideal.ofBits_zero_f32
  refine nonneg_of_oge (a i) ?_
  rw [← hb]
  exact hi

/-- A conjunction of two one-bit words at an index is true exactly when both are. -/
theorem and_split {x y : IVec S_ 1} {j : S_.Idx} (h : andi x y j = 1#1) : x j = 1#1 ∧ y j = 1#1 :=
  IntOp.andi_eq_one.1 h

theorem rv_facts (a0 : FVec Ideal S8x3x20000 .f32) (a1 : FVec Ideal S1024x3 .f32) (a2 a3 a4 a5 : FVec Ideal S1024 .f32)
    (a6 : FVec Ideal S1024x1024 .f32) (a7 a8 a9 a10 a11 : FVec Ideal S1024 .f32) (a12 : FVec Ideal S1x1024 .f32)
    (a13 : FVec Ideal S1 .f32)
    (h : Cert.Pre_finite_inputs.fn (F := Ideal) a0 a1 a2 a3 a4 a5 a6 a7 a8 a9 a10 a11 a12 a13 = fun _ => 1#1) :
    (∀ i, 0 ≤ a5 i ∧ a5 i ≠ ⊤) ∧ (∀ i, 0 ≤ a11 i ∧ a11 i ≠ ⊤) := by
  have h0 := congrFun h ValueIdx.ix0
  dsimp only [fn, fn_part1, fn_part2, fn_part3, fn_part4] at h0
  -- the conjunction is nested to the left: peel the last conjunct off, eleven times
  obtain ⟨h72, h75⟩ := and_split h0
  obtain ⟨h68, h71⟩ := and_split h72
  obtain ⟨h63, -⟩ := and_split h68
  obtain ⟨h58, -⟩ := and_split h63
  obtain ⟨h53, h57⟩ := and_split h58
  obtain ⟨h48, -⟩ := and_split h53
  obtain ⟨h43, -⟩ := and_split h48
  obtain ⟨h38, -⟩ := and_split h43
  obtain ⟨h33, -⟩ := and_split h38
  obtain ⟨h28, -⟩ := and_split h33
  obtain ⟨-, h27⟩ := and_split h28
  exact ⟨fun i => ⟨all_nonneg a5 _ h71 i, all_lt_inf a5 _ h27 i⟩,
    fun i => ⟨all_nonneg a11 _ h75 i, all_lt_inf a11 _ h57 i⟩⟩

end Cert.PreFacts
-- ==== Proof.lean ====
/-
  The certificate of the point-cloud encoder and its small network: the kernel program and its reference compute
  the same array over the extended reals, whenever every input is finite and the two variance vectors are
  non-negative.

  The kernel program is two kernel regions between reshuffles of its arguments. The first region walks each of the
  8 clouds in 10 tiles of 2000 points and keeps, for each of the 1024 basis points, the least clipped squared
  distance seen so far; the reference takes the minimum over all 20000 points at once; a minimum over a set is the
  minimum of the minima over a partition of it, so the two feature arrays agree. The second region and the
  reference's tail apply the same two batch norms, two linear layers and a rectifier; they differ only in the
  normalising scale, `gamma * rsqrt (var + eps)` against `gamma / sqrt (var + eps)`, which agree where `var + eps` is
  a positive real — which is what the precondition's two added conjuncts, on the reference's own domain, give.

  The frames: each program terminates without a fault and leaves its argument arrays as launched — the two kernel
  programs by the run of their four items (two stretches of host operations, two regions), the reference by its
  run as a list of host operations.
-/
import proofs.«103095_j12017318494451_1_alg».proof.Defs
import proofs.«103095_j12017318494451_1_alg».proof.Proof.Gen.Kernel
import proofs.«103095_j12017318494451_1_alg».proof.Proof.Gen.KernelIdeal
import proofs.«103095_j12017318494451_1_alg».proof.Proof.Gen.ReferenceIdeal
import proofs.«103095_j12017318494451_1_alg».proof.Proof.Gen.Pre_finite_inputs
import proofs.«103095_j12017318494451_1_alg».proof.Proof.Gen.ReferenceIdeal.Run
import proofs.«103095_j12017318494451_1_alg».proof.Proof.Gen.ReferenceIdeal.Read
import proofs.«103095_j12017318494451_1_alg».proof.Proof.KRun
import proofs.«103095_j12017318494451_1_alg».proof.Proof.Run
import proofs.«103095_j12017318494451_1_alg».proof.Proof.KernelValue
import proofs.«103095_j12017318494451_1_alg».proof.Proof.RefFeat
import proofs.«103095_j12017318494451_1_alg».proof.Proof.RefMlp
import proofs.«103095_j12017318494451_1_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the specification of the argument arrays: the kernel program by
    its run and the two regions' values, the reference by its run read one operation at a time, its scale meeting
    the kernel's because each variance is a non-negative real. -/
theorem algebraic : Cert.algebraic_KernelIdeal_ReferenceIdeal := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.HandValue.kernel_value m c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    obtain ⟨h5, h11⟩ := Cert.PreFacts.rv_facts _ _ _ _ _ _ _ _ _ _ _ _ _ _ (hpre c)
    rw [Cert.ReferenceIdeal.Read.val_main_v53_eq, e0, e1, e2, e3, e4, e5, e6, e7, e8, e9, e10, e11, e12, e13]
    exact Cert.RefValue.ref_eq _ _ _ _ _ _ _ _ _ _ _ _ _ _ (Cert.RefValue.ref_feat _ _) h5 h11

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
